-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1024x4096 : Shape := ⟨2, ![1024, 4096]⟩
abbrev S1024x1024 : Shape := ⟨2, ![1024, 1024]⟩
abbrev S_ : Shape := ⟨0, ![]⟩
abbrev S1024 : Shape := ⟨1, ![1024]⟩

class Facts : Prop where
  transposes_S4096x1024_S1024x4096_1_0 : S4096x1024.Transposes [1, 0] S1024x4096
  bcast_S_S10000x256 : S_.BroadcastsInDim S10000x256 (![] : Fin 0 → Fin S10000x256.rank)
  reducesTo_S10000x256_S_d0_1 : S10000x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S1024x1024_S1024_d0 : S1024x1024.ReducesTo [0] S1024
  bcast_S_S1024 : S_.BroadcastsInDim S1024 (![] : Fin 0 → Fin S1024.rank)
  reducesTo_S1024_S_d0 : S1024.ReducesTo [0] S_
  dot_S1024x4096_S4096x1024_S1024x1024_1_0_0_1_n_n_wf : DotDims.WF S1024x4096 S4096x1024 S1024x1024 [1] [0] [0] [1] [] []

variable [Facts]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def fn_part2 {F : FTy → Type} [FloatOps F] (main_v2 : FVec F S1024x1024 .f32) (main_v31 : IVec S_ 1) (main_v34 : IVec S256 1) : IVec S_ 1 :=
  let main_c_11 : IVec S_ 1 := constantI S_ 1 1#1
  let main_v35 : IVec S_ 1 := (fun x v => Host.reduce IntOp.andi x v reducesTo_S256_S_d0 h_S_) main_v34 main_c_11
  let main_v36 : IVec S_ 1 := andi main_v31 main_v35
  let main_cst_12 : FVec F S_ .f32 := constant S_ .f32 0x00000000#32
  let main_v37 : FVec F S1024 .f32 := (fun x v => Host.reduceAdd x v reducesTo_S1024x1024_S1024_d0 h_S_) main_v2 main_cst_12
  let main_cst_13 : FVec F S_ .f32 := constant S_ .f32 0x00000000#32
  let main_v38 : FVec F S1024 .f32 := broadcastInDim S1024 ![] bcast_S_S1024 main_cst_13
  let main_v39 : IVec S1024 1 := cmpf .une main_v37 main_v38
  let main_c_14 : IVec S_ 1 := constantI S_ 1 1#1
  let main_v40 : IVec S_ 1 := (fun x v => Host.reduce IntOp.andi x v reducesTo_S1024_S_d0 h_S_) main_v39 main_c_14
  let main_v41 : IVec S_ 1 := andi main_v36 main_v40
  main_v41

def fn_part1 {F : FTy → Type} [FloatOps F] (main_arg4 : FVec F S256 .f32) (main_arg5 : FVec F S256x256 .f32) (main_arg6 : FVec F S256 .f32) (main_v2 : FVec F S1024x1024 .f32) (main_v16 : IVec S_ 1) (main_v17 : FVec F S256x256 .f32) : IVec S_ 1 :=
  let main_cst_4 : FVec F S_ .f32 := constant S_ .f32 0x7F800000#32
  let main_v18 : FVec F S256x256 .f32 := broadcastInDim S256x256 ![] bcast_S_S256x256 main_cst_4
  let main_v19 : IVec S256x256 1 := cmpf .olt main_v17 main_v18
  let main_c_5 : IVec S_ 1 := constantI S_ 1 1#1
  let main_v20 : IVec S_ 1 := (fun x v => Host.reduce IntOp.andi x v reducesTo_S256x256_S_d0_1 h_S_) main_v19 main_c_5
  let main_v21 : IVec S_ 1 := andi main_v16 main_v20
  let main_v22 : FVec F S256 .f32 := Host.absf main_arg4
  let main_cst_6 : FVec F S_ .f32 := constant S_ .f32 0x7F800000#32
  let main_v23 : FVec F S256 .f32 := broadcastInDim S256 ![] bcast_S_S256 main_cst_6
  let main_v24 : IVec S256 1 := cmpf .olt main_v22 main_v23
  let main_c_7 : IVec S_ 1 := constantI S_ 1 1#1
  let main_v25 : IVec S_ 1 := (fun x v => Host.reduce IntOp.andi x v reducesTo_S256_S_d0 h_S_) main_v24 main_c_7
  let main_v26 : IVec S_ 1 := andi main_v21 main_v25
  let main_v27 : FVec F S256x256 .f32 := Host.absf main_arg5
  let main_cst_8 : FVec F S_ .f32 := constant S_ .f32 0x7F800000#32
  let main_v28 : FVec F S256x256 .f32 := broadcastInDim S256x256 ![] bcast_S_S256x256 main_cst_8
  let main_v29 : IVec S256x256 1 := cmpf .olt main_v27 main_v28
  let main_c_9 : IVec S_ 1 := constantI S_ 1 1#1
  let main_v30 : IVec S_ 1 := (fun x v => Host.reduce IntOp.andi x v reducesTo_S256x256_S_d0_1 h_S_) main_v29 main_c_9
  let main_v31 : IVec S_ 1 := andi main_v26 main_v30
  let main_v32 : FVec F S256 .f32 := Host.absf main_arg6
  let main_cst_10 : FVec F S_ .f32 := constant S_ .f32 0x7F800000#32
  let main_v33 : FVec F S256 .f32 := broadcastInDim S256 ![] bcast_S_S256 main_cst_10
  let main_v34 : IVec S256 1 := cmpf .olt main_v32 main_v33
  fn_part2 (F := F) main_v2 main_v31 main_v34

def fn {F : FTy → Type} [FloatOps F] (main_arg0 : FVec F S10000x256 .f32) (main_arg1 : FVec F S1024x256 .f32) (main_arg2 : FVec F S4096x1024 .f32) (main_arg3 : FVec F S256x256 .f32) (main_arg4 : FVec F S256 .f32) (main_arg5 : FVec F S256x256 .f32) (main_arg6 : FVec F S256 .f32) : IVec S_ 1 :=
  let main_v0 : FVec F S1024x4096 .f32 := (transpose S1024x4096 [1, 0] · transposes_S4096x1024_S1024x4096_1_0) main_arg2
  let main_v1 : FVec F S1024x1024 .f32 := (fun l r => Host.dotGeneral dot_S1024x4096_S4096x1024_S1024x1024_1_0_0_1_n_n none l r) main_v0 main_arg2
  let main_v2 : FVec F S1024x1024 .f32 := Host.sqrt main_v1
  let main_v3 : FVec F S10000x256 .f32 := Host.absf main_arg0
  let main_cst : FVec F S_ .f32 := constant S_ .f32 0x7F800000#32
  let main_v4 : FVec F S10000x256 .f32 := broadcastInDim S10000x256 ![] bcast_S_S10000x256 main_cst
  let main_v5 : IVec S10000x256 1 := cmpf .olt main_v3 main_v4
  let main_c : IVec S_ 1 := constantI S_ 1 1#1
  let main_v6 : IVec S_ 1 := (fun x v => Host.reduce IntOp.andi x v reducesTo_S10000x256_S_d0_1 h_S_) main_v5 main_c
  let main_v7 : FVec F S1024x256 .f32 := Host.absf main_arg1
  let main_cst_0 : FVec F S_ .f32 := constant S_ .f32 0x7F800000#32
  let main_v8 : FVec F S1024x256 .f32 := broadcastInDim S1024x256 ![] bcast_S_S1024x256 main_cst_0
  let main_v9 : IVec S1024x256 1 := cmpf .olt main_v7 main_v8
  let main_c_1 : IVec S_ 1 := constantI S_ 1 1#1
  let main_v10 : IVec S_ 1 := (fun x v => Host.reduce IntOp.andi x v reducesTo_S1024x256_S_d0_1 h_S_) main_v9 main_c_1
  let main_v11 : IVec S_ 1 := andi main_v6 main_v10
  let main_v12 : FVec F S4096x1024 .f32 := Host.absf main_arg2
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v11 main_v15
  let main_v17 : FVec F S256x256 .f32 := Host.absf main_arg3
  fn_part1 (F := F) main_arg4 main_arg5 main_arg6 main_v2 main_v16 main_v17
-- ==== Kernel.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S2048x1024 : Shape := ⟨2, ![2048, 1024]⟩
abbrev S2000x256 : Shape := ⟨2, ![2000, 256]⟩
abbrev S512x512 : Shape := ⟨2, ![512, 512]⟩
abbrev S1024x384 : Shape := ⟨2, ![1024, 384]⟩
abbrev S2048x512 : Shape := ⟨2, ![2048, 512]⟩
abbrev S512 : Shape := ⟨1, ![512]⟩
abbrev S512x256 : Shape := ⟨2, ![512, 256]⟩
abbrev S512x1 : Shape := ⟨2, ![512, 1]⟩
abbrev S1024x128 : Shape := ⟨2, ![1024, 128]⟩
abbrev S2000x1024 : Shape := ⟨2, ![2000, 1024]⟩
abbrev S2000x384 : Shape := ⟨2, ![2000, 384]⟩
abbrev S2000x1 : Shape := ⟨2, ![2000, 1]⟩

abbrev nBuf : Space → Nat
  | .hbm => 10
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S10000x256, .f32⟩
  | .local _ .vmem, ⟨0, _⟩ => ⟨S2048x1024, .f32⟩
  | .local _ .vmem, ⟨1, _⟩ => ⟨S2048x1024, .f32⟩
  | .local _ .vmem, ⟨2, _⟩ => ⟨S1024x256, .f32⟩
  | .local _ .vmem, ⟨3, _⟩ => ⟨S256x256, .f32⟩
  | .local _ .vmem, ⟨4, _⟩ => ⟨S1x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1024x384, .bf16⟩
  | .local _ .vmem, ⟨15, _⟩ => ⟨S1024x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![7], ![false]⟩

def k0_cond4 (i : grid0.Coords) : BitVec 1 :=
  let arg0 : BitVec 32 := BitVec.ofNat 32 (i 0).val
  let c2_i32_4 : BitVec 32 := 2#32
  let v11 : BitVec 1 := Scalar.cmpi .sge arg0 c2_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  inb_S2048x1024_S2048x512_0_0 : ∀ a, (![0, 0] : Fin 2 → Nat) a + S2048x512.size a ≤ S2048x1024.size a
  h_S2048x512 : 0 < S2048x512.numel
  bitsLt_bf16_f32 : FTy.bits .bf16 < FTy.bits .f32
  inb_S2048x1024_S2048x512_0_512 : ∀ a, (![0, 512] : Fin 2 → Nat) a + S2048x512.size a ≤ S2048x1024.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [0] S512
  reduces_S512x512_S512_2 : S512x512.Reduces [1] S512
  inb_S1024x256_S1024x256_0_0 : ∀ a, (![0, 0] : Fin 2 → Nat) a + S1024x256.size a ≤ S1024x256.size a
  h_S1024x256 : 0 < S1024x256.numel
  slices_S1024x256_o0_0_S512x256 : S1024x256.Slices ![0, 0] S512x256
  shapeCasts_S512_S512x1 : S512.ShapeCasts S512x1
  broadcasts_S512x1_S512x256 : S512x1.Broadcasts S512x256
  slices_S1024x256_o512_0_S512x256 : S1024x256.Slices ![512, 0] S512x256
  inb_S1024x384_S512x256_0_0 : ∀ a, (![0, 0] : Fin 2 → Nat) a + S512x256.size a ≤ S1024x384.size a
  h_S512x256 : 0 < S512x256.numel
  shapeCasts_S512x256_S512x256 : S512x256.ShapeCasts S512x256
  packedbf16_S1024x384_S512x256_0_0 : (Rect.unit (s := S1024x384) ![0, 0] S512x256.size inb_S1024x384_S512x256_0_0).PackedRows (EltTy.packing .bf16)
  inb_S1024x384_S512x256_512_0 : ∀ a, (![512, 0] : Fin 2 → Nat) a + S512x256.size a ≤ S1024x384.size a
  packedbf16_S1024x384_S512x256_512_0 : (Rect.unit (s := S1024x384) ![512, 0] S512x256.size inb_S1024x384_S512x256_512_0).PackedRows (EltTy.packing .bf16)
  inb_S1024x384_S1024x128_0_256 : ∀ a, (![0, 256] : Fin 2 → Nat) a + S1024x128.size a ≤ S1024x384.size a
  h_S1024x128 : 0 < S1024x128.numel
  shapeCasts_S1024x128_S1024x128 : S1024x128.ShapeCasts S1024x128
  packedbf16_S1024x384_S1024x128_0_256 : (Rect.unit (s := S1024x384) ![0, 256] S1024x128.size inb_S1024x384_S1024x128_0_256).PackedRows (EltTy.packing .bf16)
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S2000x256_S2000x256_0_0 : ∀ a, (![0, 0] : Fin 2 → Nat) a + S2000x256.size a ≤ S2000x256.size a
  h_S2000x256 : 0 < S2000x256.numel
  broadcasts_S1x256_S2000x256 : S1x256.Broadcasts S2000x256
  inb_S1024x384_S1024x384_0_0 : ∀ a, (![0, 0] : Fin 2 → Nat) a + S1024x384.size a ≤ S1024x384.size a
  h_S1024x384 : 0 < S1024x384.numel
  slices_S2000x384_o0_0_S2000x256 : S2000x384.Slices ![0, 0] S2000x256
  slices_S2000x384_o0_256_S2000x1 : S2000x384.Slices ![0, 256] S2000x1
  broadcasts_S2000x1_S2000x256 : S2000x1.Broadcasts S2000x256
  dot_S2048x512_S2048x512_S512x512_0_0_1_1_n_n_wf : DotDims.WF S2048x512 S2048x512 S512x512 [0] [0] [1] [1] [] []
  dot_S512x512_S512x256_S512x256_1_0_0_1_n_n_wf : DotDims.WF S512x512 S512x256 S512x256 [1] [0] [0] [1] [] []
  dot_S512x512_S512x256_S512x256_0_0_1_1_n_n_wf : DotDims.WF S512x512 S512x256 S512x256 [0] [0] [1] [1] [] []
  dot_S1024x256_S256x256_S1024x256_1_1_0_0_n_n_wf : DotDims.WF S1024x256 S256x256 S1024x256 [1] [1] [0] [0] [] []
  dot_S2000x256_S256x256_S2000x256_1_1_0_0_n_n_wf : DotDims.WF S2000x256 S256x256 S2000x256 [1] [1] [0] [0] [] []
  dot_S2000x256_S1024x256_S2000x1024_1_1_0_0_n_n_wf : DotDims.WF S2000x256 S1024x256 S2000x1024 [1] [1] [0] [0] [] []
  dot_S2000x1024_S1024x384_S2000x384_1_0_0_1_n_n_wf : DotDims.WF S2000x1024 S1024x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .f32 = 32 ∨ (Rect.block (s := S4096x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S10000x256.size a
  hwx0_4 : ∀ i : grid0.Coords, EltTy.bits .f32 = 32 ∨ (Rect.block (s := S10000x256) S2000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S10000x256.size a
  hwx0_7 : ∀ i : grid0.Coords, EltTy.bits .f32 = 32 ∨ (Rect.block (s := S10000x256) S2000x256.size (cc0_transform_7 i) (hinb0_7 i)).WholeWords (EltTy.packing .f32)

variable [Facts₀]

def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x512_S512x256_S512x256_0_0_1_1_n_n : DotDims S512x512 S512x256 S512x256 where
  lhsContracting := [0]
  rhsContracting := [0]
  lhsNonContracting := [1]
  rhsNonContracting := [1]
  lhsBatch := []
  rhsBatch := []
  wf := dot_S512x512_S512x256_S512x256_0_0_1_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def dot_S2000x256_S1024x256_S2000x1024_1_1_0_0_n_n : DotDims S2000x256 S1024x256 S2000x1024 where
  lhsContracting := [1]
  rhsContracting := [1]
  lhsNonContracting := [0]
  rhsNonContracting := [0]
  lhsBatch := []
  rhsBatch := []
  wf := dot_S2000x256_S1024x256_S2000x1024_1_1_0_0_n_n_wf
def dot_S2000x1024_S1024x384_S2000x384_1_0_0_1_n_n : DotDims S2000x1024 S1024x384 S2000x384 where
  lhsContracting := [1]
  rhsContracting := [0]
  lhsNonContracting := [0]
  rhsNonContracting := [1]
  lhsBatch := []
  rhsBatch := []
  wf := dot_S2000x1024_S1024x384_S2000x384_1_0_0_1_n_n_wf

abbrev win0_0 : Pipeline.Window sig grid0 :=
  Pipeline.Window.ofSpec (Memref.whole main_arg2) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S256x1024 : Shape := ⟨2, ![256, 1024]⟩
abbrev S10000x1024 : Shape := ⟨2, ![10000, 1024]⟩
abbrev S_ : Shape := ⟨0, ![]⟩
abbrev S10000 : Shape := ⟨1, ![10000]⟩
abbrev S10000x1 : Shape := ⟨2, ![10000, 1]⟩
abbrev S1024x4096 : Shape := ⟨2, ![1024, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | .hbm, ⟨12, _⟩ => ⟨S256x256, .f32⟩
  | .hbm, ⟨13, _⟩ => ⟨S1024x256, .f32⟩
  | .hbm, ⟨14, _⟩ => ⟨S1x256, .f32⟩
  | .hbm, ⟨15, _⟩ => ⟨S1024x256, .f32⟩
  | .hbm, ⟨16, _⟩ => ⟨S1024x256, .f32⟩
  | .hbm, ⟨17, _⟩ => ⟨S256x1024, .f32⟩
  | .hbm, ⟨18, _⟩ => ⟨S10000x1024, .f32⟩
  | .hbm, ⟨19, _⟩ => ⟨S_, .f32⟩
  | .hbm, ⟨20, _⟩ => ⟨S10000x1024, .f32⟩
  | .hbm, ⟨21, _⟩ => ⟨S10000x1024, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x1024, .f32⟩
  | .hbm, ⟨29, _⟩ => ⟨S10000x1024, .f32⟩
  | .hbm, ⟨30, _⟩ => ⟨S10000x1024, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1024, .f32⟩
  | .hbm, ⟨35, _⟩ => ⟨S10000x1024, .f32⟩
  | .hbm, ⟨36, _⟩ => ⟨S1024x4096, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S1024x1024, .f32⟩
  | .hbm, ⟨43, _⟩ => ⟨S1024x1024, .f32⟩
  | .hbm, ⟨44, _⟩ => ⟨S1024x256, .f32⟩
  | .hbm, ⟨45, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S1024x256_0_1 : S1x256.BroadcastsInDim S1024x256 (![0, 1] : Fin 2 → Fin S1024x256.rank)
  transposes_S1024x256_S256x1024_1_0 : S1024x256.Transposes [1, 0] S256x1024
  bcast_S_S10000x1024 : S_.BroadcastsInDim S10000x1024 (![] : Fin 0 → Fin S10000x1024.rank)
  reducesTo_S10000x1024_S10000_d1 : S10000x1024.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  transposes_S4096x1024_S1024x4096_1_0 : S4096x1024.Transposes [1, 0] S1024x4096
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  dot_S10000x256_S256x256_S10000x256_1_0_0_1_n_n_wf : DotDims.WF S10000x256 S256x256 S10000x256 [1] [0] [0] [1] [] []
  dot_S1024x256_S256x256_S1024x256_1_0_0_1_n_n_wf : DotDims.WF S1024x256 S256x256 S1024x256 [1] [0] [0] [1] [] []
  dot_S10000x256_S256x1024_S10000x1024_1_0_0_1_n_n_wf : DotDims.WF S10000x256 S256x1024 S10000x1024 [1] [0] [0] [1] [] []
  dot_S1024x4096_S4096x1024_S1024x1024_1_0_0_1_n_n_wf : DotDims.WF S1024x4096 S4096x1024 S1024x1024 [1] [0] [0] [1] [] []
  dot_S1024x1024_S1024x256_S1024x256_1_0_0_1_n_n_wf : DotDims.WF S1024x1024 S1024x256 S1024x256 [1] [0] [0] [1] [] []
  dot_S10000x1024_S1024x256_S10000x256_1_0_0_1_n_n_wf : DotDims.WF S10000x1024 S1024x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S10000x256_S256x1024_S10000x1024_1_0_0_1_n_n : DotDims S10000x256 S256x1024 S10000x1024 where
  lhsContracting := [1]
  rhsContracting := [0]
  lhsNonContracting := [0]
  rhsNonContracting := [1]
  lhsBatch := []
  rhsBatch := []
  wf := dot_S10000x256_S256x1024_S10000x1024_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf

class Facts : Prop extends Facts₀ where

variable [Facts]
-- ==== Proof.BodyRuns.lean ====
/-
  The kernel body's three runs, one for each way a grid point passes its four guards: the first chunk (point 0),
  the second chunk with the end of the preamble (point 1), and the attention step (points 2 to 6).  Each run is
  stated on any whole memrefs, for any values, with every buffer the step reads at given contents and every buffer
  it writes handed back with its stores written over what it held.
-/
import proofs.«111863_g52209622450808_cont_9to1_m_767_26_alg».proof.Proof.Gen.KernelIdeal.Frame
import proofs.«111863_g52209622450808_cont_9to1_m_767_26_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which of the body's four guarded steps a grid point takes

The body is four guarded steps: the first chunk's Gram quadrants (point 0 only), a later chunk's contribution added
to them (point 1 only), the step that finishes the preamble (point 1 only), and the attention step (points 2 to 6). -/

/-- The first guard, from the grid coordinate. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second guard. -/
abbrev isLater (i : grid0.Coords) : Prop := (Scalar.cmpi .ne (Scalar.extui (Scalar.andi (Scalar.cmpi .sgt (BitVec.ofNat 32 (i 0).val) 0#32) (Scalar.cmpi .slt (BitVec.ofNat 32 (i 0).val) 2#32))) 0#32) = 1#1
theorem isLater_iff : ∀ t : Fin cfg0.N, isLater (grid0.coords t) ↔ t.val = 1 :=
  (by decide +kernel : ∀ t : Fin grid0.N, isLater (grid0.coords t) ↔ t.val = 1)

/-- The third guard. -/
abbrev isLast (i : grid0.Coords) : Prop := (Scalar.cmpi .ne (Scalar.extui (Scalar.cmpi .eq (BitVec.ofNat 32 (i 0).val) 1#32)) 0#32) = 1#1
theorem isLast_iff : ∀ t : Fin cfg0.N, isLast (grid0.coords t) ↔ t.val = 1 :=
  (by decide +kernel : ∀ t : Fin grid0.N, isLast (grid0.coords t) ↔ t.val = 1)

/-- The fourth guard. -/
abbrev isAttn (i : grid0.Coords) : Prop := k0_cond4 i = 1#1
theorem isAttn_iff : ∀ t : Fin cfg0.N, isAttn (grid0.coords t) ↔ 2 ≤ t.val :=
  (by decide +kernel : ∀ t : Fin grid0.N, isAttn (grid0.coords t) ↔ 2 ≤ t.val)

set_option maxHeartbeats 1000000 in
/-- The first chunk's step (point 0): whatever the scratch buffers hold, the body runs, leaves the inputs and the output's staging buffer as they
    were and the three Gram quadrants' buffers with their stores written (the pieces found). -/
noncomputable def runFirst (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : isFirst i) (hc1 : ¬isLater i) (hc2 : ¬isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) :
    Σ' (LS0 : List (View.Piece (Elt F) S512x512 .f32)), Σ' (LS1 : List (View.Piece (Elt F) S512x512 .f32)), { LS2 : List (View.Piece (Elt F) S512x512 .f32) //
      ∀ (x7 : Vec F S2000x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ d, owns (c : Thread nD τ) arg12 fullShare d) ∗ (∃ d, owns (c : Thread nD τ) arg13 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun x7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    isplitl [HS2]; · iexists _; iexact HS2
    isplitl [HS3]
    · iexists _, _; isplitr; swap; · iexact HS3
      ipureintro; rfl
    iexists _, _; isplitr; swap; · iexact HS4
    ipureintro; rfl

set_option maxHeartbeats 1000000 in
/-- The second chunk's step and the end of the preamble (point 1): with the three Gram quadrants' buffers at given
    contents the body runs and leaves all five scratch buffers with their stores written (the pieces found). -/
noncomputable def runLast (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) :
    Σ' (LS0 : List (View.Piece (Elt F) S512x512 .f32)), Σ' (LS1 : List (View.Piece (Elt F) S512x512 .f32)), Σ' (LS2 : List (View.Piece (Elt F) S512x512 .f32)), Σ' (LS3 : List (View.Piece (Elt F) S1024x384 .bf16)), { LS4 : List (View.Piece (Elt F) S1024x256 .bf16) //
      ∀ (x7 : Vec F S2000x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1 ∗ owns (c : Thread nD τ) arg11 fullShare xs2 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun x7 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    isplitl [HS2]; · iexists _; iexact HS2
    isplitl [HS3]; · iexists _; iexact HS3
    iexists _; iexact HS4

set_option maxHeartbeats 1000000 in
/-- The attention step (points 2 to 6): with the five scratch buffers at given contents the body runs, leaves them
    and the inputs as they were, and the output's staging buffer with its stores written (the pieces found). -/
noncomputable def runAttn (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : ¬isLater i) (hc2 : ¬isLast i) (hc3 : isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (xs3 : Vec F S1024x384 .bf16) (xs4 : Vec F S1024x256 .bf16) :
    { L7 : List (View.Piece (Elt F) S2000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    isplitl [HS3]
    · iexists _; isplitr; · ipureintro; exact harg12.read_unread _
      iexact HS3
    iexists _; isplitr; · ipureintro; exact harg13.read_unread _
    iexact HS4

end Cert.KernelIdeal.Body

end
-- ==== Proof.Body.lean ====
/-
  The proof data of the fused kernel's one pipeline and its body obligation.  Point 0 leaves the first chunk's
  Gram quadrants in three scratch buffers; point 1 adds the second chunk's, and from them and Y leaves the
  augmented mixed values and the scaled keys in the other two; points 2 to 6 each leave one block of the output
  in the output window's staging buffer, which the pipeline writes back.
-/
import proofs.«111863_g52209622450808_cont_9to1_m_767_26_alg».proof.Proof.BodyRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each step cover the buffers they fill -/

/-- The first chunk's one store covers the top-left Gram buffer. -/
theorem coverFirst0 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : isFirst i) (hc1 : ¬isLater i) (hc2 : ¬isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (y : S512x512.Idx) :
    ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).1 S512x512.size (by sl_kernel_rfl) y

/-- The first chunk's one store covers the top-right Gram buffer. -/
theorem coverFirst1 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : isFirst i) (hc1 : ¬isLater i) (hc2 : ¬isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (y : S512x512.Idx) :
    ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.1 S512x512.size (by sl_kernel_rfl) y

/-- The first chunk's one store covers the bottom-right Gram buffer. -/
theorem coverFirst2 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : isFirst i) (hc1 : ¬isLater i) (hc2 : ¬isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (y : S512x512.Idx) :
    ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.1 S512x512.size (by sl_kernel_rfl) y

/-- The second chunk's one store covers the top-left Gram buffer. -/
theorem coverLast0 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (y : S512x512.Idx) :
    ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).1 S512x512.size (by sl_kernel_rfl) y

/-- The second chunk's one store covers the top-right Gram buffer. -/
theorem coverLast1 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (y : S512x512.Idx) :
    ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.1 S512x512.size (by sl_kernel_rfl) y

/-- The second chunk's one store covers the bottom-right Gram buffer. -/
theorem coverLast2 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (y : S512x512.Idx) :
    ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.1 S512x512.size (by sl_kernel_rfl) y

/-- The keys' one store covers their buffer. -/
theorem coverLast4 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (y : S1024x256.Idx) :
    ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.2.2.1 S1024x256.size (by sl_kernel_rfl) y

/-- The attention step's one store covers the output's staging buffer. -/
theorem coverAttn (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : ¬isLater i) (hc2 : ¬isLast i) (hc3 : isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (xs3 : Vec F S1024x384 .bf16) (xs4 : Vec F S1024x256 .bf16) (y : S2000x256.Idx) :
    ∃ pc ∈ (runAttn (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 xs4).1, y ∈ pc.1.set :=
  View.cover_of_tiledL (runAttn (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 xs4).1 S2000x256.size (by sl_kernel_rfl) y

/-- The three stores into the augmented mixed values — the two halves of the value columns and the columns of
    ones — cover its buffer. -/
theorem coverLast3 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (y : S1024x384.Idx) :
    ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.2.1, y ∈ pc.1.set := by
  unfold runLast
  dsimp only
  have hy0 : (y 0).val < 1024 := (y 0).isLt
  have hy1 : (y 1).val < 384 := (y 1).isLt
  by_cases h1 : (y 1).val < 256
  · by_cases h0 : (y 0).val < 512
    · refine ⟨_, List.mem_cons_of_mem _ (List.mem_cons_of_mem _ (List.mem_singleton_self _)), ?_⟩
      rw [Rect.mem_set_unit]
      refine Fin.forall_fin_two.mpr ⟨⟨?_, ?_⟩, ⟨?_, ?_⟩⟩ <;>
        (simp only [Matrix.cons_val_zero, Matrix.cons_val_one, Matrix.head_cons]; omega)
    · refine ⟨_, List.mem_cons_of_mem _ List.mem_cons_self, ?_⟩
      rw [Rect.mem_set_unit]
      refine Fin.forall_fin_two.mpr ⟨⟨?_, ?_⟩, ⟨?_, ?_⟩⟩ <;>
        (simp only [Matrix.cons_val_zero, Matrix.cons_val_one, Matrix.head_cons]; omega)
  · refine ⟨_, List.mem_cons_self, ?_⟩
    rw [Rect.mem_set_unit]
    refine Fin.forall_fin_two.mpr ⟨⟨?_, ?_⟩, ⟨?_, ?_⟩⟩ <;>
      (simp only [Matrix.cons_val_zero, Matrix.cons_val_one, Matrix.head_cons]; omega)

variable (m : (ℓ : Loc nD τ sig) → Buf (Elt F) ℓ) (ρ : Dev nD → PrngReg)

/-! ## The memrefs the body is called with -/

/-- Each window's current staging memref at a point, as the pipeline passes it, and its wholeness. -/
abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2000x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2000x256 .f32 := win0_7.stage (cfg0.slots t 7)
abbrev hs7 (t : Fin cfg0.N) : (ms7 t).IsWhole := hstage0_7 ((cfg0.slots t 7).cast nbuf0_7)

/-- The five scratch buffers: the three Gram quadrants, the augmented mixed values, the scaled keys. -/
abbrev sc0 : Memref sig .tc .vmem S512x512 .f32 := Memref.whole cc0_scratch0
abbrev sc1 : Memref sig .tc .vmem S512x512 .f32 := Memref.whole cc0_scratch1
abbrev sc2 : Memref sig .tc .vmem S512x512 .f32 := Memref.whole cc0_scratch2
abbrev sc3 : Memref sig .tc .vmem S1024x384 .bf16 := Memref.whole cc0_scratch3
abbrev sc4 : Memref sig .tc .vmem S1024x256 .bf16 := Memref.whole cc0_scratch4

/-- The region's invariant with the scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-! ## The schedule of the output window and of the inputs -/

theorem N7 : cfg0.N = 7 := N_0

/-- The output is never fetched; -/
theorem out_fetch : ∀ t : Fin cfg0.N, (cfg0.win 7).fetch t = false := by decide +kernel
/-- it is written back exactly at the attention points; -/
theorem out_flush : ∀ t : Fin cfg0.N, (cfg0.win 7).flush t = true ↔ 2 ≤ t.val := by decide +kernel
/-- and the body stores nothing into it before them. -/
theorem out_idle : ∀ t : Fin cfg0.N, cfg0.idle 7 (grid0.coords t) = true ↔ t.val < 2 := by decide +kernel

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel

/-! ## The three steps at their grid points, on the blocks the region finds -/

/-- Points 0 and 1. -/
abbrev p0 : Fin cfg0.N := ⟨0, by rw [N7]; decide⟩
abbrev p1 : Fin cfg0.N := ⟨1, by rw [N7]; decide⟩

/-- The first chunk's step at point 0. -/
abbrev firstAt (c : Dev nD) :=
  runFirst (F := F) c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) sc0 (Memref.isWhole_whole _) sc1 (Memref.isWhole_whole _) sc2 (Memref.isWhole_whole _) sc3 (Memref.isWhole_whole _) sc4 (Memref.isWhole_whole _)
    ((isFirst_iff p0).mpr rfl) (fun h => absurd ((isLater_iff p0).mp h) (by decide)) (fun h => absurd ((isLast_iff p0).mp h) (by decide)) (fun h => absurd ((isAttn_iff p0).mp h) (by decide))
    (iblk m c 0 p0) (iblk m c 1 p0) (iblk m c 2 p0) (iblk m c 3 p0) (iblk m c 4 p0) (iblk m c 5 p0) (iblk m c 6 p0)

/-- What point 0 leaves in the three Gram buffers. -/
def gram0 (c : Dev nD) : Vec F S512x512 .f32 × Vec F S512x512 .f32 × Vec F S512x512 .f32 :=
  (View.canon (firstAt m c).1, View.canon (firstAt m c).2.1, View.canon (firstAt m c).2.2.1)

/-- The second chunk's step and the end of the preamble at point 1, over what point 0 left. -/
abbrev lastAt (c : Dev nD) :=
  runLast (F := F) c (grid0.coords p1) (ms0 p1) (hs0 p1) (ms1 p1) (hs1 p1) (ms2 p1) (hs2 p1) (ms3 p1) (hs3 p1) (ms4 p1) (hs4 p1) (ms5 p1) (hs5 p1) (ms6 p1) (hs6 p1) (ms7 p1) (hs7 p1) sc0 (Memref.isWhole_whole _) sc1 (Memref.isWhole_whole _) sc2 (Memref.isWhole_whole _) sc3 (Memref.isWhole_whole _) sc4 (Memref.isWhole_whole _)
    (fun h => absurd ((isFirst_iff p1).mp h) (by decide)) ((isLater_iff p1).mpr rfl) ((isLast_iff p1).mpr rfl) (fun h => absurd ((isAttn_iff p1).mp h) (by decide))
    (iblk m c 0 p1) (iblk m c 1 p1) (iblk m c 2 p1) (iblk m c 3 p1) (iblk m c 4 p1) (iblk m c 5 p1) (iblk m c 6 p1) (gram0 m c).1 (gram0 m c).2.1 (gram0 m c).2.2

/-- What point 1 leaves in the five scratch buffers: the Gram quadrants complete, the augmented mixed values, the keys. -/
def prep (c : Dev nD) : Vec F S512x512 .f32 × Vec F S512x512 .f32 × Vec F S512x512 .f32 × Vec F S1024x384 .bf16 × Vec F S1024x256 .bf16 :=
  (View.canon (lastAt m c).1, View.canon (lastAt m c).2.1, View.canon (lastAt m c).2.2.1, View.canon (lastAt m c).2.2.2.1, View.canon (lastAt m c).2.2.2.2.1)

/-- The attention step at a point from 2 on, over what point 1 left. -/
abbrev attnAt (c : Dev nD) (t : Fin cfg0.N) (h : 2 ≤ t.val) :=
  runAttn (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _)
    (fun h' => by have := (isFirst_iff t).mp h'; omega) (fun h' => by have := (isLater_iff t).mp h'; omega) (fun h' => by have := (isLast_iff t).mp h'; omega) ((isAttn_iff t).mpr h)
    (iblk m c 0 t) (iblk m c 1 t) (iblk m c 2 t) (iblk m c 3 t) (iblk m c 4 t) (iblk m c 5 t) (iblk m c 6 t) (prep m c).1 (prep m c).2.1 (prep m c).2.2.1 (prep m c).2.2.2.1 (prep m c).2.2.2.2

/-- What the output's staging buffer holds after the body at a point: from point 2 on the attention step's block;
    before that the body stores nothing there and nothing reads this value. -/
def outAt (c : Dev nD) (t : Fin cfg0.N) : Vec F S2000x256 .f32 :=
  if h : 2 ≤ t.val then View.canon (attnAt m c t h).1 else View.canon []

/-! ## The invariant between points -/

/-- Before point 0 the scratch buffers hold anything; before point 1 the Gram buffers hold the first chunk's
    quadrants; from then on all five hold what point 1 left. -/
def PhiS (c : Dev nD) (t : Fin (cfg0.N + 1)) : sProp 𝕄 :=
  if t.val = 0 then Pipeline.ΦA spec0 c
  else if t.val = 1 then
    iprop(iprop(owns (c : Thread nD τ) sc0 fullShare (gram0 m c).1 ∗ owns (c : Thread nD τ) sc1 fullShare (gram0 m c).2.1 ∗ owns (c : Thread nD τ) sc2 fullShare (gram0 m c).2.2 ∗ (∃ d, owns (c : Thread nD τ) sc3 fullShare d) ∗ (∃ d, owns (c : Thread nD τ) sc4 fullShare d)) ∗ (∃ r, prngReg c r))
  else
    iprop(iprop(owns (c : Thread nD τ) sc0 fullShare (prep m c).1 ∗ owns (c : Thread nD τ) sc1 fullShare (prep m c).2.1 ∗ owns (c : Thread nD τ) sc2 fullShare (prep m c).2.2.1 ∗ owns (c : Thread nD τ) sc3 fullShare (prep m c).2.2.2.1 ∗ owns (c : Thread nD τ) sc4 fullShare (prep m c).2.2.2.2) ∗ (∃ r, prngReg c r))

/-! ## The pipeline's proof data -/

/-- The arrays as the region finds them; after the body each input's buffer at its block and the output's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- The components of what points 0 and 1 leave, as the canons of the found pieces. -/
theorem gram0_1 (c : Dev nD) : (gram0 m c).1 = View.canon (firstAt m c).1 := by unfold gram0; rfl
theorem gram0_2 (c : Dev nD) : (gram0 m c).2.1 = View.canon (firstAt m c).2.1 := by unfold gram0; rfl
theorem gram0_3 (c : Dev nD) : (gram0 m c).2.2 = View.canon (firstAt m c).2.2.1 := by unfold gram0; rfl
theorem prep_1 (c : Dev nD) : (prep m c).1 = View.canon (lastAt m c).1 := by unfold prep; rfl
theorem prep_2 (c : Dev nD) : (prep m c).2.1 = View.canon (lastAt m c).2.1 := by unfold prep; rfl
theorem prep_3 (c : Dev nD) : (prep m c).2.2.1 = View.canon (lastAt m c).2.2.1 := by unfold prep; rfl
theorem prep_4 (c : Dev nD) : (prep m c).2.2.2.1 = View.canon (lastAt m c).2.2.2.1 := by unfold prep; rfl
theorem prep_5 (c : Dev nD) : (prep m c).2.2.2.2 = View.canon (lastAt m c).2.2.2.2.1 := by unfold prep; rfl

/-! ## The invariant at the three kinds of point -/

theorem PhiS_zero (c : Dev nD) (t : Fin (cfg0.N + 1)) (h : t.val = 0) : PhiS m c t = Pipeline.ΦA spec0 c := by
  unfold PhiS; rw [if_pos h]

theorem PhiS_one (c : Dev nD) (t : Fin (cfg0.N + 1)) (h : t.val = 1) :
    PhiS m c t = iprop(iprop(owns (c : Thread nD τ) sc0 fullShare (gram0 m c).1 ∗ owns (c : Thread nD τ) sc1 fullShare (gram0 m c).2.1 ∗ owns (c : Thread nD τ) sc2 fullShare (gram0 m c).2.2 ∗ (∃ d, owns (c : Thread nD τ) sc3 fullShare d) ∗ (∃ d, owns (c : Thread nD τ) sc4 fullShare d)) ∗ (∃ r, prngReg c r)) := by
  unfold PhiS; rw [if_neg (by omega), if_pos h]

theorem PhiS_ge (c : Dev nD) (t : Fin (cfg0.N + 1)) (h : 2 ≤ t.val) :
    PhiS m c t = iprop(iprop(owns (c : Thread nD τ) sc0 fullShare (prep m c).1 ∗ owns (c : Thread nD τ) sc1 fullShare (prep m c).2.1 ∗ owns (c : Thread nD τ) sc2 fullShare (prep m c).2.2.1 ∗ owns (c : Thread nD τ) sc3 fullShare (prep m c).2.2.2.1 ∗ owns (c : Thread nD τ) sc4 fullShare (prep m c).2.2.2.2) ∗ (∃ r, prngReg c r)) := by
  unfold PhiS; rw [if_neg (by omega), if_neg (by omega)]

/-! ## The body obligation, at a generic point -/

/-- What the body is called with at point `t`: the invariant, what the core owes, every window's current buffer
    at what it then holds; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point.  The inputs' buffers hold their blocks.  At point 0 the scratch buffers hold anything
    and the first chunk's step fills the three Gram buffers; at point 1 they hold that, and the second step fills
    all five; from point 2 on all five hold what point 1 left and the attention step fills the output's buffer.
    At points 0 and 1 the output's buffer is handed back as it was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  rw [show (dats m 0 c).leavesExact 3 t = owns (c : Thread nD τ) (ms3 t) fullShare ((dats m 0 c).after 3 t) from by
      unfold Dat.leavesExact; rw [live3 t], after3]
  rw [show (dats m 0 c).leavesExact 4 t = owns (c : Thread nD τ) (ms4 t) fullShare ((dats m 0 c).after 4 t) from by
      unfold Dat.leavesExact; rw [live4 t], after4]
  rw [show (dats m 0 c).leavesExact 5 t = owns (c : Thread nD τ) (ms5 t) fullShare ((dats m 0 c).after 5 t) from by
      unfold Dat.leavesExact; rw [live5 t], after5]
  rw [show (dats m 0 c).leavesExact 6 t = owns (c : Thread nD τ) (ms6 t) fullShare ((dats m 0 c).after 6 t) from by
      unfold Dat.leavesExact; rw [live6 t], after6]
  rw [show (dats m 0 c).Φ t.castSucc = PhiS m c t.castSucc from rfl, show (dats m 0 c).Φ t.succ = PhiS m c t.succ from rfl]
  have hN : t.val < 7 := lt_of_lt_of_eq t.isLt N7
  rcases (show t.val = 0 ∨ t.val = 1 ∨ 2 ≤ t.val by omega) with h | h | h
  · -- point 0
    obtain rfl : t = p0 := Fin.ext h
    rw [PhiS_zero m c _ rfl, PhiS_one m c _ rfl, PhiA_eq]
    rw [gram0_1, gram0_2, gram0_3]
    rw [Dat.leavesExact_idle _ 7 p0 ((out_idle p0).mpr (by decide)) (Bool.eq_false_iff.mpr fun hf => absurd ((out_flush p0).mp hf) (by decide))]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt m c).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%e0, HS0⟩, ⟨%e1, HS1⟩, ⟨%e2, HS2⟩, HS3, HS4⟩
    isplitl [HS0 HS1 HS2 HS3 HS4 Hg]
    · isplitl [HS0 HS1 HS2 HS3 HS4]
      · isplitl [HS0]
        · unfold owns; iexists _; isplitr
          swap; · iexact HS0
          ipureintro; exact View.read_writes_eq_canon _ _ _ (coverFirst0 c _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverFirst1 c _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_eq_canon _ _ _ (coverFirst2 c _ _ _ _ _ _ _ _ _ _ _ _ _ _ _ _ _ _ _ _ _ _ _ _ _ _ _ _ _ _ _ _ _ _ _ _ _ _)
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · -- point 1
    obtain rfl : t = p1 := Fin.ext h
    rw [PhiS_one m c _ rfl, PhiS_ge m c _ (by decide)]
    rw [prep_1, prep_2, prep_3, prep_4, prep_5]
    rw [Dat.leavesExact_idle _ 7 p1 ((out_idle p1).mpr (by decide)) (Bool.eq_false_iff.mpr fun hf => absurd ((out_flush p1).mp hf) (by decide))]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((lastAt m c).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%e0, HS0⟩, ⟨%e1, HS1⟩, ⟨%e2, HS2⟩, ⟨%e3, HS3⟩, ⟨%e4, HS4⟩⟩
    isplitl [HS0 HS1 HS2 HS3 HS4 Hg]
    · isplitl [HS0 HS1 HS2 HS3 HS4]
      · isplitl [HS0]
        · unfold owns; iexists _; isplitr
          swap; · iexact HS0
          ipureintro; exact View.read_writes_eq_canon _ _ _ (coverLast0 c _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverLast1 c _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_eq_canon _ _ _ (coverLast2 c _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_eq_canon _ _ _ (coverLast3 c _ _ _ _ _ _ _ _ _ _ _ _ _ _ _ _ _ _ _ _ _ _ _ _ _ _ _ _ _ _ _ _ _ _ _ _ _ _ _ _ _)
        unfold owns; iexists _; isplitr
        swap; · iexact HS4
        ipureintro; exact View.read_writes_eq_canon _ _ _ (coverLast4 c _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · -- an attention point
    rw [PhiS_ge m c t.castSucc (by rw [Fin.coe_castSucc]; exact h), PhiS_ge m c t.succ (by rw [Fin.val_succ]; omega)]
    rw [show (dats m 0 c).leavesExact 7 t = owns (c : Thread nD τ) (ms7 t) fullShare ((dats m 0 c).after 7 t) from by
      unfold Dat.leavesExact
      rw [show cfg0.idle 7 (grid0.coords t) = false from Bool.eq_false_iff.mpr fun hi => by have := (out_idle t).mp hi; omega]]
    rw [after7, show outAt m c t = View.canon (attnAt m c t h).1 from by unfold outAt; rw [dif_pos h]]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((attnAt m c t h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, ⟨%e7, H7⟩, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_eq_canon _ _ _ (coverAttn c _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before point 0. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the class's back: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N) from rfl,
    PhiS_ge m c _ (by rw [Fin.val_last]; have : cfg0.N = 7 := N7; omega), PhiA_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-! ## The run -/

set_option backward.isDefEq.respectTransparency.types false in
/-- Every weakly fair execution of @main terminates, and every final state has each array of the pipeline at what
    the library computes from the proof data — the inputs as launched, the result array overwritten block by block
    by what the attention points left — and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.Spec.lean ====
/-
  The mathematics of the fused attention kernel, as plain functions of matrices over the extended reals.

  Inputs: X (10000×256, the queries' features), Y (1024×256, the keys' features), Z (4096×1024), two
  256×256 weight matrices with their biases.  With G = ZᵀZ the Gram matrix, R = √G entrywise and
  s_j = Σ_i R i j the column sums of R, the reference computes

      O = softmax((X Wqᵀ + bq)(Y Wkᵀ + bk)ᵀ / 16) · ((R / s) Y)

  dividing each column of R by its sum, and shifting each row of logits by its maximum inside the softmax.
  The kernel computes the same matrix in another arrangement: the factor 1/16 is multiplied into the keys,
  the column sums divide the rows of Y instead of the columns of R, and the softmax is left unnormalised
  until after the product with the mixed values, the normaliser being the same product with a column of ones.
-/
import Idealize.ShloMosaic.PureOps.Ideal

noncomputable section

namespace Cert.Spec

open Idealize.ShloMosaic

/-- An a × b matrix of extended reals. -/
abbrev Mat (a b : Nat) : Type := Fin a → Fin b → EReal

/-! ## The literals both programs carry, as the extended reals their words denote -/

/-- 1/16, the word the kernel multiplies the keys by. -/
def sixteenth : EReal := Ideal.ofBits .f32 0x3D800000#32
/-- 16, the word the reference divides the logits by. -/
def sixteen : EReal := Ideal.ofBits .f32 0x41800000#32
/-- 1 as a single-precision word (the numerator of the kernel's reciprocal). -/
def oneF : EReal := Ideal.ofBits .f32 0x3F800000#32
/-- 1 as a half-width word (the column of ones the kernel appends to the mixed values). -/
def oneB : EReal := Ideal.ofBits .bf16 0x3F80#16

/-! ## What both arrangements share -/

/-- The Gram matrix ZᵀZ. -/
def gram (Z : Mat 4096 1024) (i j : Fin 1024) : EReal := ∑ r : Fin 4096, Z r i * Z r j

/-- Its entrywise square root. -/
def root (Z : Mat 4096 1024) (i j : Fin 1024) : EReal := Ideal.sqrt (gram Z i j)

/-- The column sums of the root. -/
def colSum (Z : Mat 4096 1024) (j : Fin 1024) : EReal := ∑ i : Fin 1024, root Z i j

/-- An affine projection A Wᵀ + b. -/
def proj {n : Nat} (A : Mat n 256) (W : Mat 256 256) (b : Fin 256 → EReal) (r : Fin n) (d : Fin 256) : EReal :=
  (∑ e : Fin 256, A r e * W d e) + b d

/-! ## The reference's arrangement -/

/-- The mixed values: the root with each column divided by its sum, times Y. -/
def mixedR (Y : Mat 1024 256) (Z : Mat 4096 1024) (m : Fin 1024) (d : Fin 256) : EReal :=
  ∑ j : Fin 1024, Ideal.div (root Z m j) (colSum Z j) * Y j d

/-- The logits: the projections' inner products, divided by 16. -/
def logitR (X : Mat 10000 256) (Wq : Mat 256 256) (bq : Fin 256 → EReal) (Y : Mat 1024 256) (Wk : Mat 256 256)
    (bk : Fin 256 → EReal) (n : Fin 10000) (m : Fin 1024) : EReal :=
  Ideal.div (∑ d : Fin 256, proj X Wq bq n d * proj Y Wk bk m d) sixteen

/-- A row's largest logit (the fold of max from −∞). -/
def rowMaxR (X : Mat 10000 256) (Wq : Mat 256 256) (bq : Fin 256 → EReal) (Y : Mat 1024 256) (Wk : Mat 256 256)
    (bk : Fin 256 → EReal) (n : Fin 10000) : EReal :=
  Finset.univ.fold max (⊥ : EReal) fun m : Fin 1024 => logitR X Wq bq Y Wk bk n m

/-- The shifted exponentials. -/
def expR (X : Mat 10000 256) (Wq : Mat 256 256) (bq : Fin 256 → EReal) (Y : Mat 1024 256) (Wk : Mat 256 256)
    (bk : Fin 256 → EReal) (n : Fin 10000) (m : Fin 1024) : EReal :=
  Ideal.exp (logitR X Wq bq Y Wk bk n m - rowMaxR X Wq bq Y Wk bk n)

/-- The softmax weights. -/
def softR (X : Mat 10000 256) (Wq : Mat 256 256) (bq : Fin 256 → EReal) (Y : Mat 1024 256) (Wk : Mat 256 256)
    (bk : Fin 256 → EReal) (n : Fin 10000) (m : Fin 1024) : EReal :=
  Ideal.div (expR X Wq bq Y Wk bk n m) (∑ m' : Fin 1024, expR X Wq bq Y Wk bk n m')

/-- The reference's result. -/
def outR (X : Mat 10000 256) (Y : Mat 1024 256) (Z : Mat 4096 1024) (Wq : Mat 256 256) (bq : Fin 256 → EReal)
    (Wk : Mat 256 256) (bk : Fin 256 → EReal) (n : Fin 10000) (d : Fin 256) : EReal :=
  ∑ m : Fin 1024, softR X Wq bq Y Wk bk n m * mixedR Y Z m d

/-! ## The kernel's arrangement -/

/-- The keys, with 1/16 multiplied in. -/
def keyK (Y : Mat 1024 256) (Wk : Mat 256 256) (bk : Fin 256 → EReal) (m : Fin 1024) (d : Fin 256) : EReal :=
  proj Y Wk bk m d * sixteenth

/-- The logits against those keys. -/
def logitK (X : Mat 10000 256) (Wq : Mat 256 256) (bq : Fin 256 → EReal) (Y : Mat 1024 256) (Wk : Mat 256 256)
    (bk : Fin 256 → EReal) (n : Fin 10000) (m : Fin 1024) : EReal :=
  ∑ d : Fin 256, proj X Wq bq n d * keyK Y Wk bk m d

/-- The mixed values: the root times Y with each ROW of Y divided by the matching column sum. -/
def mixedK (Y : Mat 1024 256) (Z : Mat 4096 1024) (m : Fin 1024) (d : Fin 256) : EReal :=
  ∑ j : Fin 1024, root Z m j * Ideal.div (Y j d) (colSum Z j)

/-- The kernel's result: unnormalised weights times the mixed values, then times the reciprocal of the
    weights' sum (itself the product with a column of ones). -/
def outK (X : Mat 10000 256) (Y : Mat 1024 256) (Z : Mat 4096 1024) (Wq : Mat 256 256) (bq : Fin 256 → EReal)
    (Wk : Mat 256 256) (bk : Fin 256 → EReal) (n : Fin 10000) (d : Fin 256) : EReal :=
  (∑ m : Fin 1024, Ideal.exp (logitK X Wq bq Y Wk bk n m) * mixedK Y Z m d)
    * Ideal.div oneF (∑ m : Fin 1024, Ideal.exp (logitK X Wq bq Y Wk bk n m) * oneB)

/-- Every entry of a matrix is a real number. -/
def Finite {a b : Nat} (A : Mat a b) : Prop := ∀ i j, ∃ x : ℝ, A i j = (x : EReal)

/-- Every entry of a vector is a real number. -/
def FiniteV {a : Nat} (v : Fin a → EReal) : Prop := ∀ i, ∃ x : ℝ, v i = (x : EReal)

end Cert.Spec

end
-- ==== Proof.Mats.lean ====
/-
  Arrays as matrices: an array of a literal two-axis shape read entry by entry, and the halves of the index
  ranges the kernel's blocks cut (the first and last 512 of 1024 columns, the first and last 2048 of 4096 rows,
  the 256 value columns and the column of ones among 384).
-/
import proofs.«111863_g52209622450808_cont_9to1_m_767_26_alg».proof.Proof.Spec
import Idealize.ShloMosaic.Lib.ValueIdx

noncomputable section

namespace Cert.Spec

open Idealize.ShloMosaic Idealize.ShloMosaic.ValueIdx

/-- A two-axis array as a matrix. -/
abbrev mat {a b : Nat} (x : (⟨2, ![a, b]⟩ : Shape).Idx → EReal) : Mat a b := fun i j => x (ix2 i j)

/-- A one-axis array as a vector. -/
abbrev vec {a : Nat} (x : (⟨1, ![a]⟩ : Shape).Idx → EReal) : Fin a → EReal := fun i => x (ix1 i)

/-- A one-row array as a vector. -/
abbrev row {a : Nat} (x : (⟨2, ![1, a]⟩ : Shape).Idx → EReal) : Fin a → EReal := fun d => x (ix2 (0 : Fin 1) d)

/-- Index j of the first 512 among 1024. -/
abbrev lo (j : Fin 512) : Fin 1024 := ⟨j.val, by have := j.isLt; omega⟩
/-- Index j of the last 512 among 1024. -/
abbrev hi (j : Fin 512) : Fin 1024 := ⟨512 + j.val, by have := j.isLt; omega⟩
/-- Row r of the first 2048 among 4096. -/
abbrev lo4 (r : Fin 2048) : Fin 4096 := ⟨r.val, by have := r.isLt; omega⟩
/-- Row r of the last 2048 among 4096. -/
abbrev hi4 (r : Fin 2048) : Fin 4096 := ⟨2048 + r.val, by have := r.isLt; omega⟩
/-- Value column d among the 384 columns of the augmented mixed values. -/
abbrev valCol (d : Fin 256) : Fin 384 := ⟨d.val, by have := d.isLt; omega⟩
/-- The first column of ones among the 384. -/
abbrev oneCol : Fin 384 := ⟨256, by omega⟩
/-- Row r of block b among the 10000 rows cut into five blocks of 2000. -/
abbrev blockRow (b : Fin 5) (r : Fin 2000) : Fin 10000 := ⟨2000 * b.val + r.val, by have := b.isLt; have := r.isLt; omega⟩

end Cert.Spec

end
-- ==== Proof.Pieces.lean ====
/-
  What each step's stores leave, as the step's payloads of the blocks it was handed: every buffer a step fills by
  one store through its whole rectangle holds that store's payload; a chunk of Z enters through its left and right
  halves of 512 columns.
-/
import proofs.«111863_g52209622450808_cont_9to1_m_767_26_alg».proof.Proof.Mats
import proofs.«111863_g52209622450808_cont_9to1_m_767_26_alg».proof.Proof.BodyRuns
import Idealize.ShloMosaic.Lib.Pipeline.Value

set_option maxRecDepth 16384

noncomputable section

namespace Cert.KernelIdeal.Body

open Cert.KernelIdeal Cert.KernelIdeal.Gen Cert.Spec
open Idealize.ShloMosaic Idealize.ShloMosaic.TcCoe Idealize.ShloMosaic.Tactic Idealize.ShloMosaic.ValueIdx
open Idealize.SL Idealize.SL.Sem

variable {F : FTy → Type} [FloatOps F]

/-- The left 512 columns of a chunk of Z, as the body loads them. -/
abbrev leftHalf (x : Vec F S2048x1024 .f32) : Vec F S2048x512 .f32 :=
  View.ld x (Rect.unit ![0, 0] ![2048, 512] inb_S2048x1024_S2048x512_0_0)

/-- The right 512 columns. -/
abbrev rightHalf (x : Vec F S2048x1024 .f32) : Vec F S2048x512 .f32 :=
  View.ld x (Rect.unit ![0, 512] ![2048, 512] inb_S2048x1024_S2048x512_0_512)

/-- The zero offsets of a store or load through a whole two-axis buffer, as the constant function. -/
private theorem zero_offsets : (![0, 0] : Fin 2 → ℕ) = fun _ => 0 := by
  funext a; match a with | ⟨0, _⟩ => rfl | ⟨1, _⟩ => rfl

theorem leftHalf_apply (x : Vec F S2048x1024 .f32) (r : Fin 2048) (j : Fin 512) :
    leftHalf x (ix2 r j) = x (ix2 r (lo j)) := by
  show x ((Rect.unit (s := S2048x1024) ![0, 0] ![2048, 512] inb_S2048x1024_S2048x512_0_0).idx (ix2 r j)) = x (ix2 r (lo j))
  refine congrArg x (funext fun a => Fin.ext ?_)
  match a with
  | ⟨0, _⟩ => show 0 + 1 * r.val = r.val; omega
  | ⟨1, _⟩ => show 0 + 1 * j.val = j.val; omega

theorem rightHalf_apply (x : Vec F S2048x1024 .f32) (r : Fin 2048) (j : Fin 512) :
    rightHalf x (ix2 r j) = x (ix2 r (hi j)) := by
  show x ((Rect.unit (s := S2048x1024) ![0, 512] ![2048, 512] inb_S2048x1024_S2048x512_0_512).idx (ix2 r j)) = x (ix2 r (hi j))
  refine congrArg x (funext fun a => Fin.ext ?_)
  match a with
  | ⟨0, _⟩ => show 0 + 1 * r.val = r.val; omega
  | ⟨1, _⟩ => show 512 + 1 * j.val = 512 + j.val; omega

/-! ## The first chunk's step -/

theorem pieceFirst0 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : isFirst i) (hc1 : ¬isLater i) (hc2 : ¬isLast i) (hc3 : ¬isAttn i) (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) :
    View.canon (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).1 = k0_pay3 (leftHalf x0) := by
  unfold runFirst
  dsimp only
  sl_unfold_words
  rw [View.canon_unit_zero zero_offsets]
  simp only [View.readAt_eq_ld, harg1.read_unread]

theorem pieceFirst1 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : isFirst i) (hc1 : ¬isLater i) (hc2 : ¬isLast i) (hc3 : ¬isAttn i) (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) :
    View.canon (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.1 = k0_pay4 (leftHalf x0) (rightHalf x0) := by
  unfold runFirst
  dsimp only
  sl_unfold_words
  rw [View.canon_unit_zero zero_offsets]
  simp only [View.readAt_eq_ld, harg1.read_unread]

theorem pieceFirst2 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : isFirst i) (hc1 : ¬isLater i) (hc2 : ¬isLast i) (hc3 : ¬isAttn i) (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) :
    View.canon (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.1 = k0_pay5 (rightHalf x0) := by
  unfold runFirst
  dsimp only
  sl_unfold_words
  rw [View.canon_unit_zero zero_offsets]
  simp only [View.readAt_eq_ld, harg1.read_unread]

/-! ## The second chunk's step and the keys -/

theorem pieceLast0 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i) (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) :
    View.canon (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).1 = k0_pay8 (leftHalf x0) xs0 := by
  unfold runLast
  dsimp only
  sl_unfold_words
  rw [View.canon_unit_zero zero_offsets]
  simp only [View.readAt_eq_ld, harg1.read_unread, harg9.read_unread, View.ld_unit_zero (S := S512x512) zero_offsets]

theorem pieceLast1 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i) (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) :
    View.canon (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.1 = k0_pay9 (leftHalf x0) (rightHalf x0) xs1 := by
  unfold runLast
  dsimp only
  sl_unfold_words
  rw [View.canon_unit_zero zero_offsets]
  simp only [View.readAt_eq_ld, harg1.read_unread, harg10.read_unread, View.ld_unit_zero (S := S512x512) zero_offsets]

theorem pieceLast2 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i) (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) :
    View.canon (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.1 = k0_pay10 (rightHalf x0) xs2 := by
  unfold runLast
  dsimp only
  sl_unfold_words
  rw [View.canon_unit_zero zero_offsets]
  simp only [View.readAt_eq_ld, harg1.read_unread, harg11.read_unread, View.ld_unit_zero (S := S512x512) zero_offsets]

theorem pieceLast4 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i) (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) :
    View.canon (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.2.2.1 = k0_pay13 x1 x2 x3 := by
  unfold runLast
  dsimp only
  sl_unfold_words
  rw [View.canon_unit_zero zero_offsets]
  simp only [View.readAt_eq_ld, harg2.read_unread, harg3.read_unread, harg4.read_unread, View.ld_unit_zero (S := S1024x256) zero_offsets, View.ld_unit_zero (S := S256x256) zero_offsets, View.ld_unit_zero (S := S1x256) zero_offsets]

/-! ## The attention step -/

theorem pieceAttn (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : ¬isLater i) (hc2 : ¬isLast i) (hc3 : isAttn i) (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (xs3 : Vec F S1024x384 .bf16) (xs4 : Vec F S1024x256 .bf16) :
    View.canon (runAttn (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 xs4).1 = k0_pay14 x4 x5 x6 xs4 xs3 := by
  unfold runAttn
  dsimp only
  sl_unfold_words
  rw [View.canon_unit_zero zero_offsets]
  simp only [View.readAt_eq_ld, harg5.read_unread, harg6.read_unread, harg7.read_unread, harg12.read_unread, harg13.read_unread, View.ld_unit_zero (S := S2000x256) zero_offsets, View.ld_unit_zero (S := S256x256) zero_offsets, View.ld_unit_zero (S := S1x256) zero_offsets, View.ld_unit_zero (S := S1024x384) zero_offsets, View.ld_unit_zero (S := S1024x256) zero_offsets]

end Cert.KernelIdeal.Body

end
-- ==== Proof.PayGram.lean ====
/-
  The Gram quadrants' payloads read at an entry: a chunk's contribution is the sum over its 2048 rows of the
  products of two columns; a later chunk adds its contribution to what the scratch held.
-/
import proofs.«111863_g52209622450808_cont_9to1_m_767_26_alg».proof.Proof.Mats
import proofs.«111863_g52209622450808_cont_9to1_m_767_26_alg».proof.Proof.Gen.KernelIdeal.Skeleton
import Idealize.ShloMosaic.PureOps.Ideal.Laws
import Idealize.ShloMosaic.Lib.Pipeline.Value

noncomputable section

namespace Cert.KernelIdeal.Pay

open Idealize.ShloMosaic Idealize.ShloMosaic.ValueIdx Cert.KernelIdeal Cert.KernelIdeal.Gen Cert.Spec

/-! ## The contraction's operand indices, axis by axis

  Both operands are contracted over their rows (axis 0); the free axis of the left operand is the result's
  row, the free axis of the right operand the result's column. -/

private theorem gram_lhs_0 (i : S512x512.Idx) (q : dot_S2048x512_S2048x512_S512x512_0_0_1_1_n_n.contr.Idx) :
    (dot_S2048x512_S2048x512_S512x512_0_0_1_1_n_n.lhsIdx i q 0).val = (q ⟨0, by decide⟩).val :=
  dot_S2048x512_S2048x512_S512x512_0_0_1_1_n_n.lhsIdx_val_of_single rfl i q

private theorem gram_lhs_1 (i : S512x512.Idx) (q : dot_S2048x512_S2048x512_S512x512_0_0_1_1_n_n.contr.Idx) :
    (dot_S2048x512_S2048x512_S512x512_0_0_1_1_n_n.lhsIdx i q 1).val = (i 0).val := by
  unfold DotDims.lhsIdx
  rw [dif_neg (show ¬(1 : Fin S2048x512.rank) ∈ dot_S2048x512_S2048x512_S512x512_0_0_1_1_n_n.lhsBatch by decide), dif_pos (show (1 : Fin S2048x512.rank) ∈ dot_S2048x512_S2048x512_S512x512_0_0_1_1_n_n.lhsNonContracting by decide)]
  rfl

private theorem gram_rhs_0 (i : S512x512.Idx) (q : dot_S2048x512_S2048x512_S512x512_0_0_1_1_n_n.contr.Idx) :
    (dot_S2048x512_S2048x512_S512x512_0_0_1_1_n_n.rhsIdx i q 0).val = (q ⟨0, by decide⟩).val :=
  dot_S2048x512_S2048x512_S512x512_0_0_1_1_n_n.rhsIdx_val_of_single rfl i q

private theorem gram_rhs_1 (i : S512x512.Idx) (q : dot_S2048x512_S2048x512_S512x512_0_0_1_1_n_n.contr.Idx) :
    (dot_S2048x512_S2048x512_S512x512_0_0_1_1_n_n.rhsIdx i q 1).val = (i 1).val := by
  unfold DotDims.rhsIdx
  rw [dif_neg (show ¬(1 : Fin S2048x512.rank) ∈ dot_S2048x512_S2048x512_S512x512_0_0_1_1_n_n.rhsBatch by decide), dif_pos (show (1 : Fin S2048x512.rank) ∈ dot_S2048x512_S2048x512_S512x512_0_0_1_1_n_n.rhsNonContracting by decide)]
  rfl

/-- The product into a zero accumulator, read at an entry: the sum over the 2048 rows of the products of
    column i of the left operand and column j of the right. -/
private theorem gram_matmul_apply (a b : FVec Ideal S2048x512 .bf16) (i j : Fin 512) :
    matmul (F := Ideal) dot_S2048x512_S2048x512_S512x512_0_0_1_1_n_n none a b (constant (F := Ideal) S512x512 .f32 0x00000000#32) (ix2 i j)
      = ∑ r : Fin 2048, a (ix2 r i) * b (ix2 r j) := by
  simp only [matmul]
  rw [Ideal.matmul_constant_zero_apply, ← Equiv.sum_comp (contrEquiv1 dot_S2048x512_S2048x512_S512x512_0_0_1_1_n_n 2048 rfl rfl).symm]
  refine Finset.sum_congr rfl fun k _ => ?_
  have hk := contrEquiv1_symm_val dot_S2048x512_S2048x512_S512x512_0_0_1_1_n_n 2048 rfl rfl k
  have el : dot_S2048x512_S2048x512_S512x512_0_0_1_1_n_n.lhsIdx (ix2 i j) ((contrEquiv1 dot_S2048x512_S2048x512_S512x512_0_0_1_1_n_n 2048 rfl rfl).symm k) = ix2 k i := funext fun c => Fin.ext (by
    match c with
    | ⟨0, _⟩ => exact (gram_lhs_0 _ _).trans hk
    | ⟨1, _⟩ => exact gram_lhs_1 _ _)
  have er : dot_S2048x512_S2048x512_S512x512_0_0_1_1_n_n.rhsIdx (ix2 i j) ((contrEquiv1 dot_S2048x512_S2048x512_S512x512_0_0_1_1_n_n 2048 rfl rfl).symm k) = ix2 k j := funext fun c => Fin.ext (by
    match c with
    | ⟨0, _⟩ => exact (gram_rhs_0 _ _).trans hk
    | ⟨1, _⟩ => exact gram_rhs_1 _ _)
  rw [el, er]

/-! ## The six payloads

  Narrowing to the half-width format is the identity on the extended reals, and the shape cast is of a shape
  to itself, so each payload is the product above, for the later chunks added to what the scratch held. -/

theorem pay3_apply (a : Vec Ideal S2048x512 .f32) (i j : Fin 512) :
    k0_pay3 (F := Ideal) a (ix2 i j) = ∑ r : Fin 2048, a (ix2 r i) * a (ix2 r j) := by
  unfold k0_pay3 k0_pay1
  rw [shapeCast_self, gram_matmul_apply]
  rfl

theorem pay4_apply (a b : Vec Ideal S2048x512 .f32) (i j : Fin 512) :
    k0_pay4 (F := Ideal) a b (ix2 i j) = ∑ r : Fin 2048, a (ix2 r i) * b (ix2 r j) := by
  unfold k0_pay4 k0_pay1 k0_pay2
  rw [shapeCast_self, gram_matmul_apply]
  rfl

theorem pay5_apply (b : Vec Ideal S2048x512 .f32) (i j : Fin 512) :
    k0_pay5 (F := Ideal) b (ix2 i j) = ∑ r : Fin 2048, b (ix2 r i) * b (ix2 r j) := by
  unfold k0_pay5 k0_pay2
  rw [shapeCast_self, gram_matmul_apply]
  rfl

theorem pay8_apply (a : Vec Ideal S2048x512 .f32) (g : Vec Ideal S512x512 .f32) (i j : Fin 512) :
    k0_pay8 (F := Ideal) a g (ix2 i j) = g (ix2 i j) + ∑ r : Fin 2048, a (ix2 r i) * a (ix2 r j) := by
  unfold k0_pay8 k0_pay6
  rw [shapeCast_self, addf_apply, gram_matmul_apply]
  rfl

theorem pay9_apply (a b : Vec Ideal S2048x512 .f32) (g : Vec Ideal S512x512 .f32) (i j : Fin 512) :
    k0_pay9 (F := Ideal) a b g (ix2 i j) = g (ix2 i j) + ∑ r : Fin 2048, a (ix2 r i) * b (ix2 r j) := by
  unfold k0_pay9 k0_pay6 k0_pay7
  rw [shapeCast_self, addf_apply, gram_matmul_apply]
  rfl

theorem pay10_apply (b : Vec Ideal S2048x512 .f32) (g : Vec Ideal S512x512 .f32) (i j : Fin 512) :
    k0_pay10 (F := Ideal) b g (ix2 i j) = g (ix2 i j) + ∑ r : Fin 2048, b (ix2 r i) * b (ix2 r j) := by
  unfold k0_pay10 k0_pay7
  rw [shapeCast_self, addf_apply, gram_matmul_apply]
  rfl

end Cert.KernelIdeal.Pay

end
-- ==== Proof.Blocks.lean ====
/-
  Each window's block at a grid point, read at an entry off the argument arrays: the two row chunks of Z, the
  whole arrays Y, Wq, Wk, the two biases as one-row arrays, and block t − 2 of X's rows at an attention point
  t; and the output's blocks: block t − 2 of the result's rows at an attention point, the five of them covering it.
-/
import proofs.«111863_g52209622450808_cont_9to1_m_767_26_alg».proof.Proof.Mats
import proofs.«111863_g52209622450808_cont_9to1_m_767_26_alg».proof.Proof.Gen.KernelIdeal.Frame
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Spec

variable {F : FTy → Type} [FloatOps F]
variable (m : (ℓ : Loc nD τ sig) → Buf (Elt F) ℓ)

/-! ## The arrays and the blocks, at their literal types -/

/-- The seven argument arrays as launched: X, Y, Z, Wq, bq, Wk, bk. -/
abbrev arrX (c : Dev nD) : Vec F S10000x256 .f32 := m ((c.tc : Thread nD τ).loc main_arg0)
abbrev arrY (c : Dev nD) : Vec F S1024x256 .f32 := m ((c.tc : Thread nD τ).loc main_arg1)
abbrev arrZ (c : Dev nD) : Vec F S4096x1024 .f32 := m ((c.tc : Thread nD τ).loc main_arg2)
abbrev arrWq (c : Dev nD) : Vec F S256x256 .f32 := m ((c.tc : Thread nD τ).loc main_arg3)
abbrev arrBq (c : Dev nD) : Vec F S256 .f32 := m ((c.tc : Thread nD τ).loc main_arg4)
abbrev arrWk (c : Dev nD) : Vec F S256x256 .f32 := m ((c.tc : Thread nD τ).loc main_arg5)
abbrev arrBk (c : Dev nD) : Vec F S256 .f32 := m ((c.tc : Thread nD τ).loc main_arg6)

/-- The seven input windows' blocks at a point: a chunk of Z; Y; Wk; bk as a row; a block of X; Wq; bq as a row. -/
abbrev blkZ (c : Dev nD) (t : Fin cfg0.N) : Vec F S2048x1024 .f32 := iblk m c 0 t
abbrev blkY (c : Dev nD) (t : Fin cfg0.N) : Vec F S1024x256 .f32 := iblk m c 1 t
abbrev blkWk (c : Dev nD) (t : Fin cfg0.N) : Vec F S256x256 .f32 := iblk m c 2 t
abbrev blkBk (c : Dev nD) (t : Fin cfg0.N) : Vec F S1x256 .f32 := iblk m c 3 t
abbrev blkX (c : Dev nD) (t : Fin cfg0.N) : Vec F S2000x256 .f32 := iblk m c 4 t
abbrev blkWq (c : Dev nD) (t : Fin cfg0.N) : Vec F S256x256 .f32 := iblk m c 5 t
abbrev blkBq (c : Dev nD) (t : Fin cfg0.N) : Vec F S1x256 .f32 := iblk m c 6 t

/-- The attention point t works on block t − 2 of the rows. -/
abbrev rowBlock (t : Fin cfg0.N) (ht : 2 ≤ t.val) : Fin 5 := ⟨t.val - 2, by have := t.isLt; have : cfg0.N = 7 := N_0; omega⟩

/-! ## The input blocks -/

/-- The printed index maps over the seven points: the chunk of Z is min(t, 1); Y, Wk, bk, Wq, bq are never cut;
    the row blocks of X and of the result are max(t − 2, 0); no window is cut along its columns. -/
theorem idx_facts : ∀ t : Fin cfg0.N,
    win0_0.index t (0 : Fin 2) = min t.val 1 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val - 2 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val - 2 ∧ win0_7.index t (1 : Fin 2) = 0 :=
  (by decide +kernel : ∀ t : Fin grid0.N, _)

/-- At point 0 the chunk is Z's first 2048 rows; -/
theorem blkZ_first (c : Dev nD) (t : Fin cfg0.N) (ht : t.val = 0) (r : Fin 2048) (j : Fin 1024) :
    blkZ m c t (ix2 r j) = arrZ m c (ix2 (lo4 r) j) := by
  obtain ⟨e0, e1, -⟩ := idx_facts t
  show V m c main_arg2 (((cfg0.win 0).blk t).view.emb (ix2 r j)) = _
  rw [V_main_arg2]
  congr 1
  funext a; apply Fin.ext
  match a with
  | ⟨0, _⟩ => show win0_0.index t (0 : Fin 2) * 2048 + 1 * r.val = r.val; omega
  | ⟨1, _⟩ => show win0_0.index t (1 : Fin 2) * 1024 + 1 * j.val = j.val; omega

/-- from point 1 on, its last 2048. -/
theorem blkZ_second (c : Dev nD) (t : Fin cfg0.N) (ht : 1 ≤ t.val) (r : Fin 2048) (j : Fin 1024) :
    blkZ m c t (ix2 r j) = arrZ m c (ix2 (hi4 r) j) := by
  obtain ⟨e0, e1, -⟩ := idx_facts t
  show V m c main_arg2 (((cfg0.win 0).blk t).view.emb (ix2 r j)) = _
  rw [V_main_arg2]
  congr 1
  funext a; apply Fin.ext
  match a with
  | ⟨0, _⟩ => show win0_0.index t (0 : Fin 2) * 2048 + 1 * r.val = 2048 + r.val; omega
  | ⟨1, _⟩ => show win0_0.index t (1 : Fin 2) * 1024 + 1 * j.val = j.val; omega

theorem blkY_eq (c : Dev nD) (t : Fin cfg0.N) : blkY m c t = arrY m c := by
  obtain ⟨-, -, e0, e1, -⟩ := idx_facts t
  funext i
  show V m c main_arg1 (((cfg0.win 1).blk t).view.emb i) = _
  rw [V_main_arg1]
  congr 1
  funext a; apply Fin.ext
  match a with
  | ⟨0, _⟩ => show win0_1.index t (0 : Fin 2) * 1024 + 1 * (i 0).val = (i 0).val; omega
  | ⟨1, _⟩ => show win0_1.index t (1 : Fin 2) * 256 + 1 * (i 1).val = (i 1).val; omega

theorem blkWk_eq (c : Dev nD) (t : Fin cfg0.N) : blkWk m c t = arrWk m c := by
  obtain ⟨-, -, -, -, e0, e1, -⟩ := idx_facts t
  funext i
  show V m c main_arg5 (((cfg0.win 2).blk t).view.emb i) = _
  rw [V_main_arg5]
  congr 1
  funext a; apply Fin.ext
  match a with
  | ⟨0, _⟩ => show win0_2.index t (0 : Fin 2) * 256 + 1 * (i 0).val = (i 0).val; omega
  | ⟨1, _⟩ => show win0_2.index t (1 : Fin 2) * 256 + 1 * (i 1).val = (i 1).val; omega

theorem blkWq_eq (c : Dev nD) (t : Fin cfg0.N) : blkWq m c t = arrWq m c := by
  obtain ⟨-, -, -, -, -, -, -, -, -, -, e0, e1, -⟩ := idx_facts t
  funext i
  show V m c main_arg3 (((cfg0.win 5).blk t).view.emb i) = _
  rw [V_main_arg3]
  congr 1
  funext a; apply Fin.ext
  match a with
  | ⟨0, _⟩ => show win0_5.index t (0 : Fin 2) * 256 + 1 * (i 0).val = (i 0).val; omega
  | ⟨1, _⟩ => show win0_5.index t (1 : Fin 2) * 256 + 1 * (i 1).val = (i 1).val; omega

/-- The keys' bias reaches the kernel as a one-row array (a reshape on the host before the region). -/
theorem blkBk_apply (c : Dev nD) (t : Fin cfg0.N) (d : Fin 256) :
    blkBk m c t (ix2 (0 : Fin 1) d) = arrBk m c (ix1 d) := by
  have e : (V m c main_v1 : S1x256.Idx → Elt F .f32)
      = shapeCast S1x256 (m ((c.tc : Thread nD τ).loc main_arg6) : S256.Idx → Elt F .f32) shapeCasts_S256_S1x256 := by
    dsimp only [Gen.V, Gen.hostOps0]; after_results; rfl
  obtain ⟨-, -, -, -, -, -, e0, e1, -⟩ := idx_facts t
  show V m c main_v1 (((cfg0.win 3).blk t).view.emb (ix2 (0 : Fin 1) d)) = _
  have hi : ((cfg0.win 3).blk t).view.emb (ix2 (0 : Fin 1) d) = ix2 (0 : Fin 1) d := by
    funext a; apply Fin.ext
    match a with
    | ⟨0, _⟩ => show win0_3.index t (0 : Fin 2) * 1 + 1 * 0 = 0; omega
    | ⟨1, _⟩ => show win0_3.index t (1 : Fin 2) * 256 + 1 * d.val = d.val; omega
  rw [hi, e]
  exact shapeCast_apply _ _ _ (ix1 d) (by
    rw [Shape.rowMajor_val_one, Shape.rowMajor_val_two]
    show d.val = 0 * 256 + d.val
    omega)

/-- So does the queries' bias. -/
theorem blkBq_apply (c : Dev nD) (t : Fin cfg0.N) (d : Fin 256) :
    blkBq m c t (ix2 (0 : Fin 1) d) = arrBq m c (ix1 d) := by
  have e : (V m c main_v0 : S1x256.Idx → Elt F .f32)
      = shapeCast S1x256 (m ((c.tc : Thread nD τ).loc main_arg4) : S256.Idx → Elt F .f32) shapeCasts_S256_S1x256 := by
    dsimp only [Gen.V, Gen.hostOps0]; after_results; rfl
  obtain ⟨-, -, -, -, -, -, -, -, -, -, -, -, e0, e1, -⟩ := idx_facts t
  show V m c main_v0 (((cfg0.win 6).blk t).view.emb (ix2 (0 : Fin 1) d)) = _
  have hi : ((cfg0.win 6).blk t).view.emb (ix2 (0 : Fin 1) d) = ix2 (0 : Fin 1) d := by
    funext a; apply Fin.ext
    match a with
    | ⟨0, _⟩ => show win0_6.index t (0 : Fin 2) * 1 + 1 * 0 = 0; omega
    | ⟨1, _⟩ => show win0_6.index t (1 : Fin 2) * 256 + 1 * d.val = d.val; omega
  rw [hi, e]
  exact shapeCast_apply _ _ _ (ix1 d) (by
    rw [Shape.rowMajor_val_one, Shape.rowMajor_val_two]
    show d.val = 0 * 256 + d.val
    omega)

/-- At an attention point t the block of X is rows 2000 (t − 2) … 2000 (t − 2) + 1999. -/
theorem blkX_attn (c : Dev nD) (t : Fin cfg0.N) (ht : 2 ≤ t.val) (r : Fin 2000) (e : Fin 256) :
    blkX m c t (ix2 r e) = arrX m c (ix2 (blockRow (rowBlock t ht) r) e) := by
  obtain ⟨-, -, -, -, -, -, -, -, e0, e1, -⟩ := idx_facts t
  show V m c main_arg0 (((cfg0.win 4).blk t).view.emb (ix2 r e)) = _
  rw [V_main_arg0]
  congr 1
  funext a; apply Fin.ext
  match a with
  | ⟨0, _⟩ => show win0_4.index t (0 : Fin 2) * 2000 + 1 * r.val = 2000 * (t.val - 2) + r.val; omega
  | ⟨1, _⟩ => show win0_4.index t (1 : Fin 2) * 256 + 1 * e.val = e.val; omega

/-! ## The output's blocks -/

/-- Block t − 2 of any contents G of the result array, read at an entry. -/
theorem outBlock_read (c : Dev nD) (t : Fin cfg0.N) (ht : 2 ≤ t.val)
    (G : Buf (Elt F) ((cfg0.win 7).arr.view.loc (c.tc : Thread nD τ))) (r : Fin 2000) (d : Fin 256) :
    (((cfg0.win 7).blk t).view.read (Elt F) G : Vec F S2000x256 .f32) (ix2 r d)
      = (G : Vec F S10000x256 .f32) (ix2 (blockRow (rowBlock t ht) r) d) := by
  obtain ⟨-, -, -, -, -, -, -, -, -, -, -, -, -, -, e0, e1⟩ := idx_facts t
  show (G : Vec F S10000x256 .f32) (((cfg0.win 7).blk t).view.emb (ix2 r d)) = _
  congr 1
  funext a; apply Fin.ext
  match a with
  | ⟨0, _⟩ => show win0_7.index t (0 : Fin 2) * 2000 + 1 * r.val = 2000 * (t.val - 2) + r.val; omega
  | ⟨1, _⟩ => show win0_7.index t (1 : Fin 2) * 256 + 1 * d.val = d.val; omega

/-- Each of the five row blocks of the result is some point's, and that point writes its block back. -/
theorem out_onto : ∀ q : Fin 5, ∃ t : Fin cfg0.N, (cfg0.win 7).flush t = true
    ∧ win0_7.index t (0 : Fin 2) = q.val ∧ win0_7.index t (1 : Fin 2) = 0 :=
  (by decide +kernel : ∀ q : Fin 5, ∃ t : Fin grid0.N, win0_7.flush t = true
    ∧ win0_7.index t (0 : Fin 2) = q.val ∧ win0_7.index t (1 : Fin 2) = 0)

/-- An entry of the result array is in point t's block iff each coordinate is in the block's range on its axis. -/
theorem mem_outBlock (t : Fin cfg0.N) (i : S10000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v2).slice (win0_7.rect t)).set ↔ _
  rw [View.set_slice_whole, Rect.mem_set_unit]
  exact Iff.rfl

/-- The cover at the literal index type: row n lies in block n / 2000. -/
theorem out_cover_lit (i : S10000x256.Idx) :
    ∃ t : Fin cfg0.N, (cfg0.win 7).flush t = true ∧ i ∈ ((cfg0.win 7).blk t).view.set := by
  have hi0 : (i 0).val < 10000 := (i 0).isLt
  have hi1 : (i 1).val < 256 := (i 1).isLt
  obtain ⟨t, hf, q0, q1⟩ := out_onto ⟨(i 0).val / 2000, by omega⟩
  have q0' : win0_7.index t (0 : Fin 2) = (i 0).val / 2000 := q0
  refine ⟨t, hf, ?_⟩
  rw [mem_outBlock]
  intro a
  match a with
  | ⟨0, _⟩ =>
    show win0_7.index t (0 : Fin 2) * 2000 ≤ (i 0).val ∧ (i 0).val < win0_7.index t (0 : Fin 2) * 2000 + 2000
    omega
  | ⟨1, _⟩ =>
    show win0_7.index t (1 : Fin 2) * 256 ≤ (i 1).val ∧ (i 1).val < win0_7.index t (1 : Fin 2) * 256 + 256
    omega

/-- Every entry of the result array lies in the block some attention point writes back. -/
theorem out_cover (c : Dev nD) (i : ((cfg0.win 7).arr.view.loc (c.tc : Thread nD τ)).2.ty.Idx) :
    ∃ t : Fin cfg0.N, (cfg0.win 7).flush t = true ∧ i ∈ ((cfg0.win 7).blk t).view.set :=
  out_cover_lit i

end Cert.KernelIdeal.Blocks

end
-- ==== Proof.Assemble.lean ====
/-
  The kernel builds the Gram matrix from two row chunks of Z and only three of its four quadrants, and the mixed
  values from half-range sums: these are the Gram matrix, its root's column sums and the mixed values, split.
-/
import proofs.«111863_g52209622450808_cont_9to1_m_767_26_alg».proof.Proof.Mats
import Mathlib.Algebra.BigOperators.Fin

noncomputable section

namespace Cert.Spec

open Idealize.ShloMosaic

/-- A sum over 1024 indices is the sum over the first 512 plus the sum over the last 512: the index range is
    512 + 512, its first summand's embedding is `lo` and its second's is `hi`. -/
private theorem sum_halves (f : Fin 1024 → EReal) :
    ∑ j, f j = (∑ j : Fin 512, f (lo j)) + (∑ j : Fin 512, f (hi j)) :=
  Fin.sum_univ_add (a := 512) (b := 512) (f := f)

/-- A sum over 4096 rows is the sum over the first 2048 plus the sum over the last 2048. -/
private theorem sum_halves4 (f : Fin 4096 → EReal) :
    ∑ r, f r = (∑ r : Fin 2048, f (lo4 r)) + (∑ r : Fin 2048, f (hi4 r)) :=
  Fin.sum_univ_add (a := 2048) (b := 2048) (f := f)

/-- The Gram matrix is the sum of the two row chunks' Gram matrices. -/
theorem gram_split (Z : Mat 4096 1024) (i j : Fin 1024) :
    gram Z i j = (∑ r : Fin 2048, Z (lo4 r) i * Z (lo4 r) j) + (∑ r : Fin 2048, Z (hi4 r) i * Z (hi4 r) j) := by
  unfold gram
  exact sum_halves4 (fun r => Z r i * Z r j)

/-- The Gram matrix is symmetric, and so is its root. -/
theorem gram_symm (Z : Mat 4096 1024) (i j : Fin 1024) : gram Z i j = gram Z j i := by
  unfold gram
  exact Finset.sum_congr rfl (fun r _ => mul_comm (Z r i) (Z r j))

theorem root_symm (Z : Mat 4096 1024) (i j : Fin 1024) : root Z i j = root Z j i := by
  unfold root
  rw [gram_symm Z i j]

/-- A left column's sum, from the top-left quadrant's column and the top-right quadrant's ROW (the bottom-left
    quadrant is the top-right one transposed). -/
theorem colSum_lo (Z : Mat 4096 1024) (j : Fin 512) :
    colSum Z (lo j) = (∑ i : Fin 512, root Z (lo i) (lo j)) + (∑ i : Fin 512, root Z (lo j) (hi i)) := by
  unfold colSum
  rw [sum_halves (fun i => root Z i (lo j))]
  congr 1
  exact Finset.sum_congr rfl (fun i _ => root_symm Z (hi i) (lo j))

/-- A right column's sum, from the top-right and bottom-right quadrants' columns. -/
theorem colSum_hi (Z : Mat 4096 1024) (j : Fin 512) :
    colSum Z (hi j) = (∑ i : Fin 512, root Z (lo i) (hi j)) + (∑ i : Fin 512, root Z (hi i) (hi j)) := by
  unfold colSum
  exact sum_halves (fun i => root Z i (hi j))

/-- A top row of the mixed values, from the two top quadrants. -/
theorem mixedK_lo (Y : Mat 1024 256) (Z : Mat 4096 1024) (i : Fin 512) (d : Fin 256) :
    mixedK Y Z (lo i) d
      = (∑ j : Fin 512, root Z (lo i) (lo j) * Ideal.div (Y (lo j) d) (colSum Z (lo j)))
        + (∑ j : Fin 512, root Z (lo i) (hi j) * Ideal.div (Y (hi j) d) (colSum Z (hi j))) := by
  unfold mixedK
  exact sum_halves (fun j => root Z (lo i) j * Ideal.div (Y j d) (colSum Z j))

/-- A bottom row of the mixed values, from the top-right quadrant transposed and the bottom-right quadrant. -/
theorem mixedK_hi (Y : Mat 1024 256) (Z : Mat 4096 1024) (i : Fin 512) (d : Fin 256) :
    mixedK Y Z (hi i) d
      = (∑ j : Fin 512, root Z (lo j) (hi i) * Ideal.div (Y (lo j) d) (colSum Z (lo j)))
        + (∑ j : Fin 512, root Z (hi i) (hi j) * Ideal.div (Y (hi j) d) (colSum Z (hi j))) := by
  unfold mixedK
  rw [sum_halves (fun j => root Z (hi i) j * Ideal.div (Y j d) (colSum Z j))]
  congr 1
  exact Finset.sum_congr rfl (fun j _ => by rw [root_symm Z (hi i) (lo j)])

end Cert.Spec

end
-- ==== Proof.ValueGram.lean ====
/-
  At the extended reals, what point 1 leaves in the three Gram buffers: the top-left, top-right and bottom-right
  quadrants of ZᵀZ — each the first chunk's 2048 rows' contribution plus the second chunk's.
-/
import proofs.«111863_g52209622450808_cont_9to1_m_767_26_alg».proof.Proof.Body
import proofs.«111863_g52209622450808_cont_9to1_m_767_26_alg».proof.Proof.Pieces
import proofs.«111863_g52209622450808_cont_9to1_m_767_26_alg».proof.Proof.PayGram
import proofs.«111863_g52209622450808_cont_9to1_m_767_26_alg».proof.Proof.Blocks
import proofs.«111863_g52209622450808_cont_9to1_m_767_26_alg».proof.Proof.Assemble

set_option maxRecDepth 16384

noncomputable section

namespace Cert.KernelIdeal.Body

open Cert.KernelIdeal Cert.KernelIdeal.Gen Cert.KernelIdeal.Blocks Cert.Spec
open Idealize.ShloMosaic Idealize.ShloMosaic.TcCoe Idealize.ShloMosaic.ValueIdx
open Idealize.SL Idealize.SL.Sem

variable (m : (ℓ : Loc nD τ sig) → Buf (Elt Ideal) ℓ)

/-- The launched arrays as the specification's matrices. -/
abbrev mX (c : Dev nD) : Mat 10000 256 := mat (arrX m c)
abbrev mY (c : Dev nD) : Mat 1024 256 := mat (arrY m c)
abbrev mZ (c : Dev nD) : Mat 4096 1024 := mat (arrZ m c)
abbrev mWq (c : Dev nD) : Mat 256 256 := mat (arrWq m c)
abbrev vBq (c : Dev nD) : Fin 256 → EReal := vec (arrBq m c)
abbrev mWk (c : Dev nD) : Mat 256 256 := mat (arrWk m c)
abbrev vBk (c : Dev nD) : Fin 256 → EReal := vec (arrBk m c)

/-- The projections of what points 0 and 1 leave, as the found piece lists' contents. -/
private theorem gram0_fst (c : Dev nD) : (gram0 m c).1 = View.canon (firstAt m c).1 := by
  unfold gram0; dsimp only
private theorem gram0_snd (c : Dev nD) : (gram0 m c).2.1 = View.canon (firstAt m c).2.1 := by
  unfold gram0; dsimp only
private theorem gram0_trd (c : Dev nD) : (gram0 m c).2.2 = View.canon (firstAt m c).2.2.1 := by
  unfold gram0; dsimp only
private theorem prep_fst (c : Dev nD) : (prep m c).1 = View.canon (lastAt m c).1 := by
  unfold prep; dsimp only
private theorem prep_snd (c : Dev nD) : (prep m c).2.1 = View.canon (lastAt m c).2.1 := by
  unfold prep; dsimp only
private theorem prep_trd (c : Dev nD) : (prep m c).2.2.1 = View.canon (lastAt m c).2.2.1 := by
  unfold prep; dsimp only

/-- What point 1 leaves in the Gram buffers, named. -/
theorem prep_g00 (c : Dev nD) : (prep m c).1 = k0_pay8 (leftHalf (blkZ m c p1)) (k0_pay3 (leftHalf (blkZ m c p0))) := by
  rw [prep_fst]
  refine (pieceLast0 (F := Ideal) c (grid0.coords p1) (ms0 p1) (hs0 p1) (ms1 p1) (hs1 p1) (ms2 p1) (hs2 p1) (ms3 p1) (hs3 p1) (ms4 p1) (hs4 p1) (ms5 p1) (hs5 p1) (ms6 p1) (hs6 p1) (ms7 p1) (hs7 p1) sc0 (Memref.isWhole_whole _) sc1 (Memref.isWhole_whole _) sc2 (Memref.isWhole_whole _) sc3 (Memref.isWhole_whole _) sc4 (Memref.isWhole_whole _)
      (fun h => absurd ((isFirst_iff p1).mp h) (by decide)) ((isLater_iff p1).mpr rfl) ((isLast_iff p1).mpr rfl) (fun h => absurd ((isAttn_iff p1).mp h) (by decide))
      (iblk m c 0 p1) (iblk m c 1 p1) (iblk m c 2 p1) (iblk m c 3 p1) (iblk m c 4 p1) (iblk m c 5 p1) (iblk m c 6 p1) (gram0 m c).1 (gram0 m c).2.1 (gram0 m c).2.2).trans ?_
  refine congrArg (k0_pay8 (leftHalf (blkZ m c p1))) ?_
  rw [gram0_fst]
  exact pieceFirst0 (F := Ideal) c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) sc0 (Memref.isWhole_whole _) sc1 (Memref.isWhole_whole _) sc2 (Memref.isWhole_whole _) sc3 (Memref.isWhole_whole _) sc4 (Memref.isWhole_whole _)
      ((isFirst_iff p0).mpr rfl) (fun h => absurd ((isLater_iff p0).mp h) (by decide)) (fun h => absurd ((isLast_iff p0).mp h) (by decide)) (fun h => absurd ((isAttn_iff p0).mp h) (by decide))
      (iblk m c 0 p0) (iblk m c 1 p0) (iblk m c 2 p0) (iblk m c 3 p0) (iblk m c 4 p0) (iblk m c 5 p0) (iblk m c 6 p0)

theorem prep_g01 (c : Dev nD) :
    (prep m c).2.1 = k0_pay9 (leftHalf (blkZ m c p1)) (rightHalf (blkZ m c p1)) (k0_pay4 (leftHalf (blkZ m c p0)) (rightHalf (blkZ m c p0))) := by
  rw [prep_snd]
  refine (pieceLast1 (F := Ideal) c (grid0.coords p1) (ms0 p1) (hs0 p1) (ms1 p1) (hs1 p1) (ms2 p1) (hs2 p1) (ms3 p1) (hs3 p1) (ms4 p1) (hs4 p1) (ms5 p1) (hs5 p1) (ms6 p1) (hs6 p1) (ms7 p1) (hs7 p1) sc0 (Memref.isWhole_whole _) sc1 (Memref.isWhole_whole _) sc2 (Memref.isWhole_whole _) sc3 (Memref.isWhole_whole _) sc4 (Memref.isWhole_whole _)
      (fun h => absurd ((isFirst_iff p1).mp h) (by decide)) ((isLater_iff p1).mpr rfl) ((isLast_iff p1).mpr rfl) (fun h => absurd ((isAttn_iff p1).mp h) (by decide))
      (iblk m c 0 p1) (iblk m c 1 p1) (iblk m c 2 p1) (iblk m c 3 p1) (iblk m c 4 p1) (iblk m c 5 p1) (iblk m c 6 p1) (gram0 m c).1 (gram0 m c).2.1 (gram0 m c).2.2).trans ?_
  refine congrArg (k0_pay9 (leftHalf (blkZ m c p1)) (rightHalf (blkZ m c p1))) ?_
  rw [gram0_snd]
  exact pieceFirst1 (F := Ideal) c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) sc0 (Memref.isWhole_whole _) sc1 (Memref.isWhole_whole _) sc2 (Memref.isWhole_whole _) sc3 (Memref.isWhole_whole _) sc4 (Memref.isWhole_whole _)
      ((isFirst_iff p0).mpr rfl) (fun h => absurd ((isLater_iff p0).mp h) (by decide)) (fun h => absurd ((isLast_iff p0).mp h) (by decide)) (fun h => absurd ((isAttn_iff p0).mp h) (by decide))
      (iblk m c 0 p0) (iblk m c 1 p0) (iblk m c 2 p0) (iblk m c 3 p0) (iblk m c 4 p0) (iblk m c 5 p0) (iblk m c 6 p0)

theorem prep_g11 (c : Dev nD) : (prep m c).2.2.1 = k0_pay10 (rightHalf (blkZ m c p1)) (k0_pay5 (rightHalf (blkZ m c p0))) := by
  rw [prep_trd]
  refine (pieceLast2 (F := Ideal) c (grid0.coords p1) (ms0 p1) (hs0 p1) (ms1 p1) (hs1 p1) (ms2 p1) (hs2 p1) (ms3 p1) (hs3 p1) (ms4 p1) (hs4 p1) (ms5 p1) (hs5 p1) (ms6 p1) (hs6 p1) (ms7 p1) (hs7 p1) sc0 (Memref.isWhole_whole _) sc1 (Memref.isWhole_whole _) sc2 (Memref.isWhole_whole _) sc3 (Memref.isWhole_whole _) sc4 (Memref.isWhole_whole _)
      (fun h => absurd ((isFirst_iff p1).mp h) (by decide)) ((isLater_iff p1).mpr rfl) ((isLast_iff p1).mpr rfl) (fun h => absurd ((isAttn_iff p1).mp h) (by decide))
      (iblk m c 0 p1) (iblk m c 1 p1) (iblk m c 2 p1) (iblk m c 3 p1) (iblk m c 4 p1) (iblk m c 5 p1) (iblk m c 6 p1) (gram0 m c).1 (gram0 m c).2.1 (gram0 m c).2.2).trans ?_
  refine congrArg (k0_pay10 (rightHalf (blkZ m c p1))) ?_
  rw [gram0_trd]
  exact pieceFirst2 (F := Ideal) c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) sc0 (Memref.isWhole_whole _) sc1 (Memref.isWhole_whole _) sc2 (Memref.isWhole_whole _) sc3 (Memref.isWhole_whole _) sc4 (Memref.isWhole_whole _)
      ((isFirst_iff p0).mpr rfl) (fun h => absurd ((isLater_iff p0).mp h) (by decide)) (fun h => absurd ((isLast_iff p0).mp h) (by decide)) (fun h => absurd ((isAttn_iff p0).mp h) (by decide))
      (iblk m c 0 p0) (iblk m c 1 p0) (iblk m c 2 p0) (iblk m c 3 p0) (iblk m c 4 p0) (iblk m c 5 p0) (iblk m c 6 p0)

/-- The top-left quadrant. -/
theorem gramTL (c : Dev nD) (i j : Fin 512) : (prep m c).1 (ix2 i j) = gram (mZ m c) (lo i) (lo j) := by
  rw [prep_g00, Pay.pay8_apply, Pay.pay3_apply, gram_split]
  congr 1 <;> refine Finset.sum_congr rfl fun r _ => ?_
  · rw [leftHalf_apply, leftHalf_apply, blkZ_first m c p0 rfl, blkZ_first m c p0 rfl]
  · rw [leftHalf_apply, leftHalf_apply, blkZ_second m c p1 (by decide), blkZ_second m c p1 (by decide)]

/-- The top-right quadrant. -/
theorem gramTR (c : Dev nD) (i j : Fin 512) : (prep m c).2.1 (ix2 i j) = gram (mZ m c) (lo i) (hi j) := by
  rw [prep_g01, Pay.pay9_apply, Pay.pay4_apply, gram_split]
  congr 1 <;> refine Finset.sum_congr rfl fun r _ => ?_
  · rw [leftHalf_apply, rightHalf_apply, blkZ_first m c p0 rfl, blkZ_first m c p0 rfl]
  · rw [leftHalf_apply, rightHalf_apply, blkZ_second m c p1 (by decide), blkZ_second m c p1 (by decide)]

/-- The bottom-right quadrant. -/
theorem gramBR (c : Dev nD) (i j : Fin 512) : (prep m c).2.2.1 (ix2 i j) = gram (mZ m c) (hi i) (hi j) := by
  rw [prep_g11, Pay.pay10_apply, Pay.pay5_apply, gram_split]
  congr 1 <;> refine Finset.sum_congr rfl fun r _ => ?_
  · rw [rightHalf_apply, rightHalf_apply, blkZ_first m c p0 rfl, blkZ_first m c p0 rfl]
  · rw [rightHalf_apply, rightHalf_apply, blkZ_second m c p1 (by decide), blkZ_second m c p1 (by decide)]

end Cert.KernelIdeal.Body

end
-- ==== Proof.PiecesMix.lean ====
/-
  What the end of the preamble leaves in the augmented mixed values' buffer: three stores — the top half and the
  bottom half of the 256 value columns, computed from the Gram quadrants as the second chunk's step has just
  completed them, and 128 columns of ones — read at an entry.
-/
import proofs.«111863_g52209622450808_cont_9to1_m_767_26_alg».proof.Proof.Mats
import proofs.«111863_g52209622450808_cont_9to1_m_767_26_alg».proof.Proof.BodyRuns
import Idealize.ShloMosaic.Lib.Pipeline.Value
import proofs.«111863_g52209622450808_cont_9to1_m_767_26_alg».proof.Proof.Pieces

set_option maxRecDepth 16384

noncomputable section

namespace Cert.KernelIdeal.Body

open Cert.KernelIdeal Cert.KernelIdeal.Gen Cert.Spec
open Idealize.ShloMosaic Idealize.ShloMosaic.TcCoe Idealize.ShloMosaic.Tactic Idealize.ShloMosaic.ValueIdx
open Idealize.SL Idealize.SL.Sem

variable {F : FTy → Type} [FloatOps F]

/-- The Gram quadrants as the second chunk's step leaves them: what the scratch held plus the chunk's contribution. -/
abbrev fullG00 (x0 : Vec F S2048x1024 .f32) (xs0 : Vec F S512x512 .f32) : Vec F S512x512 .f32 := k0_pay8 (leftHalf x0) xs0
abbrev fullG01 (x0 : Vec F S2048x1024 .f32) (xs1 : Vec F S512x512 .f32) : Vec F S512x512 .f32 := k0_pay9 (leftHalf x0) (rightHalf x0) xs1
abbrev fullG11 (x0 : Vec F S2048x1024 .f32) (xs2 : Vec F S512x512 .f32) : Vec F S512x512 .f32 := k0_pay10 (rightHalf x0) xs2

/-! ## Where the three stores lie in the 1024 × 384 buffer -/

/-- The top half's store covers rows 0 to 511 of the value columns. -/
private theorem emb_top (r : Fin 512) (d : Fin 256) :
    (Rect.unit (s := S1024x384) ![0, 0] ![512, 256] inb_S1024x384_S512x256_0_0).emb (ix2 r d) = ix2 (lo r) (valCol d) :=
  funext fun a => Fin.ext (by
    match a with
    | ⟨0, _⟩ => show 0 + 1 * r.val = r.val; omega
    | ⟨1, _⟩ => show 0 + 1 * d.val = d.val; omega)

/-- The bottom half's store covers rows 512 to 1023 of the value columns. -/
private theorem emb_bottom (r : Fin 512) (d : Fin 256) :
    (Rect.unit (s := S1024x384) ![512, 0] ![512, 256] inb_S1024x384_S512x256_512_0).emb (ix2 r d) = ix2 (hi r) (valCol d) :=
  funext fun a => Fin.ext (by
    match a with
    | ⟨0, _⟩ => show 512 + 1 * r.val = 512 + r.val; omega
    | ⟨1, _⟩ => show 0 + 1 * d.val = d.val; omega)

/-- The ones' store covers columns 256 to 383 of every row. -/
private theorem emb_one (r : Fin 1024) (u : Fin 128) :
    (Rect.unit (s := S1024x384) ![0, 256] ![1024, 128] inb_S1024x384_S1024x128_0_256).emb (ix2 r u) = ix2 r (⟨256 + u.val, by have := u.isLt; omega⟩ : Fin 384) :=
  funext fun a => Fin.ext (by
    match a with
    | ⟨0, _⟩ => show 0 + 1 * r.val = r.val; omega
    | ⟨1, _⟩ => show 256 + 1 * u.val = 256 + u.val; omega)

/-- A value column lies off the ones' store. -/
private theorem valCol_not_one (m : Fin 1024) (d : Fin 256) : ix2 m (valCol d) ∉ (Rect.unit (s := S1024x384) ![0, 256] ![1024, 128] inb_S1024x384_S1024x128_0_256).set := by
  rw [Rect.mem_set_unit]
  intro h
  have h1 := (h 1).1
  have : (256 : Nat) ≤ d.val := h1
  have := d.isLt
  omega

/-- A top row lies off the bottom half's store. -/
private theorem lo_not_bottom (r : Fin 512) (e : Fin 384) : ix2 (lo r) e ∉ (Rect.unit (s := S1024x384) ![512, 0] ![512, 256] inb_S1024x384_S512x256_512_0).set := by
  rw [Rect.mem_set_unit]
  intro h
  have h0 := (h 0).1
  have : (512 : Nat) ≤ r.val := h0
  have := r.isLt
  omega

section Stores

variable (w1 : S1024x128.Idx → Elt F .bf16) (w2 w3 : S512x256.Idx → Elt F .bf16)

/-- At a value column of a top row the three stores leave the top half's payload. -/
private theorem canon_top (r : Fin 512) (d : Fin 256) :
    View.canon (Val := Elt F) [⟨(Rect.unit (s := S1024x384) ![0, 256] ![1024, 128] inb_S1024x384_S1024x128_0_256), w1⟩, ⟨(Rect.unit (s := S1024x384) ![512, 0] ![512, 256] inb_S1024x384_S512x256_512_0), w2⟩, ⟨(Rect.unit (s := S1024x384) ![0, 0] ![512, 256] inb_S1024x384_S512x256_0_0), w3⟩] (ix2 (lo r) (valCol d)) = w3 (ix2 r d) := by
  refine (View.canon_cons_of_not_mem (Val := Elt F) ⟨(Rect.unit (s := S1024x384) ![0, 256] ![1024, 128] inb_S1024x384_S1024x128_0_256), w1⟩ [⟨(Rect.unit (s := S1024x384) ![512, 0] ![512, 256] inb_S1024x384_S512x256_512_0), w2⟩, ⟨(Rect.unit (s := S1024x384) ![0, 0] ![512, 256] inb_S1024x384_S512x256_0_0), w3⟩] (valCol_not_one (lo r) d)).trans ?_
  refine (View.canon_cons_of_not_mem (Val := Elt F) ⟨(Rect.unit (s := S1024x384) ![512, 0] ![512, 256] inb_S1024x384_S512x256_512_0), w2⟩ [⟨(Rect.unit (s := S1024x384) ![0, 0] ![512, 256] inb_S1024x384_S512x256_0_0), w3⟩] (lo_not_bottom r (valCol d))).trans ?_
  exact (congrArg (View.canon (Val := Elt F) [⟨(Rect.unit (s := S1024x384) ![0, 0] ![512, 256] inb_S1024x384_S512x256_0_0), w3⟩]) (emb_top r d).symm).trans
    (View.canon_cons_emb (Val := Elt F) (Rect.unit (s := S1024x384) ![0, 0] ![512, 256] inb_S1024x384_S512x256_0_0) w3 [] (ix2 r d))

/-- At a value column of a bottom row they leave the bottom half's payload. -/
private theorem canon_bottom (r : Fin 512) (d : Fin 256) :
    View.canon (Val := Elt F) [⟨(Rect.unit (s := S1024x384) ![0, 256] ![1024, 128] inb_S1024x384_S1024x128_0_256), w1⟩, ⟨(Rect.unit (s := S1024x384) ![512, 0] ![512, 256] inb_S1024x384_S512x256_512_0), w2⟩, ⟨(Rect.unit (s := S1024x384) ![0, 0] ![512, 256] inb_S1024x384_S512x256_0_0), w3⟩] (ix2 (hi r) (valCol d)) = w2 (ix2 r d) := by
  refine (View.canon_cons_of_not_mem (Val := Elt F) ⟨(Rect.unit (s := S1024x384) ![0, 256] ![1024, 128] inb_S1024x384_S1024x128_0_256), w1⟩ [⟨(Rect.unit (s := S1024x384) ![512, 0] ![512, 256] inb_S1024x384_S512x256_512_0), w2⟩, ⟨(Rect.unit (s := S1024x384) ![0, 0] ![512, 256] inb_S1024x384_S512x256_0_0), w3⟩] (valCol_not_one (hi r) d)).trans ?_
  exact (congrArg (View.canon (Val := Elt F) [⟨(Rect.unit (s := S1024x384) ![512, 0] ![512, 256] inb_S1024x384_S512x256_512_0), w2⟩, ⟨(Rect.unit (s := S1024x384) ![0, 0] ![512, 256] inb_S1024x384_S512x256_0_0), w3⟩]) (emb_bottom r d).symm).trans
    (View.canon_cons_emb (Val := Elt F) (Rect.unit (s := S1024x384) ![512, 0] ![512, 256] inb_S1024x384_S512x256_512_0) w2 [⟨(Rect.unit (s := S1024x384) ![0, 0] ![512, 256] inb_S1024x384_S512x256_0_0), w3⟩] (ix2 r d))

/-- At the first column of ones they leave the ones' payload. -/
private theorem canon_one (r : Fin 1024) :
    View.canon (Val := Elt F) [⟨(Rect.unit (s := S1024x384) ![0, 256] ![1024, 128] inb_S1024x384_S1024x128_0_256), w1⟩, ⟨(Rect.unit (s := S1024x384) ![512, 0] ![512, 256] inb_S1024x384_S512x256_512_0), w2⟩, ⟨(Rect.unit (s := S1024x384) ![0, 0] ![512, 256] inb_S1024x384_S512x256_0_0), w3⟩] (ix2 r oneCol) = w1 (ix2 r (0 : Fin 128)) :=
  (congrArg (View.canon (Val := Elt F) [⟨(Rect.unit (s := S1024x384) ![0, 256] ![1024, 128] inb_S1024x384_S1024x128_0_256), w1⟩, ⟨(Rect.unit (s := S1024x384) ![512, 0] ![512, 256] inb_S1024x384_S512x256_512_0), w2⟩, ⟨(Rect.unit (s := S1024x384) ![0, 0] ![512, 256] inb_S1024x384_S512x256_0_0), w3⟩]) (emb_one r 0).symm).trans
    (View.canon_cons_emb (Val := Elt F) (Rect.unit (s := S1024x384) ![0, 256] ![1024, 128] inb_S1024x384_S1024x128_0_256) w1 [⟨(Rect.unit (s := S1024x384) ![512, 0] ![512, 256] inb_S1024x384_S512x256_512_0), w2⟩, ⟨(Rect.unit (s := S1024x384) ![0, 0] ![512, 256] inb_S1024x384_S512x256_0_0), w3⟩] (ix2 r (0 : Fin 128)))

end Stores

/-! ## What the step read: the scratch just written, and the inputs -/

private theorem zeros2 : (![0, 0] : Fin 2 → Nat) = fun _ => 0 :=
  funext fun a => by match a with | ⟨0, _⟩ => rfl | ⟨1, _⟩ => rfl

/-- A quadrant's buffer read back whole after one whole store holds the store's payload. -/
private theorem readBack (arg : Memref sig .tc .vmem S512x512 .f32) (w : Vec F S512x512 .f32) :
    arg.view.readCov [(⟨Rect.unit ![0, 0] ![512, 512] inb_S512x512_S512x512_0_0, w⟩ : View.Piece (Elt F) S512x512 .f32)]
      (Rect.unit ![0, 0] S512x512.size inb_S512x512_S512x512_0_0).toLoadRect = w :=
  View.readCov_unit_zero (Val := Elt F) arg.view zeros2 inb_S512x512_S512x512_0_0 w

/-- A whole quadrant's buffer at given contents reads them. -/
private theorem readQuad (arg : Memref sig .tc .vmem S512x512 .f32) (harg : arg.IsWhole) (xs : Vec F S512x512 .f32) :
    View.readAt (Elt F) arg.view (Rect.unit ![0, 0] ![512, 512] inb_S512x512_S512x512_0_0).toLoadRect (harg.unread xs) = xs := by
  rw [View.readAt_eq_ld, harg.read_unread]
  exact View.ld_unit_zero zeros2 inb_S512x512_S512x512_0_0 xs

/-- Y's whole buffer at given contents reads them. -/
private theorem readY (arg : Memref sig .tc .vmem S1024x256 .f32) (harg : arg.IsWhole) (x : Vec F S1024x256 .f32) :
    View.readAt (Elt F) arg.view (Rect.unit ![0, 0] ![1024, 256] inb_S1024x256_S1024x256_0_0).toLoadRect (harg.unread x) = x := by
  rw [View.readAt_eq_ld, harg.read_unread]
  exact View.ld_unit_zero zeros2 inb_S1024x256_S1024x256_0_0 x

/-- The chunk's left 512 columns as loaded. -/
private theorem readLeft (arg : Memref sig .tc .vmem S2048x1024 .f32) (harg : arg.IsWhole) (x : Vec F S2048x1024 .f32) :
    View.readAt (Elt F) arg.view (Rect.unit ![0, 0] ![2048, 512] inb_S2048x1024_S2048x512_0_0).toLoadRect (harg.unread x) = leftHalf x := by
  rw [View.readAt_eq_ld, harg.read_unread]

/-- The chunk's right 512 columns as loaded. -/
private theorem readRight (arg : Memref sig .tc .vmem S2048x1024 .f32) (harg : arg.IsWhole) (x : Vec F S2048x1024 .f32) :
    View.readAt (Elt F) arg.view (Rect.unit ![0, 512] ![2048, 512] inb_S2048x1024_S2048x512_0_512).toLoadRect (harg.unread x) = rightHalf x := by
  rw [View.readAt_eq_ld, harg.read_unread]

/-- The same with the buffer's sizes written by the shape's name. -/
private theorem readY' (arg : Memref sig .tc .vmem S1024x256 .f32) (harg : arg.IsWhole) (x : Vec F S1024x256 .f32) :
    View.readAt (Elt F) arg.view (Rect.unit ![0, 0] S1024x256.size inb_S1024x256_S1024x256_0_0).toLoadRect (harg.unread x) = x :=
  readY arg harg x

/-! ## The buffer read at an entry -/

/-- A value column of a top row: the top half's payload. -/
theorem pieceMix_top (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i) (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32)
    (r : Fin 512) (d : Fin 256) :
    View.canon (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.2.1 (ix2 (lo r) (valCol d))
      = k0_pay20 (fullG00 x0 xs0) (fullG01 x0 xs1) (fullG11 x0 xs2) x1 (ix2 r d) := by
  unfold runLast
  dsimp only
  sl_unfold_words
  refine (canon_top _ _ _ r d).trans ?_
  rw [readBack, readBack, readBack, readQuad, readQuad, readQuad, readLeft, readRight, readY]

/-- A value column of a bottom row: the bottom half's payload. -/
theorem pieceMix_bottom (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i) (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32)
    (r : Fin 512) (d : Fin 256) :
    View.canon (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.2.1 (ix2 (hi r) (valCol d))
      = k0_pay11 (k0_pay21 (fullG00 x0 xs0) (fullG01 x0 xs1) (fullG11 x0 xs2) x1) (ix2 r d) := by
  unfold runLast
  dsimp only
  sl_unfold_words
  refine (canon_bottom _ _ _ r d).trans ?_
  rw [readBack, readBack, readBack, readQuad, readQuad, readQuad, readLeft, readRight, readY']

/-- The first column of ones. -/
theorem pieceMix_one (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i) (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32)
    (r : Fin 1024) :
    View.canon (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.2.1 (ix2 r oneCol) = k0_pay12 (F := F) (ix2 r (0 : Fin 128)) := by
  unfold runLast
  dsimp only
  sl_unfold_words
  exact canon_one _ _ _ r

end Cert.KernelIdeal.Body

end
-- ==== Proof.PayMix.lean ====
/-
  The payloads of the step that finishes the preamble, read at an entry: the two halves of the mixed values
  from the three Gram quadrants held in scratch and Y, the column of ones, and the scaled keys.
-/
import proofs.«111863_g52209622450808_cont_9to1_m_767_26_alg».proof.Proof.Mats
import proofs.«111863_g52209622450808_cont_9to1_m_767_26_alg».proof.Proof.Gen.KernelIdeal.Skeleton
import Idealize.ShloMosaic.PureOps.Ideal.Laws
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen Cert.Spec

/-! ## The square root, entrywise -/

private theorem pay15_apply (g : Vec Ideal S512x512 .f32) (i : S512x512.Idx) : k0_pay15 (F := Ideal) g i = Ideal.sqrt (g i) := rfl
private theorem pay16_apply (g : Vec Ideal S512x512 .f32) (i : S512x512.Idx) : k0_pay16 (F := Ideal) g i = Ideal.sqrt (g i) := rfl
private theorem pay17_apply (g : Vec Ideal S512x512 .f32) (i : S512x512.Idx) : k0_pay17 (F := Ideal) g i = Ideal.sqrt (g i) := rfl

/-! ## Sums along one axis of a 512 × 512 array -/

private theorem sumRows_apply (v : FVec Ideal S512x512 .f32) (hφ : FKind.Formats .f32)
    (hacc : (0x00000000#32 : BitVec 32) = FKind.add.neutral .f32 hφ) (j : Fin 512) :
    multiReduction (F := Ideal) .add [0] S512 v 0x00000000#32 reduces_S512x512_S512 hφ hacc (ix1 j)
      = ∑ i : Fin 512, v (ix2 i j) := by
  refine (Ideal.multiReduction_add_single v 0x00000000#32 reduces_S512x512_S512 hφ hacc (ix1 j)).trans ?_
  refine Finset.sum_congr rfl fun k _ => congrArg v ?_
  funext a
  match a with
  | ⟨0, _⟩ => rfl
  | ⟨1, _⟩ => rfl

private theorem sumCols_apply (v : FVec Ideal S512x512 .f32) (hφ : FKind.Formats .f32)
    (hacc : (0x00000000#32 : BitVec 32) = FKind.add.neutral .f32 hφ) (j : Fin 512) :
    multiReduction (F := Ideal) .add [1] S512 v 0x00000000#32 reduces_S512x512_S512_2 hφ hacc (ix1 j)
      = ∑ i : Fin 512, v (ix2 j i) := by
  refine (Ideal.multiReduction_add_single v 0x00000000#32 reduces_S512x512_S512_2 hφ hacc (ix1 j)).trans ?_
  refine Finset.sum_congr rfl fun k _ => congrArg v ?_
  funext a
  match a with
  | ⟨0, _⟩ => rfl
  | ⟨1, _⟩ => rfl

/-! ## The products, read at an entry

Each product is the sum over its one contracted axis: which coordinate of each operand the contraction index
fills, and which the result's row or column fills, is read off the dimension numbers axis by axis. -/

/-! ### Rows of the left factor against columns of the right (512 × 512 by 512 × 256) -/

private theorem lhs_rc_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
private theorem lhs_rc_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
private theorem rhs_rc_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
private theorem rhs_rc_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

private theorem mulRC_apply (a : FVec Ideal S512x512 .bf16) (b : FVec Ideal S512x256 .bf16) (i : Fin 512) (d : Fin 256) :
    matmul dot_S512x512_S512x256_S512x256_1_0_0_1_n_n none a b (constant (F := Ideal) S512x256 .f32 0x00000000#32) (ix2 i d)
      = ∑ j : Fin 512, a (ix2 i j) * b (ix2 j d) := by
  simp only [matmul]
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 i d) ((contrEquiv1 dot_S512x512_S512x256_S512x256_1_0_0_1_n_n 512 rfl rfl).symm k) = ix2 i k := funext fun a => Fin.ext (by
    match a with
    | ⟨0, _⟩ => exact lhs_rc_0 _ _
    | ⟨1, _⟩ => exact (lhs_rc_1 _ _).trans hk)
  have er : dot_S512x512_S512x256_S512x256_1_0_0_1_n_n.rhsIdx (ix2 i d) ((contrEquiv1 dot_S512x512_S512x256_S512x256_1_0_0_1_n_n 512 rfl rfl).symm k) = ix2 k d := funext fun a => Fin.ext (by
    match a with
    | ⟨0, _⟩ => exact (rhs_rc_0 _ _).trans hk
    | ⟨1, _⟩ => exact rhs_rc_1 _ _)
  rw [el, er]

/-! ### The left factor transposed: its rows are contracted -/

private theorem lhs_tc_0 (i : S512x256.Idx) (q : dot_S512x512_S512x256_S512x256_0_0_1_1_n_n.contr.Idx) :
    (dot_S512x512_S512x256_S512x256_0_0_1_1_n_n.lhsIdx i q 0).val = (q ⟨0, by decide⟩).val :=
  dot_S512x512_S512x256_S512x256_0_0_1_1_n_n.lhsIdx_val_of_single rfl i q
private theorem lhs_tc_1 (i : S512x256.Idx) (q : dot_S512x512_S512x256_S512x256_0_0_1_1_n_n.contr.Idx) :
    (dot_S512x512_S512x256_S512x256_0_0_1_1_n_n.lhsIdx i q 1).val = (i 0).val := by
  unfold DotDims.lhsIdx
  rw [dif_neg (show ¬(1 : Fin S512x512.rank) ∈ dot_S512x512_S512x256_S512x256_0_0_1_1_n_n.lhsBatch by decide), dif_pos (show (1 : Fin S512x512.rank) ∈ dot_S512x512_S512x256_S512x256_0_0_1_1_n_n.lhsNonContracting by decide)]
  rfl
private theorem rhs_tc_0 (i : S512x256.Idx) (q : dot_S512x512_S512x256_S512x256_0_0_1_1_n_n.contr.Idx) :
    (dot_S512x512_S512x256_S512x256_0_0_1_1_n_n.rhsIdx i q 0).val = (q ⟨0, by decide⟩).val :=
  dot_S512x512_S512x256_S512x256_0_0_1_1_n_n.rhsIdx_val_of_single rfl i q
private theorem rhs_tc_1 (i : S512x256.Idx) (q : dot_S512x512_S512x256_S512x256_0_0_1_1_n_n.contr.Idx) :
    (dot_S512x512_S512x256_S512x256_0_0_1_1_n_n.rhsIdx i q 1).val = (i 1).val := by
  unfold DotDims.rhsIdx
  rw [dif_neg (show ¬(1 : Fin S512x256.rank) ∈ dot_S512x512_S512x256_S512x256_0_0_1_1_n_n.rhsBatch by decide), dif_pos (show (1 : Fin S512x256.rank) ∈ dot_S512x512_S512x256_S512x256_0_0_1_1_n_n.rhsNonContracting by decide)]
  rfl

private theorem mulTC_apply (a : FVec Ideal S512x512 .bf16) (b : FVec Ideal S512x256 .bf16) (i : Fin 512) (d : Fin 256) :
    matmul dot_S512x512_S512x256_S512x256_0_0_1_1_n_n none a b (constant (F := Ideal) S512x256 .f32 0x00000000#32) (ix2 i d)
      = ∑ j : Fin 512, a (ix2 j i) * b (ix2 j d) := by
  simp only [matmul]
  rw [Ideal.matmul_constant_zero_apply, ← Equiv.sum_comp (contrEquiv1 dot_S512x512_S512x256_S512x256_0_0_1_1_n_n 512 rfl rfl).symm]
  refine Finset.sum_congr rfl fun k _ => ?_
  have hk := contrEquiv1_symm_val dot_S512x512_S512x256_S512x256_0_0_1_1_n_n 512 rfl rfl k
  have el : dot_S512x512_S512x256_S512x256_0_0_1_1_n_n.lhsIdx (ix2 i d) ((contrEquiv1 dot_S512x512_S512x256_S512x256_0_0_1_1_n_n 512 rfl rfl).symm k) = ix2 k i := funext fun a => Fin.ext (by
    match a with
    | ⟨0, _⟩ => exact (lhs_tc_0 _ _).trans hk
    | ⟨1, _⟩ => exact lhs_tc_1 _ _)
  have er : dot_S512x512_S512x256_S512x256_0_0_1_1_n_n.rhsIdx (ix2 i d) ((contrEquiv1 dot_S512x512_S512x256_S512x256_0_0_1_1_n_n 512 rfl rfl).symm k) = ix2 k d := funext fun a => Fin.ext (by
    match a with
    | ⟨0, _⟩ => exact (rhs_tc_0 _ _).trans hk
    | ⟨1, _⟩ => exact rhs_tc_1 _ _)
  rw [el, er]

/-! ### Both factors contracted over their columns (1024 × 256 by 256 × 256) -/

private theorem lhs_cc_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
private theorem lhs_cc_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
private theorem rhs_cc_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
private theorem rhs_cc_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

private theorem mulCC_apply (a : FVec Ideal S1024x256 .bf16) (b : FVec Ideal S256x256 .bf16) (m : Fin 1024) (d : Fin 256) :
    matmul dot_S1024x256_S256x256_S1024x256_1_1_0_0_n_n none a b (constant (F := Ideal) S1024x256 .f32 0x00000000#32) (ix2 m d)
      = ∑ e : Fin 256, a (ix2 m e) * b (ix2 d e) := by
  simp only [matmul]
  rw [Ideal.matmul_constant_zero_apply, ← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 m d) ((contrEquiv1 dot_S1024x256_S256x256_S1024x256_1_1_0_0_n_n 256 rfl rfl).symm k) = ix2 m k := funext fun a => Fin.ext (by
    match a with
    | ⟨0, _⟩ => exact lhs_cc_0 _ _
    | ⟨1, _⟩ => exact (lhs_cc_1 _ _).trans hk)
  have er : dot_S1024x256_S256x256_S1024x256_1_1_0_0_n_n.rhsIdx (ix2 m d) ((contrEquiv1 dot_S1024x256_S256x256_S1024x256_1_1_0_0_n_n 256 rfl rfl).symm k) = ix2 d k := funext fun a => Fin.ext (by
    match a with
    | ⟨0, _⟩ => exact rhs_cc_0 _ _
    | ⟨1, _⟩ => exact (rhs_cc_1 _ _).trans hk)
  rw [el, er]

/-! ## The layout steps: the halves of Y, and a vector spread along the rows -/

/-- The first 512 rows of Y. -/
private theorem topRows_apply (y : FVec Ideal S1024x256 .f32) (j : Fin 512) (d : Fin 256) :
    extractStridedSlice S512x256 ![0, 0] y slices_S1024x256_o0_0_S512x256 (ix2 j d) = y (ix2 (lo j) d) :=
  slice2_axis0_apply 0 y slices_S1024x256_o0_0_S512x256 j d (lo j) (Nat.zero_add _).symm

/-- The last 512 rows of Y. -/
private theorem bottomRows_apply (y : FVec Ideal S1024x256 .f32) (j : Fin 512) (d : Fin 256) :
    extractStridedSlice S512x256 ![512, 0] y slices_S1024x256_o512_0_S512x256 (ix2 j d) = y (ix2 (hi j) d) :=
  slice2_axis0_apply 512 y slices_S1024x256_o512_0_S512x256 j d (hi j) rfl

/-- A vector of 512 entries written as a column reads its entry at every row index. -/
private theorem column_apply (v : S512.Idx → EReal) (j : Fin 512) (u : Fin 1) :
    shapeCast S512x1 v shapeCasts_S512_S512x1 (ix2 j u) = v (ix1 j) :=
  shapeCast_apply v shapeCasts_S512_S512x1 _ _ (by
    have hu : u.val = 0 := by omega
    rw [Shape.rowMajor_val_one, Shape.rowMajor_val_two]
    show j.val = j.val * 1 + u.val
    rw [hu, Nat.mul_one, Nat.add_zero])

/-- A column spread over 256 columns reads the column's entry of the same row. -/
private theorem spread_apply (c : S512x1.Idx → EReal) (j : Fin 512) (d : Fin 256) :
    broadcastTo S512x256 c broadcasts_S512x1_S512x256 (ix2 j d) = c (ix2 j (0 : Fin 1)) := by
  refine broadcastTo_apply c broadcasts_S512x1_S512x256 (ix2 j d) (ix2 j (0 : Fin 1)) fun ax => ?_
  match ax with
  | ⟨0, _⟩ => rfl
  | ⟨1, _⟩ => rfl

/-- The bias row spread over the 1024 rows. -/
private theorem biasRows_apply (b : S1x256.Idx → EReal) (m : Fin 1024) (d : Fin 256) :
    broadcastTo S1024x256 b broadcasts_S1x256_S1024x256 (ix2 m d) = b (ix2 (0 : Fin 1) d) :=
  broadcastTo_1b_ab_apply b broadcasts_S1x256_S1024x256 m d

/-- A cast of a 512 × 256 array to its own shape changes nothing. -/
private theorem castSame_apply (v : S512x256.Idx → EReal) : shapeCast S512x256 v shapeCasts_S512x256_S512x256 = v :=
  shapeCast_self v shapeCasts_S512x256_S512x256

/-! ## The column sums as the kernel forms them -/

/-- A left column's sum as the kernel forms it: the top-left quadrant's column plus the top-right quadrant's row. -/
def colL (g00 g01 : Vec Ideal S512x512 .f32) (j : Fin 512) : EReal :=
  (∑ i : Fin 512, Ideal.sqrt (g00 (ix2 i j))) + (∑ i : Fin 512, Ideal.sqrt (g01 (ix2 j i)))

/-- A right column's sum: the top-right and bottom-right quadrants' columns. -/
def colR (g01 g11 : Vec Ideal S512x512 .f32) (j : Fin 512) : EReal :=
  (∑ i : Fin 512, Ideal.sqrt (g01 (ix2 i j))) + (∑ i : Fin 512, Ideal.sqrt (g11 (ix2 i j)))

/-! ## The rows of Y divided by the column sums -/

/-- The top rows of Y, each divided by its left column sum. -/
private theorem pay18_apply (g00 g01 : Vec Ideal S512x512 .f32) (y : Vec Ideal S1024x256 .f32) (j : Fin 512) (d : Fin 256) :
    k0_pay18 (F := Ideal) g00 g01 y (ix2 j d) = Ideal.div (y (ix2 (lo j) d)) (colL g00 g01 j) := by
  unfold k0_pay18 colL
  simp only [divf_apply]
  rw [topRows_apply, spread_apply, column_apply, addf_apply]
  exact congrArg (Ideal.div _) (congrArg₂ (· + ·) (sumRows_apply _ _ _ j) (sumCols_apply _ _ _ j))

/-- The bottom rows of Y, each divided by its right column sum. -/
private theorem pay19_apply (g01 g11 : Vec Ideal S512x512 .f32) (y : Vec Ideal S1024x256 .f32) (j : Fin 512) (d : Fin 256) :
    k0_pay19 (F := Ideal) g01 g11 y (ix2 j d) = Ideal.div (y (ix2 (hi j) d)) (colR g01 g11 j) := by
  unfold k0_pay19 colR
  simp only [divf_apply]
  rw [bottomRows_apply, spread_apply, column_apply, addf_apply]
  exact congrArg (Ideal.div _) (congrArg₂ (· + ·) (sumRows_apply _ _ _ j) (sumRows_apply _ _ _ j))

/-! ## The statements -/

/-- The top half of the mixed values. -/
theorem pay20_apply (g00 g01 g11 : Vec Ideal S512x512 .f32) (y : Vec Ideal S1024x256 .f32) (i : Fin 512) (d : Fin 256) :
    k0_pay20 (F := Ideal) g00 g01 g11 y (ix2 i d)
      = (∑ j : Fin 512, Ideal.sqrt (g00 (ix2 i j)) * Ideal.div (y (ix2 (lo j) d)) (colL g00 g01 j))
        + (∑ j : Fin 512, Ideal.sqrt (g01 (ix2 i j)) * Ideal.div (y (ix2 (hi j) d)) (colR g01 g11 j)) := by
  unfold k0_pay20
  rw [castSame_apply]
  simp only [truncf_apply, addf_apply]
  rw [mulRC_apply, mulRC_apply]
  simp only [truncf_apply, pay15_apply, pay16_apply, pay18_apply, pay19_apply]

/-- The bottom half of the mixed values (the top-right quadrant enters transposed). -/
theorem pay21_apply (g00 g01 g11 : Vec Ideal S512x512 .f32) (y : Vec Ideal S1024x256 .f32) (i : Fin 512) (d : Fin 256) :
    k0_pay21 (F := Ideal) g00 g01 g11 y (ix2 i d)
      = (∑ j : Fin 512, Ideal.sqrt (g01 (ix2 j i)) * Ideal.div (y (ix2 (lo j) d)) (colL g00 g01 j))
        + (∑ j : Fin 512, Ideal.sqrt (g11 (ix2 i j)) * Ideal.div (y (ix2 (hi j) d)) (colR g01 g11 j)) := by
  unfold k0_pay21
  simp only [truncf_apply, addf_apply]
  rw [mulTC_apply, mulRC_apply]
  simp only [truncf_apply, pay16_apply, pay17_apply, pay18_apply, pay19_apply]

theorem pay11_apply (v : FVec Ideal S512x256 .bf16) (i : S512x256.Idx) : k0_pay11 (F := Ideal) v i = v i := by
  unfold k0_pay11
  exact congrFun (shapeCast_self v shapeCasts_S512x256_S512x256) i

theorem pay12_apply (i : S1024x128.Idx) : k0_pay12 (F := Ideal) i = oneB := by
  unfold k0_pay12
  exact congrFun (shapeCast_self _ shapeCasts_S1024x128_S1024x128) i

/-- The scaled keys. -/
theorem pay13_apply (y : Vec Ideal S1024x256 .f32) (wk : Vec Ideal S256x256 .f32) (bk : Vec Ideal S1x256 .f32)
    (m : Fin 1024) (d : Fin 256) :
    k0_pay13 (F := Ideal) y wk bk (ix2 m d)
      = ((∑ e : Fin 256, y (ix2 m e) * wk (ix2 d e)) + bk (ix2 (0 : Fin 1) d)) * sixteenth := by
  unfold k0_pay13
  rw [shapeCast_self _ shapeCasts_S1024x256_S1024x256, shapeCast_self bk shapeCasts_S1x256_S1x256]
  simp only [truncf_apply, mulf_apply, addf_apply]
  rw [mulCC_apply, biasRows_apply]
  simp only [truncf_apply]
  rfl

end Cert.KernelIdeal.Pay

end
-- ==== Proof.ValueMix.lean ====
/-
  At the extended reals, what point 1 leaves in the other two scratch buffers: the scaled keys, and the mixed
  values (the root of the Gram matrix times Y with each row of Y divided by the matching column sum) with a
  column of ones beside them.
-/
import proofs.«111863_g52209622450808_cont_9to1_m_767_26_alg».proof.Proof.ValueGram
import proofs.«111863_g52209622450808_cont_9to1_m_767_26_alg».proof.Proof.PiecesMix
import proofs.«111863_g52209622450808_cont_9to1_m_767_26_alg».proof.Proof.PayMix

set_option maxRecDepth 16384

noncomputable section

namespace Cert.KernelIdeal.Body

open Cert.KernelIdeal Cert.KernelIdeal.Gen Cert.KernelIdeal.Blocks Cert.Spec
open Idealize.ShloMosaic Idealize.ShloMosaic.TcCoe Idealize.ShloMosaic.ValueIdx
open Idealize.SL Idealize.SL.Sem

variable (m : (ℓ : Loc nD τ sig) → Buf (Elt Ideal) ℓ)

/-! ## The buffers as the steps' found pieces -/

/-- The first step's three stores, as payloads of the first chunk. -/
private theorem first0 (c : Dev nD) : View.canon (firstAt m c).1 = k0_pay3 (leftHalf (blkZ m c p0)) :=
  pieceFirst0 (F := Ideal) c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) sc0 (Memref.isWhole_whole _) sc1 (Memref.isWhole_whole _) sc2 (Memref.isWhole_whole _) sc3 (Memref.isWhole_whole _) sc4 (Memref.isWhole_whole _)
    ((isFirst_iff p0).mpr rfl) (fun h => absurd ((isLater_iff p0).mp h) (by decide)) (fun h => absurd ((isLast_iff p0).mp h) (by decide)) (fun h => absurd ((isAttn_iff p0).mp h) (by decide))
    (iblk m c 0 p0) (iblk m c 1 p0) (iblk m c 2 p0) (iblk m c 3 p0) (iblk m c 4 p0) (iblk m c 5 p0) (iblk m c 6 p0)
private theorem first1 (c : Dev nD) : View.canon (firstAt m c).2.1 = k0_pay4 (leftHalf (blkZ m c p0)) (rightHalf (blkZ m c p0)) :=
  pieceFirst1 (F := Ideal) c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) sc0 (Memref.isWhole_whole _) sc1 (Memref.isWhole_whole _) sc2 (Memref.isWhole_whole _) sc3 (Memref.isWhole_whole _) sc4 (Memref.isWhole_whole _)
    ((isFirst_iff p0).mpr rfl) (fun h => absurd ((isLater_iff p0).mp h) (by decide)) (fun h => absurd ((isLast_iff p0).mp h) (by decide)) (fun h => absurd ((isAttn_iff p0).mp h) (by decide))
    (iblk m c 0 p0) (iblk m c 1 p0) (iblk m c 2 p0) (iblk m c 3 p0) (iblk m c 4 p0) (iblk m c 5 p0) (iblk m c 6 p0)
private theorem first2 (c : Dev nD) : View.canon (firstAt m c).2.2.1 = k0_pay5 (rightHalf (blkZ m c p0)) :=
  pieceFirst2 (F := Ideal) c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) sc0 (Memref.isWhole_whole _) sc1 (Memref.isWhole_whole _) sc2 (Memref.isWhole_whole _) sc3 (Memref.isWhole_whole _) sc4 (Memref.isWhole_whole _)
    ((isFirst_iff p0).mpr rfl) (fun h => absurd ((isLater_iff p0).mp h) (by decide)) (fun h => absurd ((isLast_iff p0).mp h) (by decide)) (fun h => absurd ((isAttn_iff p0).mp h) (by decide))
    (iblk m c 0 p0) (iblk m c 1 p0) (iblk m c 2 p0) (iblk m c 3 p0) (iblk m c 4 p0) (iblk m c 5 p0) (iblk m c 6 p0)

/-- The keys' one store, as the payload of Y, Wk and the bias row. -/
private theorem keysPiece (c : Dev nD) :
    View.canon (lastAt m c).2.2.2.2.1 = k0_pay13 (blkY m c p1) (blkWk m c p1) (blkBk m c p1) :=
  pieceLast4 (F := Ideal) c (grid0.coords p1) (ms0 p1) (hs0 p1) (ms1 p1) (hs1 p1) (ms2 p1) (hs2 p1) (ms3 p1) (hs3 p1) (ms4 p1) (hs4 p1) (ms5 p1) (hs5 p1) (ms6 p1) (hs6 p1) (ms7 p1) (hs7 p1) sc0 (Memref.isWhole_whole _) sc1 (Memref.isWhole_whole _) sc2 (Memref.isWhole_whole _) sc3 (Memref.isWhole_whole _) sc4 (Memref.isWhole_whole _)
    (fun h => absurd ((isFirst_iff p1).mp h) (by decide)) ((isLater_iff p1).mpr rfl) ((isLast_iff p1).mpr rfl) (fun h => absurd ((isAttn_iff p1).mp h) (by decide))
    (iblk m c 0 p1) (iblk m c 1 p1) (iblk m c 2 p1) (iblk m c 3 p1) (iblk m c 4 p1) (iblk m c 5 p1) (iblk m c 6 p1) (gram0 m c).1 (gram0 m c).2.1 (gram0 m c).2.2

/-! ## From the Gram quadrants to the mixed values

Over any three arrays whose entries are the three quadrants of ZᵀZ, and any array whose entries are Y's. -/

/-- A left column's sum as the kernel forms it is that column's sum of the root. -/
private theorem colL_eq (Z : Mat 4096 1024) (g00 g01 : Vec Ideal S512x512 .f32)
    (h00 : ∀ i j : Fin 512, g00 (ix2 i j) = gram Z (lo i) (lo j))
    (h01 : ∀ i j : Fin 512, g01 (ix2 i j) = gram Z (lo i) (hi j)) (j : Fin 512) :
    Pay.colL g00 g01 j = colSum Z (lo j) := by
  rw [colSum_lo]
  unfold Pay.colL root
  exact congrArg₂ (· + ·) (Finset.sum_congr rfl fun i _ => congrArg Ideal.sqrt (h00 i j))
    (Finset.sum_congr rfl fun i _ => congrArg Ideal.sqrt (h01 j i))

/-- A right column's sum likewise. -/
private theorem colR_eq (Z : Mat 4096 1024) (g01 g11 : Vec Ideal S512x512 .f32)
    (h01 : ∀ i j : Fin 512, g01 (ix2 i j) = gram Z (lo i) (hi j))
    (h11 : ∀ i j : Fin 512, g11 (ix2 i j) = gram Z (hi i) (hi j)) (j : Fin 512) :
    Pay.colR g01 g11 j = colSum Z (hi j) := by
  rw [colSum_hi]
  unfold Pay.colR root
  exact congrArg₂ (· + ·) (Finset.sum_congr rfl fun i _ => congrArg Ideal.sqrt (h01 i j))
    (Finset.sum_congr rfl fun i _ => congrArg Ideal.sqrt (h11 i j))

/-- The top half's payload is the top rows of the mixed values. -/
private theorem mixedTop_of (Z : Mat 4096 1024) (Y : Mat 1024 256) (g00 g01 g11 : Vec Ideal S512x512 .f32)
    (y : Vec Ideal S1024x256 .f32)
    (h00 : ∀ i j : Fin 512, g00 (ix2 i j) = gram Z (lo i) (lo j))
    (h01 : ∀ i j : Fin 512, g01 (ix2 i j) = gram Z (lo i) (hi j))
    (h11 : ∀ i j : Fin 512, g11 (ix2 i j) = gram Z (hi i) (hi j))
    (hy : ∀ (j : Fin 1024) (d : Fin 256), y (ix2 j d) = Y j d) (i : Fin 512) (d : Fin 256) :
    k0_pay20 (F := Ideal) g00 g01 g11 y (ix2 i d) = mixedK Y Z (lo i) d := by
  rw [Pay.pay20_apply, mixedK_lo]
  refine congrArg₂ (· + ·) (Finset.sum_congr rfl fun j _ => ?_) (Finset.sum_congr rfl fun j _ => ?_)
  · rw [h00, hy, colL_eq Z g00 g01 h00 h01]
    rfl
  · rw [h01, hy, colR_eq Z g01 g11 h01 h11]
    rfl

/-- The bottom half's payload is the bottom rows (the top-right quadrant enters transposed). -/
private theorem mixedBottom_of (Z : Mat 4096 1024) (Y : Mat 1024 256) (g00 g01 g11 : Vec Ideal S512x512 .f32)
    (y : Vec Ideal S1024x256 .f32)
    (h00 : ∀ i j : Fin 512, g00 (ix2 i j) = gram Z (lo i) (lo j))
    (h01 : ∀ i j : Fin 512, g01 (ix2 i j) = gram Z (lo i) (hi j))
    (h11 : ∀ i j : Fin 512, g11 (ix2 i j) = gram Z (hi i) (hi j))
    (hy : ∀ (j : Fin 1024) (d : Fin 256), y (ix2 j d) = Y j d) (i : Fin 512) (d : Fin 256) :
    k0_pay11 (F := Ideal) (k0_pay21 (F := Ideal) g00 g01 g11 y) (ix2 i d) = mixedK Y Z (hi i) d := by
  rw [Pay.pay11_apply, Pay.pay21_apply, mixedK_hi]
  refine congrArg₂ (· + ·) (Finset.sum_congr rfl fun j _ => ?_) (Finset.sum_congr rfl fun j _ => ?_)
  · rw [h01, hy, colL_eq Z g00 g01 h00 h01]
    rfl
  · rw [h11, hy, colR_eq Z g01 g11 h01 h11]
    rfl

/-! ## The Gram quadrants the second step computes with -/

/-- What the second step adds its chunk's contribution to is what the first step left. -/
private theorem full00_eq (c : Dev nD) : fullG00 (blkZ m c p1) (gram0 m c).1 = (prep m c).1 :=
  (congrArg (fun xs => k0_pay8 (leftHalf (blkZ m c p1)) xs) ((gram0_1 m c).trans (first0 m c))).trans (prep_g00 m c).symm
private theorem full01_eq (c : Dev nD) : fullG01 (blkZ m c p1) (gram0 m c).2.1 = (prep m c).2.1 :=
  (congrArg (fun xs => k0_pay9 (leftHalf (blkZ m c p1)) (rightHalf (blkZ m c p1)) xs) ((gram0_2 m c).trans (first1 m c))).trans (prep_g01 m c).symm
private theorem full11_eq (c : Dev nD) : fullG11 (blkZ m c p1) (gram0 m c).2.2 = (prep m c).2.2.1 :=
  (congrArg (fun xs => k0_pay10 (rightHalf (blkZ m c p1)) xs) ((gram0_3 m c).trans (first2 m c))).trans (prep_g11 m c).symm

/-- Their entries are the three quadrants of ZᵀZ. -/
private theorem full00_apply (c : Dev nD) (i j : Fin 512) :
    fullG00 (blkZ m c p1) (gram0 m c).1 (ix2 i j) = gram (mZ m c) (lo i) (lo j) :=
  (congrFun (full00_eq m c) (ix2 i j)).trans (gramTL m c i j)
private theorem full01_apply (c : Dev nD) (i j : Fin 512) :
    fullG01 (blkZ m c p1) (gram0 m c).2.1 (ix2 i j) = gram (mZ m c) (lo i) (hi j) :=
  (congrFun (full01_eq m c) (ix2 i j)).trans (gramTR m c i j)
private theorem full11_apply (c : Dev nD) (i j : Fin 512) :
    fullG11 (blkZ m c p1) (gram0 m c).2.2 (ix2 i j) = gram (mZ m c) (hi i) (hi j) :=
  (congrFun (full11_eq m c) (ix2 i j)).trans (gramBR m c i j)

/-- The block of Y the step reads is Y. -/
private theorem blkY_apply (c : Dev nD) (j : Fin 1024) (d : Fin 256) : blkY m c p1 (ix2 j d) = mY m c j d :=
  congrFun (blkY_eq m c p1) (ix2 j d)

/-! ## The mixed values' buffer at an entry -/

private theorem mixTopPiece (c : Dev nD) (r : Fin 512) (d : Fin 256) :
    View.canon (lastAt m c).2.2.2.1 (ix2 (lo r) (valCol d))
      = k0_pay20 (fullG00 (blkZ m c p1) (gram0 m c).1) (fullG01 (blkZ m c p1) (gram0 m c).2.1) (fullG11 (blkZ m c p1) (gram0 m c).2.2) (blkY m c p1) (ix2 r d) :=
  pieceMix_top (F := Ideal) c (grid0.coords p1) (ms0 p1) (hs0 p1) (ms1 p1) (hs1 p1) (ms2 p1) (hs2 p1) (ms3 p1) (hs3 p1) (ms4 p1) (hs4 p1) (ms5 p1) (hs5 p1) (ms6 p1) (hs6 p1) (ms7 p1) (hs7 p1) sc0 (Memref.isWhole_whole _) sc1 (Memref.isWhole_whole _) sc2 (Memref.isWhole_whole _) sc3 (Memref.isWhole_whole _) sc4 (Memref.isWhole_whole _)
    (fun h => absurd ((isFirst_iff p1).mp h) (by decide)) ((isLater_iff p1).mpr rfl) ((isLast_iff p1).mpr rfl) (fun h => absurd ((isAttn_iff p1).mp h) (by decide))
    (iblk m c 0 p1) (iblk m c 1 p1) (iblk m c 2 p1) (iblk m c 3 p1) (iblk m c 4 p1) (iblk m c 5 p1) (iblk m c 6 p1) (gram0 m c).1 (gram0 m c).2.1 (gram0 m c).2.2 r d

private theorem mixBottomPiece (c : Dev nD) (r : Fin 512) (d : Fin 256) :
    View.canon (lastAt m c).2.2.2.1 (ix2 (hi r) (valCol d))
      = k0_pay11 (k0_pay21 (fullG00 (blkZ m c p1) (gram0 m c).1) (fullG01 (blkZ m c p1) (gram0 m c).2.1) (fullG11 (blkZ m c p1) (gram0 m c).2.2) (blkY m c p1)) (ix2 r d) :=
  pieceMix_bottom (F := Ideal) c (grid0.coords p1) (ms0 p1) (hs0 p1) (ms1 p1) (hs1 p1) (ms2 p1) (hs2 p1) (ms3 p1) (hs3 p1) (ms4 p1) (hs4 p1) (ms5 p1) (hs5 p1) (ms6 p1) (hs6 p1) (ms7 p1) (hs7 p1) sc0 (Memref.isWhole_whole _) sc1 (Memref.isWhole_whole _) sc2 (Memref.isWhole_whole _) sc3 (Memref.isWhole_whole _) sc4 (Memref.isWhole_whole _)
    (fun h => absurd ((isFirst_iff p1).mp h) (by decide)) ((isLater_iff p1).mpr rfl) ((isLast_iff p1).mpr rfl) (fun h => absurd ((isAttn_iff p1).mp h) (by decide))
    (iblk m c 0 p1) (iblk m c 1 p1) (iblk m c 2 p1) (iblk m c 3 p1) (iblk m c 4 p1) (iblk m c 5 p1) (iblk m c 6 p1) (gram0 m c).1 (gram0 m c).2.1 (gram0 m c).2.2 r d

private theorem mixOnePiece (c : Dev nD) (r : Fin 1024) :
    View.canon (lastAt m c).2.2.2.1 (ix2 r oneCol) = k0_pay12 (F := Ideal) (ix2 r (0 : Fin 128)) :=
  pieceMix_one (F := Ideal) c (grid0.coords p1) (ms0 p1) (hs0 p1) (ms1 p1) (hs1 p1) (ms2 p1) (hs2 p1) (ms3 p1) (hs3 p1) (ms4 p1) (hs4 p1) (ms5 p1) (hs5 p1) (ms6 p1) (hs6 p1) (ms7 p1) (hs7 p1) sc0 (Memref.isWhole_whole _) sc1 (Memref.isWhole_whole _) sc2 (Memref.isWhole_whole _) sc3 (Memref.isWhole_whole _) sc4 (Memref.isWhole_whole _)
    (fun h => absurd ((isFirst_iff p1).mp h) (by decide)) ((isLater_iff p1).mpr rfl) ((isLast_iff p1).mpr rfl) (fun h => absurd ((isAttn_iff p1).mp h) (by decide))
    (iblk m c 0 p1) (iblk m c 1 p1) (iblk m c 2 p1) (iblk m c 3 p1) (iblk m c 4 p1) (iblk m c 5 p1) (iblk m c 6 p1) (gram0 m c).1 (gram0 m c).2.1 (gram0 m c).2.2 r

/-- A top row of the mixed values. -/
private theorem mixed_top (c : Dev nD) (i : Fin 512) (d : Fin 256) :
    (prep m c).2.2.2.1 (ix2 (lo i) (valCol d)) = mixedK (mY m c) (mZ m c) (lo i) d :=
  (congrFun (prep_4 m c) (ix2 (lo i) (valCol d))).trans ((mixTopPiece m c i d).trans
    (mixedTop_of (mZ m c) (mY m c) (fullG00 (blkZ m c p1) (gram0 m c).1) (fullG01 (blkZ m c p1) (gram0 m c).2.1) (fullG11 (blkZ m c p1) (gram0 m c).2.2) (blkY m c p1)
      (full00_apply m c) (full01_apply m c) (full11_apply m c) (blkY_apply m c) i d))

/-- A bottom row of the mixed values. -/
private theorem mixed_bottom (c : Dev nD) (i : Fin 512) (d : Fin 256) :
    (prep m c).2.2.2.1 (ix2 (hi i) (valCol d)) = mixedK (mY m c) (mZ m c) (hi i) d :=
  (congrFun (prep_4 m c) (ix2 (hi i) (valCol d))).trans ((mixBottomPiece m c i d).trans
    (mixedBottom_of (mZ m c) (mY m c) (fullG00 (blkZ m c p1) (gram0 m c).1) (fullG01 (blkZ m c p1) (gram0 m c).2.1) (fullG11 (blkZ m c p1) (gram0 m c).2.2) (blkY m c p1)
      (full00_apply m c) (full01_apply m c) (full11_apply m c) (blkY_apply m c) i d))

/-! ## The statements -/
/-- The scaled keys. -/
theorem keys_apply (c : Dev nD) (r : Fin 1024) (d : Fin 256) :
    (prep m c).2.2.2.2 (ix2 r d) = keyK (mY m c) (mWk m c) (vBk m c) r d := by
  refine (congrFun (prep_5 m c) (ix2 r d)).trans ((congrFun (keysPiece m c) (ix2 r d)).trans ?_)
  rw [Pay.pay13_apply, blkY_eq, blkWk_eq, blkBk_apply]
  rfl

/-- The mixed values. -/
theorem mixed_apply (c : Dev nD) (r : Fin 1024) (d : Fin 256) :
    (prep m c).2.2.2.1 (ix2 r (valCol d)) = mixedK (mY m c) (mZ m c) r d := by
  by_cases h : r.val < 512
  · have hr : r = lo ⟨r.val, h⟩ := Fin.ext rfl
    rw [hr]
    exact mixed_top m c _ d
  · have hr : r = hi ⟨r.val - 512, by have := r.isLt; omega⟩ :=
      Fin.ext (by show r.val = 512 + (r.val - 512); omega)
    rw [hr]
    exact mixed_bottom m c _ d

/-- The column of ones. -/
theorem ones_apply (c : Dev nD) (r : Fin 1024) : (prep m c).2.2.2.1 (ix2 r oneCol) = oneB :=
  (congrFun (prep_4 m c) (ix2 r oneCol)).trans ((mixOnePiece m c r).trans (Pay.pay12_apply _))

end Cert.KernelIdeal.Body

end
-- ==== Proof.PayAttn.lean ====
/-
  The attention step's payload read at an entry: the block's queries against the scaled keys, exponentiated,
  times the augmented mixed values; the value columns of that product times the reciprocal of its first ones column.
-/
import proofs.«111863_g52209622450808_cont_9to1_m_767_26_alg».proof.Proof.Mats
import proofs.«111863_g52209622450808_cont_9to1_m_767_26_alg».proof.Proof.Gen.KernelIdeal.Skeleton
import Idealize.ShloMosaic.PureOps.Ideal.Laws
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen Cert.Spec

/-- The logit of row r of the block against key m. -/
def blockLogit (x : Vec Ideal S2000x256 .f32) (wq : Vec Ideal S256x256 .f32) (bq : Vec Ideal S1x256 .f32)
    (k : Vec Ideal S1024x256 .bf16) (r : Fin 2000) (m : Fin 1024) : EReal :=
  ∑ d : Fin 256, ((∑ e : Fin 256, x (ix2 r e) * wq (ix2 d e)) + bq (ix2 (0 : Fin 1) d)) * k (ix2 m d)

/-! ## The three products at an entry

Each product contracts one axis; its sum over the contraction index is re-indexed by that axis's coordinate, and
the operands' indices are read coordinate by coordinate. -/

/-! ### The queries' projection: x · wqᵀ, both operands contracted over their second axis -/

private theorem lhs_q_0 (i : S2000x256.Idx) (q : dot_S2000x256_S256x256_S2000x256_1_1_0_0_n_n.contr.Idx) :
    (dot_S2000x256_S256x256_S2000x256_1_1_0_0_n_n.lhsIdx i q 0).val = (i 0).val := by
  unfold DotDims.lhsIdx
  rw [dif_neg (show ¬(0 : Fin S2000x256.rank) ∈ dot_S2000x256_S256x256_S2000x256_1_1_0_0_n_n.lhsBatch by decide), dif_pos (show (0 : Fin S2000x256.rank) ∈ dot_S2000x256_S256x256_S2000x256_1_1_0_0_n_n.lhsNonContracting by decide)]
  rfl
private theorem lhs_q_1 (i : S2000x256.Idx) (q : dot_S2000x256_S256x256_S2000x256_1_1_0_0_n_n.contr.Idx) :
    (dot_S2000x256_S256x256_S2000x256_1_1_0_0_n_n.lhsIdx i q 1).val = (q ⟨0, by decide⟩).val :=
  dot_S2000x256_S256x256_S2000x256_1_1_0_0_n_n.lhsIdx_val_of_single rfl i q
private theorem rhs_q_0 (i : S2000x256.Idx) (q : dot_S2000x256_S256x256_S2000x256_1_1_0_0_n_n.contr.Idx) :
    (dot_S2000x256_S256x256_S2000x256_1_1_0_0_n_n.rhsIdx i q 0).val = (i 1).val := by
  unfold DotDims.rhsIdx
  rw [dif_neg (show ¬(0 : Fin S256x256.rank) ∈ dot_S2000x256_S256x256_S2000x256_1_1_0_0_n_n.rhsBatch by decide), dif_pos (show (0 : Fin S256x256.rank) ∈ dot_S2000x256_S256x256_S2000x256_1_1_0_0_n_n.rhsNonContracting by decide)]
  rfl
private theorem rhs_q_1 (i : S2000x256.Idx) (q : dot_S2000x256_S256x256_S2000x256_1_1_0_0_n_n.contr.Idx) :
    (dot_S2000x256_S256x256_S2000x256_1_1_0_0_n_n.rhsIdx i q 1).val = (q ⟨0, by decide⟩).val :=
  dot_S2000x256_S256x256_S2000x256_1_1_0_0_n_n.rhsIdx_val_of_single rfl i q

private theorem mm_q_apply (a : FVec Ideal S2000x256 .bf16) (b : FVec Ideal S256x256 .bf16) (r : Fin 2000) (d : Fin 256) :
    matmul dot_S2000x256_S256x256_S2000x256_1_1_0_0_n_n none a b (constant (F := Ideal) S2000x256 .f32 0x00000000#32) (ix2 r d)
      = ∑ e : Fin 256, a (ix2 r e) * b (ix2 d e) := by
  simp only [matmul]
  rw [Ideal.matmul_constant_zero_apply, ← Equiv.sum_comp (contrEquiv1 dot_S2000x256_S256x256_S2000x256_1_1_0_0_n_n 256 rfl rfl).symm]
  refine Finset.sum_congr rfl fun e _ => ?_
  have he := contrEquiv1_symm_val dot_S2000x256_S256x256_S2000x256_1_1_0_0_n_n 256 rfl rfl e
  have el : dot_S2000x256_S256x256_S2000x256_1_1_0_0_n_n.lhsIdx (ix2 r d) ((contrEquiv1 dot_S2000x256_S256x256_S2000x256_1_1_0_0_n_n 256 rfl rfl).symm e) = ix2 r e := funext fun c => Fin.ext (by
    match c with
    | ⟨0, _⟩ => exact lhs_q_0 _ _
    | ⟨1, _⟩ => exact (lhs_q_1 _ _).trans he)
  have er : dot_S2000x256_S256x256_S2000x256_1_1_0_0_n_n.rhsIdx (ix2 r d) ((contrEquiv1 dot_S2000x256_S256x256_S2000x256_1_1_0_0_n_n 256 rfl rfl).symm e) = ix2 d e := funext fun c => Fin.ext (by
    match c with
    | ⟨0, _⟩ => exact rhs_q_0 _ _
    | ⟨1, _⟩ => exact (rhs_q_1 _ _).trans he)
  rw [el, er]

/-! ### The logits: q · kᵀ, both operands contracted over their second axis -/

private theorem lhs_s_0 (i : S2000x1024.Idx) (q : dot_S2000x256_S1024x256_S2000x1024_1_1_0_0_n_n.contr.Idx) :
    (dot_S2000x256_S1024x256_S2000x1024_1_1_0_0_n_n.lhsIdx i q 0).val = (i 0).val := by
  unfold DotDims.lhsIdx
  rw [dif_neg (show ¬(0 : Fin S2000x256.rank) ∈ dot_S2000x256_S1024x256_S2000x1024_1_1_0_0_n_n.lhsBatch by decide), dif_pos (show (0 : Fin S2000x256.rank) ∈ dot_S2000x256_S1024x256_S2000x1024_1_1_0_0_n_n.lhsNonContracting by decide)]
  rfl
private theorem lhs_s_1 (i : S2000x1024.Idx) (q : dot_S2000x256_S1024x256_S2000x1024_1_1_0_0_n_n.contr.Idx) :
    (dot_S2000x256_S1024x256_S2000x1024_1_1_0_0_n_n.lhsIdx i q 1).val = (q ⟨0, by decide⟩).val :=
  dot_S2000x256_S1024x256_S2000x1024_1_1_0_0_n_n.lhsIdx_val_of_single rfl i q
private theorem rhs_s_0 (i : S2000x1024.Idx) (q : dot_S2000x256_S1024x256_S2000x1024_1_1_0_0_n_n.contr.Idx) :
    (dot_S2000x256_S1024x256_S2000x1024_1_1_0_0_n_n.rhsIdx i q 0).val = (i 1).val := by
  unfold DotDims.rhsIdx
  rw [dif_neg (show ¬(0 : Fin S1024x256.rank) ∈ dot_S2000x256_S1024x256_S2000x1024_1_1_0_0_n_n.rhsBatch by decide), dif_pos (show (0 : Fin S1024x256.rank) ∈ dot_S2000x256_S1024x256_S2000x1024_1_1_0_0_n_n.rhsNonContracting by decide)]
  rfl
private theorem rhs_s_1 (i : S2000x1024.Idx) (q : dot_S2000x256_S1024x256_S2000x1024_1_1_0_0_n_n.contr.Idx) :
    (dot_S2000x256_S1024x256_S2000x1024_1_1_0_0_n_n.rhsIdx i q 1).val = (q ⟨0, by decide⟩).val :=
  dot_S2000x256_S1024x256_S2000x1024_1_1_0_0_n_n.rhsIdx_val_of_single rfl i q

private theorem mm_s_apply (a : FVec Ideal S2000x256 .bf16) (b : FVec Ideal S1024x256 .bf16) (r : Fin 2000) (m : Fin 1024) :
    matmul dot_S2000x256_S1024x256_S2000x1024_1_1_0_0_n_n none a b (constant (F := Ideal) S2000x1024 .f32 0x00000000#32) (ix2 r m)
      = ∑ d : Fin 256, a (ix2 r d) * b (ix2 m d) := by
  simp only [matmul]
  rw [Ideal.matmul_constant_zero_apply, ← Equiv.sum_comp (contrEquiv1 dot_S2000x256_S1024x256_S2000x1024_1_1_0_0_n_n 256 rfl rfl).symm]
  refine Finset.sum_congr rfl fun d _ => ?_
  have hd := contrEquiv1_symm_val dot_S2000x256_S1024x256_S2000x1024_1_1_0_0_n_n 256 rfl rfl d
  have el : dot_S2000x256_S1024x256_S2000x1024_1_1_0_0_n_n.lhsIdx (ix2 r m) ((contrEquiv1 dot_S2000x256_S1024x256_S2000x1024_1_1_0_0_n_n 256 rfl rfl).symm d) = ix2 r d := funext fun c => Fin.ext (by
    match c with
    | ⟨0, _⟩ => exact lhs_s_0 _ _
    | ⟨1, _⟩ => exact (lhs_s_1 _ _).trans hd)
  have er : dot_S2000x256_S1024x256_S2000x1024_1_1_0_0_n_n.rhsIdx (ix2 r m) ((contrEquiv1 dot_S2000x256_S1024x256_S2000x1024_1_1_0_0_n_n 256 rfl rfl).symm d) = ix2 m d := funext fun c => Fin.ext (by
    match c with
    | ⟨0, _⟩ => exact rhs_s_0 _ _
    | ⟨1, _⟩ => exact (rhs_s_1 _ _).trans hd)
  rw [el, er]

/-! ### The weights against the augmented mixed values: p · om, rows times columns -/

private theorem lhs_o_0 (i : S2000x384.Idx) (q : dot_S2000x1024_S1024x384_S2000x384_1_0_0_1_n_n.contr.Idx) :
    (dot_S2000x1024_S1024x384_S2000x384_1_0_0_1_n_n.lhsIdx i q 0).val = (i 0).val := by
  unfold DotDims.lhsIdx
  rw [dif_neg (show ¬(0 : Fin S2000x1024.rank) ∈ dot_S2000x1024_S1024x384_S2000x384_1_0_0_1_n_n.lhsBatch by decide), dif_pos (show (0 : Fin S2000x1024.rank) ∈ dot_S2000x1024_S1024x384_S2000x384_1_0_0_1_n_n.lhsNonContracting by decide)]
  rfl
private theorem lhs_o_1 (i : S2000x384.Idx) (q : dot_S2000x1024_S1024x384_S2000x384_1_0_0_1_n_n.contr.Idx) :
    (dot_S2000x1024_S1024x384_S2000x384_1_0_0_1_n_n.lhsIdx i q 1).val = (q ⟨0, by decide⟩).val :=
  dot_S2000x1024_S1024x384_S2000x384_1_0_0_1_n_n.lhsIdx_val_of_single rfl i q
private theorem rhs_o_0 (i : S2000x384.Idx) (q : dot_S2000x1024_S1024x384_S2000x384_1_0_0_1_n_n.contr.Idx) :
    (dot_S2000x1024_S1024x384_S2000x384_1_0_0_1_n_n.rhsIdx i q 0).val = (q ⟨0, by decide⟩).val :=
  dot_S2000x1024_S1024x384_S2000x384_1_0_0_1_n_n.rhsIdx_val_of_single rfl i q
private theorem rhs_o_1 (i : S2000x384.Idx) (q : dot_S2000x1024_S1024x384_S2000x384_1_0_0_1_n_n.contr.Idx) :
    (dot_S2000x1024_S1024x384_S2000x384_1_0_0_1_n_n.rhsIdx i q 1).val = (i 1).val := by
  unfold DotDims.rhsIdx
  rw [dif_neg (show ¬(1 : Fin S1024x384.rank) ∈ dot_S2000x1024_S1024x384_S2000x384_1_0_0_1_n_n.rhsBatch by decide), dif_pos (show (1 : Fin S1024x384.rank) ∈ dot_S2000x1024_S1024x384_S2000x384_1_0_0_1_n_n.rhsNonContracting by decide)]
  rfl

private theorem mm_o_apply (a : FVec Ideal S2000x1024 .bf16) (b : FVec Ideal S1024x384 .bf16) (r : Fin 2000) (c : Fin 384) :
    matmul dot_S2000x1024_S1024x384_S2000x384_1_0_0_1_n_n none a b (constant (F := Ideal) S2000x384 .f32 0x00000000#32) (ix2 r c)
      = ∑ m : Fin 1024, a (ix2 r m) * b (ix2 m c) := by
  simp only [matmul]
  rw [Ideal.matmul_constant_zero_apply, ← Equiv.sum_comp (contrEquiv1 dot_S2000x1024_S1024x384_S2000x384_1_0_0_1_n_n 1024 rfl rfl).symm]
  refine Finset.sum_congr rfl fun m _ => ?_
  have hm := contrEquiv1_symm_val dot_S2000x1024_S1024x384_S2000x384_1_0_0_1_n_n 1024 rfl rfl m
  have el : dot_S2000x1024_S1024x384_S2000x384_1_0_0_1_n_n.lhsIdx (ix2 r c) ((contrEquiv1 dot_S2000x1024_S1024x384_S2000x384_1_0_0_1_n_n 1024 rfl rfl).symm m) = ix2 r m := funext fun ax => Fin.ext (by
    match ax with
    | ⟨0, _⟩ => exact lhs_o_0 _ _
    | ⟨1, _⟩ => exact (lhs_o_1 _ _).trans hm)
  have er : dot_S2000x1024_S1024x384_S2000x384_1_0_0_1_n_n.rhsIdx (ix2 r c) ((contrEquiv1 dot_S2000x1024_S1024x384_S2000x384_1_0_0_1_n_n 1024 rfl rfl).symm m) = ix2 m c := funext fun ax => Fin.ext (by
    match ax with
    | ⟨0, _⟩ => exact (rhs_o_0 _ _).trans hm
    | ⟨1, _⟩ => exact rhs_o_1 _ _)
  rw [el, er]

/-! ## The layout operations at an entry -/

/-- A one-column array broadcast over many columns reads, at (p, c), the operand's row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first 256 columns of the 384: the value columns. -/
private theorem slice_val_apply (P : FVec Ideal S2000x384 .f32) (h : S2000x384.Slices ![0, 0] S2000x256) (r : Fin 2000) (d : Fin 256) :
    extractStridedSlice S2000x256 ![0, 0] P h (ix2 r d) = P (ix2 r (valCol d)) :=
  slice2_axis1_apply 0 P h r d (valCol d) (Nat.zero_add _).symm

/-- Column 256 of the 384: the first column of ones. -/
private theorem slice_one_apply (P : FVec Ideal S2000x384 .f32) (h : S2000x384.Slices ![0, 256] S2000x1) (r : Fin 2000) (c : Fin 1) :
    extractStridedSlice S2000x1 ![0, 256] P h (ix2 r c) = P (ix2 r oneCol) :=
  slice2_axis1_apply 256 P h r c oneCol (by have := c.isLt; show 256 = 256 + c.val; omega)

/-- The exponential of a vector, read at an index. -/
private theorem expv_apply {s : Shape} {φ : FTy} (v : FVec Ideal s φ) (i : s.Idx) : exp v i = Ideal.exp (v i) := rfl

theorem pay14_apply (x : Vec Ideal S2000x256 .f32) (wq : Vec Ideal S256x256 .f32) (bq : Vec Ideal S1x256 .f32)
    (k : Vec Ideal S1024x256 .bf16) (om : Vec Ideal S1024x384 .bf16) (r : Fin 2000) (d : Fin 256) :
    k0_pay14 (F := Ideal) x wq bq k om (ix2 r d)
      = (∑ m : Fin 1024, Ideal.exp (blockLogit x wq bq k r m) * om (ix2 m (valCol d)))
        * Ideal.div oneF (∑ m : Fin 1024, Ideal.exp (blockLogit x wq bq k r m) * om (ix2 m oneCol)) := by
  simp only [k0_pay14]
  rw [mulf_apply, slice_val_apply, broadcastTo_a1_ab_apply, divf_apply, broadcast_apply, slice_one_apply,
    mm_o_apply, mm_o_apply]
  simp only [truncf_apply, expv_apply, mm_s_apply, addf_apply, mm_q_apply, shapeCast_self, broadcastTo_1b_ab_apply]
  rfl

end Cert.KernelIdeal.Pay

end
-- ==== Proof.ValueAttn.lean ====
/-
  At the extended reals, what an attention point leaves in the output's staging buffer: the kernel's arrangement of
  the result on that point's 2000 rows.
-/
import proofs.«111863_g52209622450808_cont_9to1_m_767_26_alg».proof.Proof.ValueMix
import proofs.«111863_g52209622450808_cont_9to1_m_767_26_alg».proof.Proof.PayAttn

set_option maxRecDepth 16384

noncomputable section

namespace Cert.KernelIdeal.Body

open Cert.KernelIdeal Cert.KernelIdeal.Gen Cert.KernelIdeal.Blocks Cert.Spec
open Idealize.ShloMosaic Idealize.ShloMosaic.TcCoe Idealize.ShloMosaic.ValueIdx
open Idealize.SL Idealize.SL.Sem

variable (m : (ℓ : Loc nD τ sig) → Buf (Elt Ideal) ℓ)

/-- The logits of a block's rows against the scaled keys are the kernel's logits of those rows. -/
theorem blockLogit_eq (c : Dev nD) (t : Fin cfg0.N) (h : 2 ≤ t.val) (r : Fin 2000) (k : Fin 1024) :
    Pay.blockLogit (blkX m c t) (blkWq m c t) (blkBq m c t) (prep m c).2.2.2.2 r k
      = logitK (mX m c) (mWq m c) (vBq m c) (mY m c) (mWk m c) (vBk m c) (blockRow (rowBlock t h) r) k := by
  unfold Pay.blockLogit logitK proj
  refine Finset.sum_congr rfl fun d _ => ?_
  rw [keys_apply m c k d, blkBq_apply m c t d, blkWq_eq m c t]
  refine congrArg (· * _) (congrArg (· + _) (Finset.sum_congr rfl fun e _ => ?_))
  rw [blkX_attn m c t h r e]

/-- The block an attention point leaves. -/
theorem outAt_apply (c : Dev nD) (t : Fin cfg0.N) (h : 2 ≤ t.val) (r : Fin 2000) (d : Fin 256) :
    outAt m c t (ix2 r d)
      = outK (mX m c) (mY m c) (mZ m c) (mWq m c) (vBq m c) (mWk m c) (vBk m c) (blockRow (rowBlock t h) r) d := by
  unfold outAt
  rw [dif_pos h]
  refine (congrFun (pieceAttn (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _)
      (fun h' => by have := (isFirst_iff t).mp h'; omega) (fun h' => by have := (isLater_iff t).mp h'; omega) (fun h' => by have := (isLast_iff t).mp h'; omega) ((isAttn_iff t).mpr h)
      (iblk m c 0 t) (iblk m c 1 t) (iblk m c 2 t) (iblk m c 3 t) (iblk m c 4 t) (iblk m c 5 t) (iblk m c 6 t) (prep m c).1 (prep m c).2.1 (prep m c).2.2.1 (prep m c).2.2.2.1 (prep m c).2.2.2.2) (ix2 r d)).trans ?_
  rw [Pay.pay14_apply]
  unfold outK
  refine congrArg₂ (· * ·) (Finset.sum_congr rfl fun k _ => ?_)
    (congrArg (Ideal.div oneF) (Finset.sum_congr rfl fun k _ => ?_))
  · rw [blockLogit_eq m c t h r k, mixed_apply m c k d]
  · rw [blockLogit_eq m c t h r k, ones_apply m c k]

end Cert.KernelIdeal.Body

end
-- ==== Proof.KernelValue.lean ====
/-
  The result array the kernel leaves, at the extended reals: its five row blocks, each what one attention point
  left in the output's staging buffer, cover it, and every block is the kernel's arrangement of the result on its
  rows; so the whole array is.
-/
import proofs.«111863_g52209622450808_cont_9to1_m_767_26_alg».proof.Proof.ValueAttn

set_option maxRecDepth 16384

noncomputable section

namespace Cert.KernelIdeal.Body

open Cert.KernelIdeal Cert.KernelIdeal.Gen Cert.KernelIdeal.Blocks Cert.Spec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The kernel's arrangement of the result, as an array. -/
def resultK (c : Dev nD) : Vec Ideal S10000x256 .f32 :=
  fun i => outK (mX m c) (mY m c) (mZ m c) (mWq m c) (vBq m c) (mWk m c) (vBk m c) (i 0) (i 1)

/-- What an attention point writes back is its block of that array. -/
theorem flushed_eq (c : Dev nD) (t : Fin cfg0.N) (hf : (cfg0.win 7).flush t = true) :
    (dats m 0 c).flushed 7 t = ((cfg0.win 7).blk t).view.read (Elt Ideal) (resultK m c) := by
  have h : 2 ≤ t.val := (out_flush t).mp hf
  show (cfg0.win 7).cut (grid0.coords t) ((dats m 0 c).after 7 t) = _
  rw [after7]
  show (outAt m c t : Vec Ideal S2000x256 .f32) = (((cfg0.win 7).blk t).view.read (Elt Ideal) (resultK m c) : Vec Ideal S2000x256 .f32)
  funext y
  obtain ⟨r, d, rfl⟩ : ∃ (r : Fin 2000) (d : Fin 256), y = ix2 r d := ⟨y 0, y 1, eq_ix2 y⟩
  rw [outAt_apply m c t h r d]
  exact (outBlock_read c t h (resultK m c) r d).symm

/-- The result array after the run. -/
theorem result_eq (c : Dev nD) : (dats m 0 c).arrAt 7 cfg0.N = resultK m c :=
  (dats m 0 c).arrAt_eq_of_cover 7 (resultK m c) (fun t hf => flushed_eq m c t hf) (out_cover c)

/-- Every weakly fair execution of the idealized kernel terminates with the result array at the kernel's
    arrangement of the result and its seven argument arrays unchanged. -/
theorem run_value : θ_run defs (onTc (τ := τ) (main (F := Ideal))) ⟨m, fun _ => 0, ρ⟩ (fun r => ∀ c : Dev nD,
      r.2.mem ((c.tc : Thread nD τ).loc main_v2) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (result_eq m c),
      ((h c).1 4).trans (((dats m 0 c).arrAt_in 4 rfl _).trans ((A_eq m c 4).trans (V_main_arg0 m c))),
      ((h c).1 1).trans (((dats m 0 c).arrAt_in 1 rfl _).trans ((A_eq m c 1).trans (V_main_arg1 m c))),
      ((h c).1 0).trans (((dats m 0 c).arrAt_in 0 rfl _).trans ((A_eq m c 0).trans (V_main_arg2 m c))),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c),
      ((h c).1 2).trans (((dats m 0 c).arrAt_in 2 rfl _).trans ((A_eq m c 2).trans (V_main_arg5 m c))),
      ((h c).2 main_arg6 (Pipeline.mem_restRefs_of main_arg6 (by decide) (by decide))).trans (V_main_arg6 m c)⟩)
    (run_main m ρ)

end Cert.KernelIdeal.Body

end
-- ==== Proof.BodyRunsBits.lean ====
/-
  The kernel body's three runs, one for each way a grid point passes its four guards: the first chunk (point 0),
  the second chunk with the end of the preamble (point 1), and the attention step (points 2 to 6).  Each run is
  stated on any whole memrefs, for any values, with every buffer the step reads at given contents and every buffer
  it writes handed back with its stores written over what it held.
-/
import proofs.«111863_g52209622450808_cont_9to1_m_767_26_alg».proof.Proof.Gen.Kernel.Frame
import proofs.«111863_g52209622450808_cont_9to1_m_767_26_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which of the body's four guarded steps a grid point takes

The body is four guarded steps: the first chunk's Gram quadrants (point 0 only), a later chunk's contribution added
to them (point 1 only), the step that finishes the preamble (point 1 only), and the attention step (points 2 to 6). -/

/-- The first guard, from the grid coordinate. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second guard. -/
abbrev isLater (i : grid0.Coords) : Prop := (Scalar.cmpi .ne (Scalar.extui (Scalar.andi (Scalar.cmpi .sgt (BitVec.ofNat 32 (i 0).val) 0#32) (Scalar.cmpi .slt (BitVec.ofNat 32 (i 0).val) 2#32))) 0#32) = 1#1
theorem isLater_iff : ∀ t : Fin cfg0.N, isLater (grid0.coords t) ↔ t.val = 1 :=
  (by decide +kernel : ∀ t : Fin grid0.N, isLater (grid0.coords t) ↔ t.val = 1)

/-- The third guard. -/
abbrev isLast (i : grid0.Coords) : Prop := (Scalar.cmpi .ne (Scalar.extui (Scalar.cmpi .eq (BitVec.ofNat 32 (i 0).val) 1#32)) 0#32) = 1#1
theorem isLast_iff : ∀ t : Fin cfg0.N, isLast (grid0.coords t) ↔ t.val = 1 :=
  (by decide +kernel : ∀ t : Fin grid0.N, isLast (grid0.coords t) ↔ t.val = 1)

/-- The fourth guard. -/
abbrev isAttn (i : grid0.Coords) : Prop := k0_cond4 i = 1#1
theorem isAttn_iff : ∀ t : Fin cfg0.N, isAttn (grid0.coords t) ↔ 2 ≤ t.val :=
  (by decide +kernel : ∀ t : Fin grid0.N, isAttn (grid0.coords t) ↔ 2 ≤ t.val)

set_option maxHeartbeats 1000000 in
/-- The first chunk's step (point 0): whatever the scratch buffers hold, the body runs, leaves the inputs and the output's staging buffer as they
    were and the three Gram quadrants' buffers with their stores written (the pieces found). -/
noncomputable def runFirst (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : isFirst i) (hc1 : ¬isLater i) (hc2 : ¬isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) :
    Σ' (LS0 : List (View.Piece (Elt F) S512x512 .f32)), Σ' (LS1 : List (View.Piece (Elt F) S512x512 .f32)), { LS2 : List (View.Piece (Elt F) S512x512 .f32) //
      ∀ (x7 : Vec F S2000x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ d, owns (c : Thread nD τ) arg12 fullShare d) ∗ (∃ d, owns (c : Thread nD τ) arg13 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun x7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    isplitl [HS2]; · iexists _; iexact HS2
    isplitl [HS3]
    · iexists _, _; isplitr; swap; · iexact HS3
      ipureintro; rfl
    iexists _, _; isplitr; swap; · iexact HS4
    ipureintro; rfl

set_option maxHeartbeats 1000000 in
/-- The second chunk's step and the end of the preamble (point 1): with the three Gram quadrants' buffers at given
    contents the body runs and leaves all five scratch buffers with their stores written (the pieces found). -/
noncomputable def runLast (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) :
    Σ' (LS0 : List (View.Piece (Elt F) S512x512 .f32)), Σ' (LS1 : List (View.Piece (Elt F) S512x512 .f32)), Σ' (LS2 : List (View.Piece (Elt F) S512x512 .f32)), Σ' (LS3 : List (View.Piece (Elt F) S1024x384 .bf16)), { LS4 : List (View.Piece (Elt F) S1024x256 .bf16) //
      ∀ (x7 : Vec F S2000x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1 ∗ owns (c : Thread nD τ) arg11 fullShare xs2 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun x7 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    isplitl [HS2]; · iexists _; iexact HS2
    isplitl [HS3]; · iexists _; iexact HS3
    iexists _; iexact HS4

set_option maxHeartbeats 1000000 in
/-- The attention step (points 2 to 6): with the five scratch buffers at given contents the body runs, leaves them
    and the inputs as they were, and the output's staging buffer with its stores written (the pieces found). -/
noncomputable def runAttn (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : ¬isLater i) (hc2 : ¬isLast i) (hc3 : isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (xs3 : Vec F S1024x384 .bf16) (xs4 : Vec F S1024x256 .bf16) :
    { L7 : List (View.Piece (Elt F) S2000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    isplitl [HS3]
    · iexists _; isplitr; · ipureintro; exact harg12.read_unread _
      iexact HS3
    iexists _; isplitr; · ipureintro; exact harg13.read_unread _
    iexact HS4

end Cert.Kernel.Body

end
-- ==== Proof.BodyBits.lean ====
/-
  The proof data of the fused kernel's one pipeline and its body obligation.  Point 0 leaves the first chunk's
  Gram quadrants in three scratch buffers; point 1 adds the second chunk's, and from them and Y leaves the
  augmented mixed values and the scaled keys in the other two; points 2 to 6 each leave one block of the output
  in the output window's staging buffer, which the pipeline writes back.
-/
import proofs.«111863_g52209622450808_cont_9to1_m_767_26_alg».proof.Proof.BodyRunsBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each step cover the buffers they fill -/

/-- The first chunk's one store covers the top-left Gram buffer. -/
theorem coverFirst0 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : isFirst i) (hc1 : ¬isLater i) (hc2 : ¬isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (y : S512x512.Idx) :
    ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).1 S512x512.size (by sl_kernel_rfl) y

/-- The first chunk's one store covers the top-right Gram buffer. -/
theorem coverFirst1 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : isFirst i) (hc1 : ¬isLater i) (hc2 : ¬isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (y : S512x512.Idx) :
    ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.1 S512x512.size (by sl_kernel_rfl) y

/-- The first chunk's one store covers the bottom-right Gram buffer. -/
theorem coverFirst2 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : isFirst i) (hc1 : ¬isLater i) (hc2 : ¬isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (y : S512x512.Idx) :
    ∃ pc ∈ (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.1, y ∈ pc.1.set :=
  View.cover_of_tiledL (runFirst (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.1 S512x512.size (by sl_kernel_rfl) y

/-- The second chunk's one store covers the top-left Gram buffer. -/
theorem coverLast0 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (y : S512x512.Idx) :
    ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).1 S512x512.size (by sl_kernel_rfl) y

/-- The second chunk's one store covers the top-right Gram buffer. -/
theorem coverLast1 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (y : S512x512.Idx) :
    ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.1 S512x512.size (by sl_kernel_rfl) y

/-- The second chunk's one store covers the bottom-right Gram buffer. -/
theorem coverLast2 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (y : S512x512.Idx) :
    ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.1 S512x512.size (by sl_kernel_rfl) y

/-- The keys' one store covers their buffer. -/
theorem coverLast4 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (y : S1024x256.Idx) :
    ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.2.2.1, y ∈ pc.1.set :=
  View.cover_of_tiledL (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.2.2.1 S1024x256.size (by sl_kernel_rfl) y

/-- The attention step's one store covers the output's staging buffer. -/
theorem coverAttn (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : ¬isLater i) (hc2 : ¬isLast i) (hc3 : isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (xs3 : Vec F S1024x384 .bf16) (xs4 : Vec F S1024x256 .bf16) (y : S2000x256.Idx) :
    ∃ pc ∈ (runAttn (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 xs4).1, y ∈ pc.1.set :=
  View.cover_of_tiledL (runAttn (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 xs4).1 S2000x256.size (by sl_kernel_rfl) y

/-- The three stores into the augmented mixed values — the two halves of the value columns and the columns of
    ones — cover its buffer. -/
theorem coverLast3 (c : Dev nD) (i : grid0.Coords) (arg1 : Memref sig .tc .vmem S2048x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole) (hc0 : ¬isFirst i) (hc1 : isLater i) (hc2 : isLast i) (hc3 : ¬isAttn i)
    (x0 : Vec F S2048x1024 .f32) (x1 : Vec F S1024x256 .f32) (x2 : Vec F S256x256 .f32) (x3 : Vec F S1x256 .f32) (x4 : Vec F S2000x256 .f32) (x5 : Vec F S256x256 .f32) (x6 : Vec F S1x256 .f32) (xs0 : Vec F S512x512 .f32) (xs1 : Vec F S512x512 .f32) (xs2 : Vec F S512x512 .f32) (y : S1024x384.Idx) :
    ∃ pc ∈ (runLast (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2).2.2.2.1, y ∈ pc.1.set := by
  unfold runLast
  dsimp only
  have hy0 : (y 0).val < 1024 := (y 0).isLt
  have hy1 : (y 1).val < 384 := (y 1).isLt
  by_cases h1 : (y 1).val < 256
  · by_cases h0 : (y 0).val < 512
    · refine ⟨_, List.mem_cons_of_mem _ (List.mem_cons_of_mem _ (List.mem_singleton_self _)), ?_⟩
      rw [Rect.mem_set_unit]
      refine Fin.forall_fin_two.mpr ⟨⟨?_, ?_⟩, ⟨?_, ?_⟩⟩ <;>
        (simp only [Matrix.cons_val_zero, Matrix.cons_val_one, Matrix.head_cons]; omega)
    · refine ⟨_, List.mem_cons_of_mem _ List.mem_cons_self, ?_⟩
      rw [Rect.mem_set_unit]
      refine Fin.forall_fin_two.mpr ⟨⟨?_, ?_⟩, ⟨?_, ?_⟩⟩ <;>
        (simp only [Matrix.cons_val_zero, Matrix.cons_val_one, Matrix.head_cons]; omega)
  · refine ⟨_, List.mem_cons_self, ?_⟩
    rw [Rect.mem_set_unit]
    refine Fin.forall_fin_two.mpr ⟨⟨?_, ?_⟩, ⟨?_, ?_⟩⟩ <;>
      (simp only [Matrix.cons_val_zero, Matrix.cons_val_one, Matrix.head_cons]; omega)

variable (m : (ℓ : Loc nD τ sig) → Buf (Elt F) ℓ) (ρ : Dev nD → PrngReg)

/-! ## The memrefs the body is called with -/

/-- Each window's current staging memref at a point, as the pipeline passes it, and its wholeness. -/
abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2000x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2000x256 .f32 := win0_7.stage (cfg0.slots t 7)
abbrev hs7 (t : Fin cfg0.N) : (ms7 t).IsWhole := hstage0_7 ((cfg0.slots t 7).cast nbuf0_7)

/-- The five scratch buffers: the three Gram quadrants, the augmented mixed values, the scaled keys. -/
abbrev sc0 : Memref sig .tc .vmem S512x512 .f32 := Memref.whole cc0_scratch0
abbrev sc1 : Memref sig .tc .vmem S512x512 .f32 := Memref.whole cc0_scratch1
abbrev sc2 : Memref sig .tc .vmem S512x512 .f32 := Memref.whole cc0_scratch2
abbrev sc3 : Memref sig .tc .vmem S1024x384 .bf16 := Memref.whole cc0_scratch3
abbrev sc4 : Memref sig .tc .vmem S1024x256 .bf16 := Memref.whole cc0_scratch4

/-- The region's invariant with the scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-! ## The schedule of the output window and of the inputs -/

theorem N7 : cfg0.N = 7 := N_0

/-- The output is never fetched; -/
theorem out_fetch : ∀ t : Fin cfg0.N, (cfg0.win 7).fetch t = false := by decide +kernel
/-- it is written back exactly at the attention points; -/
theorem out_flush : ∀ t : Fin cfg0.N, (cfg0.win 7).flush t = true ↔ 2 ≤ t.val := by decide +kernel
/-- and the body stores nothing into it before them. -/
theorem out_idle : ∀ t : Fin cfg0.N, cfg0.idle 7 (grid0.coords t) = true ↔ t.val < 2 := by decide +kernel

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel

/-! ## The three steps at their grid points, on the blocks the region finds -/

/-- Points 0 and 1. -/
abbrev p0 : Fin cfg0.N := ⟨0, by rw [N7]; decide⟩
abbrev p1 : Fin cfg0.N := ⟨1, by rw [N7]; decide⟩

/-- The first chunk's step at point 0. -/
abbrev firstAt (c : Dev nD) :=
  runFirst (F := F) c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) sc0 (Memref.isWhole_whole _) sc1 (Memref.isWhole_whole _) sc2 (Memref.isWhole_whole _) sc3 (Memref.isWhole_whole _) sc4 (Memref.isWhole_whole _)
    ((isFirst_iff p0).mpr rfl) (fun h => absurd ((isLater_iff p0).mp h) (by decide)) (fun h => absurd ((isLast_iff p0).mp h) (by decide)) (fun h => absurd ((isAttn_iff p0).mp h) (by decide))
    (iblk m c 0 p0) (iblk m c 1 p0) (iblk m c 2 p0) (iblk m c 3 p0) (iblk m c 4 p0) (iblk m c 5 p0) (iblk m c 6 p0)

/-- What point 0 leaves in the three Gram buffers. -/
def gram0 (c : Dev nD) : Vec F S512x512 .f32 × Vec F S512x512 .f32 × Vec F S512x512 .f32 :=
  (View.canon (firstAt m c).1, View.canon (firstAt m c).2.1, View.canon (firstAt m c).2.2.1)

/-- The second chunk's step and the end of the preamble at point 1, over what point 0 left. -/
abbrev lastAt (c : Dev nD) :=
  runLast (F := F) c (grid0.coords p1) (ms0 p1) (hs0 p1) (ms1 p1) (hs1 p1) (ms2 p1) (hs2 p1) (ms3 p1) (hs3 p1) (ms4 p1) (hs4 p1) (ms5 p1) (hs5 p1) (ms6 p1) (hs6 p1) (ms7 p1) (hs7 p1) sc0 (Memref.isWhole_whole _) sc1 (Memref.isWhole_whole _) sc2 (Memref.isWhole_whole _) sc3 (Memref.isWhole_whole _) sc4 (Memref.isWhole_whole _)
    (fun h => absurd ((isFirst_iff p1).mp h) (by decide)) ((isLater_iff p1).mpr rfl) ((isLast_iff p1).mpr rfl) (fun h => absurd ((isAttn_iff p1).mp h) (by decide))
    (iblk m c 0 p1) (iblk m c 1 p1) (iblk m c 2 p1) (iblk m c 3 p1) (iblk m c 4 p1) (iblk m c 5 p1) (iblk m c 6 p1) (gram0 m c).1 (gram0 m c).2.1 (gram0 m c).2.2

/-- What point 1 leaves in the five scratch buffers: the Gram quadrants complete, the augmented mixed values, the keys. -/
def prep (c : Dev nD) : Vec F S512x512 .f32 × Vec F S512x512 .f32 × Vec F S512x512 .f32 × Vec F S1024x384 .bf16 × Vec F S1024x256 .bf16 :=
  (View.canon (lastAt m c).1, View.canon (lastAt m c).2.1, View.canon (lastAt m c).2.2.1, View.canon (lastAt m c).2.2.2.1, View.canon (lastAt m c).2.2.2.2.1)

/-- The attention step at a point from 2 on, over what point 1 left. -/
abbrev attnAt (c : Dev nD) (t : Fin cfg0.N) (h : 2 ≤ t.val) :=
  runAttn (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _)
    (fun h' => by have := (isFirst_iff t).mp h'; omega) (fun h' => by have := (isLater_iff t).mp h'; omega) (fun h' => by have := (isLast_iff t).mp h'; omega) ((isAttn_iff t).mpr h)
    (iblk m c 0 t) (iblk m c 1 t) (iblk m c 2 t) (iblk m c 3 t) (iblk m c 4 t) (iblk m c 5 t) (iblk m c 6 t) (prep m c).1 (prep m c).2.1 (prep m c).2.2.1 (prep m c).2.2.2.1 (prep m c).2.2.2.2

/-- What the output's staging buffer holds after the body at a point: from point 2 on the attention step's block;
    before that the body stores nothing there and nothing reads this value. -/
def outAt (c : Dev nD) (t : Fin cfg0.N) : Vec F S2000x256 .f32 :=
  if h : 2 ≤ t.val then View.canon (attnAt m c t h).1 else View.canon []

/-! ## The invariant between points -/

/-- Before point 0 the scratch buffers hold anything; before point 1 the Gram buffers hold the first chunk's
    quadrants; from then on all five hold what point 1 left. -/
def PhiS (c : Dev nD) (t : Fin (cfg0.N + 1)) : sProp 𝕄 :=
  if t.val = 0 then Pipeline.ΦA spec0 c
  else if t.val = 1 then
    iprop(iprop(owns (c : Thread nD τ) sc0 fullShare (gram0 m c).1 ∗ owns (c : Thread nD τ) sc1 fullShare (gram0 m c).2.1 ∗ owns (c : Thread nD τ) sc2 fullShare (gram0 m c).2.2 ∗ (∃ d, owns (c : Thread nD τ) sc3 fullShare d) ∗ (∃ d, owns (c : Thread nD τ) sc4 fullShare d)) ∗ (∃ r, prngReg c r))
  else
    iprop(iprop(owns (c : Thread nD τ) sc0 fullShare (prep m c).1 ∗ owns (c : Thread nD τ) sc1 fullShare (prep m c).2.1 ∗ owns (c : Thread nD τ) sc2 fullShare (prep m c).2.2.1 ∗ owns (c : Thread nD τ) sc3 fullShare (prep m c).2.2.2.1 ∗ owns (c : Thread nD τ) sc4 fullShare (prep m c).2.2.2.2) ∗ (∃ r, prngReg c r))

/-! ## The pipeline's proof data -/

/-- The arrays as the region finds them; after the body each input's buffer at its block and the output's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- The components of what points 0 and 1 leave, as the canons of the found pieces. -/
theorem gram0_1 (c : Dev nD) : (gram0 m c).1 = View.canon (firstAt m c).1 := by unfold gram0; rfl
theorem gram0_2 (c : Dev nD) : (gram0 m c).2.1 = View.canon (firstAt m c).2.1 := by unfold gram0; rfl
theorem gram0_3 (c : Dev nD) : (gram0 m c).2.2 = View.canon (firstAt m c).2.2.1 := by unfold gram0; rfl
theorem prep_1 (c : Dev nD) : (prep m c).1 = View.canon (lastAt m c).1 := by unfold prep; rfl
theorem prep_2 (c : Dev nD) : (prep m c).2.1 = View.canon (lastAt m c).2.1 := by unfold prep; rfl
theorem prep_3 (c : Dev nD) : (prep m c).2.2.1 = View.canon (lastAt m c).2.2.1 := by unfold prep; rfl
theorem prep_4 (c : Dev nD) : (prep m c).2.2.2.1 = View.canon (lastAt m c).2.2.2.1 := by unfold prep; rfl
theorem prep_5 (c : Dev nD) : (prep m c).2.2.2.2 = View.canon (lastAt m c).2.2.2.2.1 := by unfold prep; rfl

/-! ## The invariant at the three kinds of point -/

theorem PhiS_zero (c : Dev nD) (t : Fin (cfg0.N + 1)) (h : t.val = 0) : PhiS m c t = Pipeline.ΦA spec0 c := by
  unfold PhiS; rw [if_pos h]

theorem PhiS_one (c : Dev nD) (t : Fin (cfg0.N + 1)) (h : t.val = 1) :
    PhiS m c t = iprop(iprop(owns (c : Thread nD τ) sc0 fullShare (gram0 m c).1 ∗ owns (c : Thread nD τ) sc1 fullShare (gram0 m c).2.1 ∗ owns (c : Thread nD τ) sc2 fullShare (gram0 m c).2.2 ∗ (∃ d, owns (c : Thread nD τ) sc3 fullShare d) ∗ (∃ d, owns (c : Thread nD τ) sc4 fullShare d)) ∗ (∃ r, prngReg c r)) := by
  unfold PhiS; rw [if_neg (by omega), if_pos h]

theorem PhiS_ge (c : Dev nD) (t : Fin (cfg0.N + 1)) (h : 2 ≤ t.val) :
    PhiS m c t = iprop(iprop(owns (c : Thread nD τ) sc0 fullShare (prep m c).1 ∗ owns (c : Thread nD τ) sc1 fullShare (prep m c).2.1 ∗ owns (c : Thread nD τ) sc2 fullShare (prep m c).2.2.1 ∗ owns (c : Thread nD τ) sc3 fullShare (prep m c).2.2.2.1 ∗ owns (c : Thread nD τ) sc4 fullShare (prep m c).2.2.2.2) ∗ (∃ r, prngReg c r)) := by
  unfold PhiS; rw [if_neg (by omega), if_neg (by omega)]

/-! ## The body obligation, at a generic point -/

/-- What the body is called with at point `t`: the invariant, what the core owes, every window's current buffer
    at what it then holds; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point.  The inputs' buffers hold their blocks.  At point 0 the scratch buffers hold anything
    and the first chunk's step fills the three Gram buffers; at point 1 they hold that, and the second step fills
    all five; from point 2 on all five hold what point 1 left and the attention step fills the output's buffer.
    At points 0 and 1 the output's buffer is handed back as it was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  rw [show (dats m 0 c).leavesExact 3 t = owns (c : Thread nD τ) (ms3 t) fullShare ((dats m 0 c).after 3 t) from by
      unfold Dat.leavesExact; rw [live3 t], after3]
  rw [show (dats m 0 c).leavesExact 4 t = owns (c : Thread nD τ) (ms4 t) fullShare ((dats m 0 c).after 4 t) from by
      unfold Dat.leavesExact; rw [live4 t], after4]
  rw [show (dats m 0 c).leavesExact 5 t = owns (c : Thread nD τ) (ms5 t) fullShare ((dats m 0 c).after 5 t) from by
      unfold Dat.leavesExact; rw [live5 t], after5]
  rw [show (dats m 0 c).leavesExact 6 t = owns (c : Thread nD τ) (ms6 t) fullShare ((dats m 0 c).after 6 t) from by
      unfold Dat.leavesExact; rw [live6 t], after6]
  rw [show (dats m 0 c).Φ t.castSucc = PhiS m c t.castSucc from rfl, show (dats m 0 c).Φ t.succ = PhiS m c t.succ from rfl]
  have hN : t.val < 7 := lt_of_lt_of_eq t.isLt N7
  rcases (show t.val = 0 ∨ t.val = 1 ∨ 2 ≤ t.val by omega) with h | h | h
  · -- point 0
    obtain rfl : t = p0 := Fin.ext h
    rw [PhiS_zero m c _ rfl, PhiS_one m c _ rfl, PhiA_eq]
    rw [gram0_1, gram0_2, gram0_3]
    rw [Dat.leavesExact_idle _ 7 p0 ((out_idle p0).mpr (by decide)) (Bool.eq_false_iff.mpr fun hf => absurd ((out_flush p0).mp hf) (by decide))]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstAt m c).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%e0, HS0⟩, ⟨%e1, HS1⟩, ⟨%e2, HS2⟩, HS3, HS4⟩
    isplitl [HS0 HS1 HS2 HS3 HS4 Hg]
    · isplitl [HS0 HS1 HS2 HS3 HS4]
      · isplitl [HS0]
        · unfold owns; iexists _; isplitr
          swap; · iexact HS0
          ipureintro; exact View.read_writes_eq_canon _ _ _ (coverFirst0 c _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverFirst1 c _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_eq_canon _ _ _ (coverFirst2 c _ _ _ _ _ _ _ _ _ _ _ _ _ _ _ _ _ _ _ _ _ _ _ _ _ _ _ _ _ _ _ _ _ _ _ _ _ _)
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · -- point 1
    obtain rfl : t = p1 := Fin.ext h
    rw [PhiS_one m c _ rfl, PhiS_ge m c _ (by decide)]
    rw [prep_1, prep_2, prep_3, prep_4, prep_5]
    rw [Dat.leavesExact_idle _ 7 p1 ((out_idle p1).mpr (by decide)) (Bool.eq_false_iff.mpr fun hf => absurd ((out_flush p1).mp hf) (by decide))]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((lastAt m c).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%e0, HS0⟩, ⟨%e1, HS1⟩, ⟨%e2, HS2⟩, ⟨%e3, HS3⟩, ⟨%e4, HS4⟩⟩
    isplitl [HS0 HS1 HS2 HS3 HS4 Hg]
    · isplitl [HS0 HS1 HS2 HS3 HS4]
      · isplitl [HS0]
        · unfold owns; iexists _; isplitr
          swap; · iexact HS0
          ipureintro; exact View.read_writes_eq_canon _ _ _ (coverLast0 c _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (coverLast1 c _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_eq_canon _ _ _ (coverLast2 c _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_eq_canon _ _ _ (coverLast3 c _ _ _ _ _ _ _ _ _ _ _ _ _ _ _ _ _ _ _ _ _ _ _ _ _ _ _ _ _ _ _ _ _ _ _ _ _ _ _ _ _)
        unfold owns; iexists _; isplitr
        swap; · iexact HS4
        ipureintro; exact View.read_writes_eq_canon _ _ _ (coverLast4 c _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · -- an attention point
    rw [PhiS_ge m c t.castSucc (by rw [Fin.coe_castSucc]; exact h), PhiS_ge m c t.succ (by rw [Fin.val_succ]; omega)]
    rw [show (dats m 0 c).leavesExact 7 t = owns (c : Thread nD τ) (ms7 t) fullShare ((dats m 0 c).after 7 t) from by
      unfold Dat.leavesExact
      rw [show cfg0.idle 7 (grid0.coords t) = false from Bool.eq_false_iff.mpr fun hi => by have := (out_idle t).mp hi; omega]]
    rw [after7, show outAt m c t = View.canon (attnAt m c t h).1 from by unfold outAt; rw [dif_pos h]]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((attnAt m c t h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, ⟨%e7, H7⟩, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_eq_canon _ _ _ (coverAttn c _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before point 0. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the class's back: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N) from rfl,
    PhiS_ge m c _ (by rw [Fin.val_last]; have : cfg0.N = 7 := N7; omega), PhiA_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-! ## The run -/

set_option backward.isDefEq.respectTransparency.types false in
/-- Every weakly fair execution of @main terminates, and every final state has each array of the pipeline at what
    the library computes from the proof data — the inputs as launched, the result array overwritten block by block
    by what the attention points left — and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.Words.lean ====
/-
  The float words this certificate's programs spell, as the extended reals they denote: 16 and 1/16 (the scale
  of the logits), 1 in single precision and in half width, the two infinities and zero.
-/
import proofs.«111863_g52209622450808_cont_9to1_m_767_26_alg».proof.Proof.Spec

noncomputable section

namespace Cert.Spec

open Idealize.ShloMosaic

/-- The word 0x41800000 denotes the real 16. -/
theorem sixteen_eq : sixteen = ((16 : ℝ) : EReal) := by
  simp [sixteen, Ideal.ofBits, Ideal.ieee, -EReal.coe_mul]; norm_num

/-- The word 0x3D800000 denotes the real 1/16. -/
theorem sixteenth_eq : sixteenth = ((1 / 16 : ℝ) : EReal) := by
  simp [sixteenth, Ideal.ofBits, Ideal.ieee, -EReal.coe_mul]; norm_num

/-- The single-precision word 0x3F800000 denotes 1. -/
theorem oneF_eq : oneF = 1 := by
  simp [oneF, Ideal.ofBits, Ideal.ieee, -EReal.coe_mul]; norm_num

/-- The half-width word 0x3F80 denotes 1. -/
theorem oneB_eq : oneB = 1 := by
  simp [oneB, Ideal.ofBits, Ideal.ieee, -EReal.coe_mul]; norm_num

/-- The word for +∞: sign clear, exponent all ones, significand zero. -/
theorem posInf_eq : Ideal.ofBits .f32 0x7F800000#32 = (⊤ : EReal) := by
  simp [Ideal.ofBits, Ideal.ieee]

/-- The word for −∞: sign set, exponent all ones, significand zero. -/
theorem negInf_eq : Ideal.ofBits .f32 0xFF800000#32 = (⊥ : EReal) := by
  simp [Ideal.ofBits, Ideal.ieee]

/-- The word for +0: every bit clear. -/
theorem zero_eq : Ideal.ofBits .f32 0x00000000#32 = (0 : EReal) := by
  simp [Ideal.ofBits, Ideal.ieee]

end Cert.Spec

end
-- ==== Proof.RefValue.lean ====
/-
  The reference's result, read at an entry, is the reference's arrangement of the specification.
-/
import proofs.«111863_g52209622450808_cont_9to1_m_767_26_alg».proof.Proof.Mats
import proofs.«111863_g52209622450808_cont_9to1_m_767_26_alg».proof.Proof.Words
import proofs.«111863_g52209622450808_cont_9to1_m_767_26_alg».proof.Proof.Gen.ReferenceIdeal.Read

noncomputable section

namespace Cert.ReferenceIdeal.RefValue

open Idealize.ShloMosaic Idealize.ShloMosaic.ValueIdx Cert.ReferenceIdeal Cert.ReferenceIdeal.Gen Cert.Spec

open Cert.ReferenceIdeal.Read

/-! ## The projections -/

/-- The queries' projection: X Wqᵀ + bq, entry (n, d). -/
private theorem projQ_apply (x0 : Vec Ideal S10000x256 .f32) (x3 : Vec Ideal S256x256 .f32) (x4 : Vec Ideal S256 .f32)
    (n : Fin 10000) (d : Fin 256) :
    val_main_v4 (F := Ideal) x0 x3 x4 (ix2 n d) = proj (mat x0) (mat x3) (vec x4) n d := by
  rw [val_main_v4_apply, val_main_v1_apply, val_main_v3_apply, val_main_v2_apply, Ideal.addf_def]
  unfold proj
  refine congrArg₂ (· + ·) (Finset.sum_congr rfl fun k _ => ?_) ?_
  · rw [val_main_v0_apply]
    refine congrArg₂ (· * ·) (congrArg x0 ?_) (congrArg x3 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x4 (funext fun a => Fin.ext (by match a with | ⟨0, _⟩ => rfl))

/-- The keys' projection: Y Wkᵀ + bk, entry (m, d). -/
private theorem projK_apply (x1 : Vec Ideal S1024x256 .f32) (x5 : Vec Ideal S256x256 .f32) (x6 : Vec Ideal S256 .f32)
    (m : Fin 1024) (d : Fin 256) :
    val_main_v9 (F := Ideal) x1 x5 x6 (ix2 m d) = proj (mat x1) (mat x5) (vec x6) m d := by
  rw [val_main_v9_apply, val_main_v6_apply, val_main_v8_apply, val_main_v7_apply, Ideal.addf_def]
  unfold proj
  refine congrArg₂ (· + ·) (Finset.sum_congr rfl fun k _ => ?_) ?_
  · rw [val_main_v5_apply]
    refine congrArg₂ (· * ·) (congrArg x1 ?_) (congrArg x5 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x6 (funext fun a => Fin.ext (by match a with | ⟨0, _⟩ => rfl))

/-! ## The logits -/

/-- The logits: the projections' inner products, divided by the word for 16. -/
private theorem logit_apply (x0 : Vec Ideal S10000x256 .f32) (x1 : Vec Ideal S1024x256 .f32) (x3 : Vec Ideal S256x256 .f32)
    (x4 : Vec Ideal S256 .f32) (x5 : Vec Ideal S256x256 .f32) (x6 : Vec Ideal S256 .f32) (n : Fin 10000) (m : Fin 1024) :
    val_main_v13 (F := Ideal) x0 x1 x3 x4 x5 x6 (ix2 n m)
      = logitR (mat x0) (mat x3) (vec x4) (mat x1) (mat x5) (vec x6) n m := by
  rw [val_main_v13_apply, val_main_v11_apply, val_main_v12_apply, val_main_cst_apply, Ideal.hostDivf_def, Ideal.ofBits_def]
  unfold logitR sixteen
  refine congrArg (fun s => Ideal.div s _) (Finset.sum_congr rfl fun k _ => ?_)
  rw [val_main_v10_apply, ← projQ_apply, ← projK_apply]
  refine congrArg₂ (· * ·) (congrArg (val_main_v4 (F := Ideal) x0 x3 x4) ?_) (congrArg (val_main_v9 (F := Ideal) x1 x5 x6) ?_)
  · exact funext fun a => Fin.ext (by match a with | ⟨0, _⟩ => rfl | ⟨1, _⟩ => rfl)
  · exact funext fun a => Fin.ext (by match a with | ⟨0, _⟩ => rfl | ⟨1, _⟩ => rfl)

/-! ## The row maximum -/

/-- Row n with column k put back on the dropped axis is the entry (n, k). -/
private theorem lift_row (h : S10000x1024.Reduces [1] S10000) (n : Fin 10000) (k : Fin (S10000x1024.size 1)) :
    h.lift (ix1 n) k = ix2 n (⟨k.val, k.isLt⟩ : Fin 1024) := by
  funext c; apply Fin.ext
  match c with
  | ⟨0, _⟩ => rfl
  | ⟨1, _⟩ => rfl

/-- The reduce with a maximum body from −∞ over the columns is the fold of max from ⊥ over the row's logits; the further
    maximum with −∞ changes nothing. -/
private theorem rowMax_apply (x0 : Vec Ideal S10000x256 .f32) (x1 : Vec Ideal S1024x256 .f32) (x3 : Vec Ideal S256x256 .f32)
    (x4 : Vec Ideal S256 .f32) (x5 : Vec Ideal S256x256 .f32) (x6 : Vec Ideal S256 .f32) (n : Fin 10000) :
    val_main_v16 (F := Ideal) x0 x1 x3 x4 x5 x6 (ix1 n) = rowMaxR (mat x0) (mat x3) (vec x4) (mat x1) (mat x5) (vec x6) n := by
  have h : S10000x1024.Reduces [1] S10000 := by decide
  rw [val_main_v16_apply, val_main_v15_apply, val_main_cst_1_apply, Ideal.maximumf_def, Ideal.ofBits_def, negInf_eq,
    max_eq_right bot_le]
  unfold val_main_v14
  rw [Host.reduce_eq_fold_single FloatOps.maximumf _ _ reducesTo_S10000x1024_S10000_d1 h h_S_, val_main_cst_0_apply,
    Ideal.ofBits_def, negInf_eq]
  unfold rowMaxR
  have hf : (val_main_v13 (F := Ideal) x0 x1 x3 x4 x5 x6 ∘ h.lift (ix1 n))
      = fun m : Fin 1024 => logitR (mat x0) (mat x3) (vec x4) (mat x1) (mat x5) (vec x6) n m :=
    funext fun k => by
      show val_main_v13 (F := Ideal) x0 x1 x3 x4 x5 x6 (h.lift (ix1 n) k) = _
      rw [lift_row h n k]
      exact logit_apply x0 x1 x3 x4 x5 x6 n _
  exact congrArg (fun f => Finset.fold max (⊥ : EReal) f (Finset.univ : Finset (Fin 1024))) hf

/-! ## The softmax -/

/-- The shifted exponentials. -/
private theorem exp_apply (x0 : Vec Ideal S10000x256 .f32) (x1 : Vec Ideal S1024x256 .f32) (x3 : Vec Ideal S256x256 .f32)
    (x4 : Vec Ideal S256 .f32) (x5 : Vec Ideal S256x256 .f32) (x6 : Vec Ideal S256 .f32) (n : Fin 10000) (m : Fin 1024) :
    val_main_v20 (F := Ideal) x0 x1 x3 x4 x5 x6 (ix2 n m) = expR (mat x0) (mat x3) (vec x4) (mat x1) (mat x5) (vec x6) n m := by
  have e : idx_main_v17 (idx_main_v18 (ix2 n m : S10000x1024.Idx)) = ix1 n := funext fun a => Fin.ext (by match a with | ⟨0, _⟩ => rfl)
  rw [val_main_v20_apply, val_main_v19_apply, val_main_v18_apply, val_main_v17_apply, Ideal.hostUnary_exp_def, Ideal.subf_def,
    logit_apply, e, rowMax_apply]
  rfl

/-- The exponentials' row sums. -/
private theorem expSum_apply (x0 : Vec Ideal S10000x256 .f32) (x1 : Vec Ideal S1024x256 .f32) (x3 : Vec Ideal S256x256 .f32)
    (x4 : Vec Ideal S256 .f32) (x5 : Vec Ideal S256x256 .f32) (x6 : Vec Ideal S256 .f32) (n : Fin 10000) :
    val_main_v21 (F := Ideal) x0 x1 x3 x4 x5 x6 (ix1 n) = ∑ m' : Fin 1024, expR (mat x0) (mat x3) (vec x4) (mat x1) (mat x5) (vec x6) n m' := by
  rw [val_main_v21_apply, val_main_cst_2_apply, Ideal.ofBits_def, Ideal.ofBits_zero_f32, zero_add]
  refine Finset.sum_congr rfl fun k _ => ?_
  rw [← exp_apply]
  exact congrArg (val_main_v20 (F := Ideal) x0 x1 x3 x4 x5 x6) (funext fun a => Fin.ext (by match a with | ⟨0, _⟩ => rfl | ⟨1, _⟩ => rfl))

/-- The softmax weights. -/
private theorem soft_apply (x0 : Vec Ideal S10000x256 .f32) (x1 : Vec Ideal S1024x256 .f32) (x3 : Vec Ideal S256x256 .f32)
    (x4 : Vec Ideal S256 .f32) (x5 : Vec Ideal S256x256 .f32) (x6 : Vec Ideal S256 .f32) (n : Fin 10000) (m : Fin 1024) :
    val_main_v24 (F := Ideal) x0 x1 x3 x4 x5 x6 (ix2 n m) = softR (mat x0) (mat x3) (vec x4) (mat x1) (mat x5) (vec x6) n m := by
  have e : idx_main_v22 (idx_main_v23 (ix2 n m : S10000x1024.Idx)) = ix1 n := funext fun a => Fin.ext (by match a with | ⟨0, _⟩ => rfl)
  rw [val_main_v24_apply, val_main_v23_apply, val_main_v22_apply, Ideal.hostDivf_def, exp_apply, e, expSum_apply]
  rfl

/-! ## The mixed values -/

/-- The Gram matrix ZᵀZ. -/
private theorem gram_apply (x2 : Vec Ideal S4096x1024 .f32) (i j : Fin 1024) :
    val_main_v26 (F := Ideal) x2 (ix2 i j) = gram (mat x2) i j := by
  rw [val_main_v26_apply]
  unfold gram
  refine Finset.sum_congr rfl fun k _ => ?_
  rw [val_main_v25_apply]
  refine congrArg₂ (· * ·) (congrArg x2 ?_) (congrArg x2 ?_)
  · exact funext fun a => Fin.ext (by match a with | ⟨0, _⟩ => rfl | ⟨1, _⟩ => rfl)
  · exact funext fun a => Fin.ext (by match a with | ⟨0, _⟩ => rfl | ⟨1, _⟩ => rfl)

/-- Its entrywise square root. -/
private theorem root_apply (x2 : Vec Ideal S4096x1024 .f32) (i j : Fin 1024) :
    val_main_v27 (F := Ideal) x2 (ix2 i j) = root (mat x2) i j := by
  rw [val_main_v27_apply, Ideal.hostUnary_sqrt_def, gram_apply]
  rfl

/-- The column sums of the root. -/
private theorem colSum_apply (x2 : Vec Ideal S4096x1024 .f32) (j : Fin 1024) :
    val_main_v28 (F := Ideal) x2 (ix1 j) = colSum (mat x2) j := by
  rw [val_main_v28_apply, val_main_cst_3_apply, Ideal.ofBits_def, Ideal.ofBits_zero_f32, zero_add]
  unfold colSum
  refine Finset.sum_congr rfl fun k _ => ?_
  rw [← root_apply]
  exact congrArg (val_main_v27 (F := Ideal) x2) (funext fun a => Fin.ext (by match a with | ⟨0, _⟩ => rfl | ⟨1, _⟩ => rfl))

/-- The root with each column divided by its sum. -/
private theorem scaled_apply (x2 : Vec Ideal S4096x1024 .f32) (i j : Fin 1024) :
    val_main_v31 (F := Ideal) x2 (ix2 i j) = Ideal.div (root (mat x2) i j) (colSum (mat x2) j) := by
  have e : idx_main_v29 (idx_main_v30 (ix2 i j : S1024x1024.Idx)) = ix1 j := funext fun a => Fin.ext (by match a with | ⟨0, _⟩ => rfl)
  rw [val_main_v31_apply, val_main_v30_apply, val_main_v29_apply, Ideal.hostDivf_def, root_apply, e, colSum_apply]

/-- The mixed values: the scaled root times Y. -/
private theorem mixed_apply (x1 : Vec Ideal S1024x256 .f32) (x2 : Vec Ideal S4096x1024 .f32) (m : Fin 1024) (d : Fin 256) :
    val_main_v32 (F := Ideal) x1 x2 (ix2 m d) = mixedR (mat x1) (mat x2) m d := by
  rw [val_main_v32_apply]
  unfold mixedR
  refine Finset.sum_congr rfl fun k _ => ?_
  rw [← scaled_apply]
  refine congrArg₂ (· * ·) (congrArg (val_main_v31 (F := Ideal) x2) ?_) (congrArg x1 ?_)
  · exact funext fun a => Fin.ext (by match a with | ⟨0, _⟩ => rfl | ⟨1, _⟩ => rfl)
  · exact funext fun a => Fin.ext (by match a with | ⟨0, _⟩ => rfl | ⟨1, _⟩ => rfl)

/-! ## The result -/

theorem result_apply (x0 : Vec Ideal S10000x256 .f32) (x1 : Vec Ideal S1024x256 .f32) (x2 : Vec Ideal S4096x1024 .f32)
    (x3 : Vec Ideal S256x256 .f32) (x4 : Vec Ideal S256 .f32) (x5 : Vec Ideal S256x256 .f32) (x6 : Vec Ideal S256 .f32)
    (n : Fin 10000) (d : Fin 256) :
    Cert.ReferenceIdeal.Read.val_main_v33 (F := Ideal) x0 x1 x2 x3 x4 x5 x6 (ix2 n d)
      = outR (mat x0) (mat x1) (mat x2) (mat x3) (vec x4) (mat x5) (vec x6) n d := by
  rw [val_main_v33_apply]
  unfold outR
  refine Finset.sum_congr rfl fun k _ => ?_
  rw [← soft_apply, ← mixed_apply]
  refine congrArg₂ (· * ·) (congrArg (val_main_v24 (F := Ideal) x0 x1 x3 x4 x5 x6) ?_)
    (congrArg (val_main_v32 (F := Ideal) x1 x2) ?_)
  · exact funext fun a => Fin.ext (by match a with | ⟨0, _⟩ => rfl | ⟨1, _⟩ => rfl)
  · exact funext fun a => Fin.ext (by match a with | ⟨0, _⟩ => rfl | ⟨1, _⟩ => rfl)

end Cert.ReferenceIdeal.RefValue

end
-- ==== Proof.Bridge.lean ====
/-
  The two arrangements agree: where no column sum of the root is zero, and the six arrays that enter the logits
  hold real numbers, the reference's result is the kernel's.
-/
import proofs.«111863_g52209622450808_cont_9to1_m_767_26_alg».proof.Proof.Words
import Mathlib.Data.Finset.Fold

noncomputable section

namespace Cert.Spec

open Idealize.ShloMosaic

/-! ## Sums of real numbers, and products with a nonnegative real -/

/-- A finite sum of real numbers, taken among the extended reals, is the real sum. -/
private theorem coe_sum {ι : Type} (s : Finset ι) (f : ι → ℝ) :
    (∑ i ∈ s, (f i : EReal)) = ((∑ i ∈ s, f i : ℝ) : EReal) := by
  induction s using Finset.cons_induction with
  | empty => simp
  | cons a s ha ih => rw [Finset.sum_cons, Finset.sum_cons, ih, EReal.coe_add]

/-- Multiplication by a nonnegative real distributes over any finite sum of extended reals: such a factor
    keeps each infinity where it is (or sends everything to zero), so the order of the additions' corner
    ⊤ + ⊥ = ⊥ is respected. -/
private theorem sum_mul_coe {ι : Type} (s : Finset ι) (x : ι → EReal) (c : ℝ) (hc : 0 ≤ c) :
    (∑ i ∈ s, x i) * (c : EReal) = ∑ i ∈ s, x i * (c : EReal) := by
  induction s using Finset.cons_induction with
  | empty => simp
  | cons a s ha ih =>
    rw [Finset.sum_cons, Finset.sum_cons,
      EReal.right_distrib_of_nonneg_of_ne_top (EReal.coe_nonneg.mpr hc) (EReal.coe_ne_top c), ih]

/-! ## The mixed values -/

/-- Dividing the root's column by its sum, or the matching row of Y: off zero both are the product with the
    reciprocal of the sum, and the three factors commute. Nothing is asked of Z. -/
private theorem mixedR_eq_mixedK (Y : Mat 1024 256) (Z : Mat 4096 1024) (hs : ∀ j, colSum Z j ≠ 0)
    (m : Fin 1024) (d : Fin 256) : mixedR Y Z m d = mixedK Y Z m d := by
  unfold mixedR mixedK
  refine Finset.sum_congr rfl fun j _ => ?_
  simp only [Ideal.div, if_neg (hs j)]
  rw [mul_assoc, mul_comm (colSum Z j)⁻¹ (Y j d)]

/-! ## The logits are real, and the same real on both sides -/

/-- Both logits of a row are the coercions of one real vector: the inner product of the two affine
    projections times 1/16, the reference dividing the whole sum by 16 and the kernel multiplying each key
    entry by 1/16. -/
private theorem logits_real (X : Mat 10000 256) (Y : Mat 1024 256) (Wq : Mat 256 256) (bq : Fin 256 → EReal)
    (Wk : Mat 256 256) (bk : Fin 256 → EReal)
    (hX : Finite X) (hY : Finite Y) (hWq : Finite Wq) (hbq : FiniteV bq) (hWk : Finite Wk) (hbk : FiniteV bk)
    (n : Fin 10000) :
    ∃ a : Fin 1024 → ℝ, (∀ m, logitR X Wq bq Y Wk bk n m = (a m : EReal)) ∧
      (∀ m, logitK X Wq bq Y Wk bk n m = (a m : EReal)) := by
  have hX : ∀ i j, ∃ x : ℝ, X i j = (x : EReal) := hX
  have hY : ∀ i j, ∃ x : ℝ, Y i j = (x : EReal) := hY
  have hWq : ∀ i j, ∃ x : ℝ, Wq i j = (x : EReal) := hWq
  have hWk : ∀ i j, ∃ x : ℝ, Wk i j = (x : EReal) := hWk
  have hbq : ∀ i, ∃ x : ℝ, bq i = (x : EReal) := hbq
  have hbk : ∀ i, ∃ x : ℝ, bk i = (x : EReal) := hbk
  choose X' hX' using hX
  choose Y' hY' using hY
  choose Wq' hWq' using hWq
  choose Wk' hWk' using hWk
  choose bq' hbq' using hbq
  choose bk' hbk' using hbk
  refine ⟨fun m => (∑ d : Fin 256, ((∑ e : Fin 256, X' n e * Wq' d e) + bq' d)
      * ((∑ e : Fin 256, Y' m e * Wk' d e) + bk' d)) * (1 / 16), fun m => ?_, fun m => ?_⟩
  · simp only [logitR, proj, sixteen_eq, Ideal.div_coe (by norm_num : (16 : ℝ) ≠ 0), hX', hY', hWq', hWk',
      hbq', hbk']
    simp only [← EReal.coe_mul, ← EReal.coe_add, coe_sum]
  · simp only [logitK, keyK, proj, sixteenth_eq, hX', hY', hWq', hWk', hbq', hbk']
    simp only [← EReal.coe_mul, ← EReal.coe_add, coe_sum]
    rw [Finset.sum_mul]
    simp only [mul_assoc]

/-! ## The softmax weights -/

/-- The fold of max from −∞ over 1024 real numbers is a real number. -/
private theorem fold_max_real (a : Fin 1024 → ℝ) :
    ∃ M : ℝ, (Finset.univ.fold max (⊥ : EReal) fun m : Fin 1024 => (a m : EReal)) = (M : EReal) := by
  have h1 : (Finset.univ.fold max (⊥ : EReal) fun m : Fin 1024 => (a m : EReal)) ≠ ⊥ := by
    have h : ((a 0 : ℝ) : EReal) ≤ Finset.univ.fold max (⊥ : EReal) fun m : Fin 1024 => (a m : EReal) :=
      (Finset.le_fold_max _).mpr (Or.inr ⟨0, Finset.mem_univ _, le_rfl⟩)
    intro hb
    rw [hb] at h
    exact absurd h (by simp)
  have h2 : (Finset.univ.fold max (⊥ : EReal) fun m : Fin 1024 => (a m : EReal)) ≠ ⊤ :=
    ((Finset.fold_max_lt _).mpr ⟨bot_lt_top, fun x _ => EReal.coe_lt_top _⟩).ne
  exact ⟨_, (EReal.coe_toReal h2 h1).symm⟩

/-- With real logits a, the reference's weight is exp(a m) / Σ exp(a m'): the shift by the row's maximum, a
    real number, cancels between numerator and denominator. -/
private theorem softR_real (X : Mat 10000 256) (Wq : Mat 256 256) (bq : Fin 256 → EReal) (Y : Mat 1024 256)
    (Wk : Mat 256 256) (bk : Fin 256 → EReal) (n : Fin 10000) (a : Fin 1024 → ℝ)
    (ha : ∀ m, logitR X Wq bq Y Wk bk n m = (a m : EReal)) (m : Fin 1024) :
    softR X Wq bq Y Wk bk n m = ((Real.exp (a m) * (1 / ∑ m' : Fin 1024, Real.exp (a m')) : ℝ) : EReal) := by
  obtain ⟨M, hM⟩ := fold_max_real a
  have hmax : rowMaxR X Wq bq Y Wk bk n = (M : EReal) := by
    unfold rowMaxR
    simp only [ha]
    exact hM
  have hexp : ∀ m', expR X Wq bq Y Wk bk n m' = ((Real.exp (a m' - M) : ℝ) : EReal) := fun m' => by
    rw [expR, ha, hmax, ← EReal.coe_sub, Ideal.exp_coe]
  have hpos : 0 < ∑ m' : Fin 1024, Real.exp (a m' - M) :=
    Finset.sum_pos (fun i _ => Real.exp_pos _) ⟨0, Finset.mem_univ _⟩
  have hpos' : 0 < ∑ m' : Fin 1024, Real.exp (a m') :=
    Finset.sum_pos (fun i _ => Real.exp_pos _) ⟨0, Finset.mem_univ _⟩
  unfold softR
  simp only [hexp, coe_sum]
  rw [Ideal.div_coe hpos.ne', ← EReal.coe_mul]
  congr 1
  have hsum : (∑ m' : Fin 1024, Real.exp (a m' - M)) = (∑ m' : Fin 1024, Real.exp (a m')) / Real.exp M := by
    rw [Finset.sum_div]
    exact Finset.sum_congr rfl fun i _ => Real.exp_sub _ _
  rw [hsum, Real.exp_sub]
  have hM0 : Real.exp M ≠ 0 := (Real.exp_pos M).ne'
  field_simp

/-! ## The two results -/

theorem outR_eq_outK (X : Mat 10000 256) (Y : Mat 1024 256) (Z : Mat 4096 1024) (Wq : Mat 256 256) (bq : Fin 256 → EReal)
    (Wk : Mat 256 256) (bk : Fin 256 → EReal)
    (hX : Finite X) (hY : Finite Y) (hWq : Finite Wq) (hbq : FiniteV bq) (hWk : Finite Wk) (hbk : FiniteV bk)
    (hs : ∀ j, colSum Z j ≠ 0) (n : Fin 10000) (d : Fin 256) :
    outR X Y Z Wq bq Wk bk n d = outK X Y Z Wq bq Wk bk n d := by
  obtain ⟨a, haR, haK⟩ := logits_real X Y Wq bq Wk bk hX hY hWq hbq hWk hbk n
  have hpos : 0 < ∑ m' : Fin 1024, Real.exp (a m') :=
    Finset.sum_pos (fun i _ => Real.exp_pos _) ⟨0, Finset.mem_univ _⟩
  unfold outR outK
  simp only [softR_real X Wq bq Y Wk bk n a haR, mixedR_eq_mixedK Y Z hs, haK, Ideal.exp_coe, oneF_eq, oneB_eq,
    mul_one, coe_sum]
  rw [Ideal.div_coe hpos.ne', one_mul, sum_mul_coe _ _ _ (by positivity)]
  refine Finset.sum_congr rfl fun m _ => ?_
  rw [EReal.coe_mul, mul_right_comm]

end Cert.Spec

end
-- ==== Proof.PreFacts.lean ====
/-
  What the precondition says, decoded: the six arrays that enter the logits hold real numbers, and no column of
  the root of the Gram matrix sums to zero.
-/
import proofs.«111863_g52209622450808_cont_9to1_m_767_26_alg».proof.Proof.Mats
import proofs.«111863_g52209622450808_cont_9to1_m_767_26_alg».proof.Proof.Gen.Pre_finite_inputs
import Idealize.ShloMosaic.PureOps.Ideal.Laws
import Idealize.ShloMosaic.Lib.ReduceAll
import Idealize.ShloMosaic.Lib.StableHlo.Predicate
import Idealize.ShloMosaic.Lib.Pipeline.Value
import proofs.«111863_g52209622450808_cont_9to1_m_767_26_alg».proof.Proof.Words

noncomputable section

namespace Cert.PreFacts

open Idealize.ShloMosaic Idealize.ShloMosaic.ValueIdx Cert.Pre_finite_inputs Cert.Spec

/-! ## Words and comparisons as extended reals -/

/-- The scalar shape has one index. -/
private instance subsingleton_scalar_idx : Subsingleton S_.Idx := ⟨fun a b => funext fun d => d.elim0⟩

/-- An ordered "less than" that answers 1 is the strict order of the extended reals. -/
private theorem lt_of_cmp_olt {a b : EReal} (h : Ideal.cmp .olt a b = 1#1) : a < b := by
  change BitVec.ofBool (decide (a < b)) = 1#1 at h
  by_contra hc
  rw [decide_eq_false hc] at h
  exact absurd h (by decide)

/-- A "not equal" that answers 1 is inequality of the extended reals. -/
private theorem ne_of_cmp_une {a b : EReal} (h : Ideal.cmp .une a b = 1#1) : a ≠ b := by
  change BitVec.ofBool (decide (a ≠ b)) = 1#1 at h
  intro hc
  rw [decide_eq_false (fun hn : a ≠ b => hn hc)] at h
  exact absurd h (by decide)

/-- An extended real whose absolute value max x (−x) is below +∞ is a real number: +∞ has absolute value +∞, and so
    has −∞. -/
private theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have h' : max x (-x) < (⊤ : EReal) := by
    have := lt_of_cmp_olt (a := max x (-x)) (b := Ideal.ofBits .f32 0x7F800000#32) h
    rwa [posInf_eq] at this
  induction x using EReal.rec with
  | bot => simp at h'
  | top => simp at h'
  | coe r => exact ⟨r, rfl⟩

/-! ## One conjunct "every |entry| < +∞", read at an entry -/

/-- If the conjunction over all entries of |x| < +∞ is 1, every entry of x is a real number. -/
private theorem entry_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) (i : s.Idx) : ∃ r : ℝ, x i = (r : EReal) := by
  have hi := Host.reduce_andi_all _ _ hr hu ix0 e i
  rw [cmpf_apply, StableHlo.Predicate.bcast_scalar hb hu] at hi
  exact real_of_abs_lt (x i) hi

/-! ## The column sums of the root of the Gram matrix, read at an index -/

/-- The dimension numbers of the product ZᵀZ: rows of Zᵀ against columns of Z, contracting the 4096 rows of Z. -/
private abbrev D := dot_S1024x4096_S4096x1024_S1024x1024_1_0_0_1_n_n

/-- The left operand is read on the output's row … -/
private theorem lhs_row (p : S1024x1024.Idx) (q : D.contr.Idx) : (D.lhsIdx p q 0).val = (p 0).val := by
  unfold DotDims.lhsIdx
  rw [dif_neg (show ¬(0 : Fin S1024x4096.rank) ∈ D.lhsBatch by decide),
    dif_pos (show (0 : Fin S1024x4096.rank) ∈ D.lhsNonContracting by decide)]
  rfl
/-- … and on the contraction index; … -/
private theorem lhs_contr (p : S1024x1024.Idx) (q : D.contr.Idx) : (D.lhsIdx p q 1).val = (q ⟨0, by decide⟩).val :=
  D.lhsIdx_val_of_single rfl p q
/-- … the right operand on the contraction index … -/
private theorem rhs_contr (p : S1024x1024.Idx) (q : D.contr.Idx) : (D.rhsIdx p q 0).val = (q ⟨0, by decide⟩).val :=
  D.rhsIdx_val_of_single rfl p q
/-- … and on the output's column. -/
private theorem rhs_col (p : S1024x1024.Idx) (q : D.contr.Idx) : (D.rhsIdx p q 1).val = (p 1).val := by
  unfold DotDims.rhsIdx
  rw [dif_neg (show ¬(1 : Fin S4096x1024.rank) ∈ D.rhsBatch by decide),
    dif_pos (show (1 : Fin S4096x1024.rank) ∈ D.rhsNonContracting by decide)]
  rfl

/-- The product of the transpose of Z with Z at (i, j) is Σ_r Z r i · Z r j, the Gram matrix. -/
private theorem gram_read (x2 : FVec Ideal S4096x1024 .f32) (ht : S4096x1024.Transposes [1, 0] S1024x4096) (i j : Fin 1024) :
    Host.dotGeneral D none (transpose S1024x4096 [1, 0] x2 ht) x2 (ix2 i j) = gram (mat x2) i j := by
  unfold gram
  have hT : ∀ (a : Fin 1024) (r : Fin 4096), transpose S1024x4096 [1, 0] x2 ht (ix2 a r) = x2 (ix2 r a) := fun a r =>
    transpose_apply [1, 0] x2 ht (ix2 a r) (ix2 r a) (fun b => match b with
      | ⟨0, _⟩ => rfl
      | ⟨1, _⟩ => rfl)
  generalize transpose S1024x4096 [1, 0] x2 ht = y at hT ⊢
  simp only [Host.dotGeneral]
  rw [Ideal.dotGeneral_apply, ← Equiv.sum_comp (contrEquiv1 D 4096 rfl rfl).symm]
  refine Finset.sum_congr rfl fun r _ => ?_
  have hk := contrEquiv1_symm_val D 4096 rfl rfl r
  have el : D.lhsIdx (ix2 i j) ((contrEquiv1 D 4096 rfl rfl).symm r) = ix2 i r := funext fun a => Fin.ext (by
    match a with
    | ⟨0, _⟩ => exact lhs_row _ _
    | ⟨1, _⟩ => exact (lhs_contr _ _).trans hk)
  have er : D.rhsIdx (ix2 i j) ((contrEquiv1 D 4096 rfl rfl).symm r) = ix2 r j := funext fun a => Fin.ext (by
    match a with
    | ⟨0, _⟩ => exact (rhs_contr _ _).trans hk
    | ⟨1, _⟩ => exact rhs_col _ _)
  rw [el, er, hT]

/-- The sum over the first axis of a 1024 × 1024 array, from 0, at column j is Σ_i of the array at (i, j). -/
private theorem colsum_read (y : FVec Ideal S1024x1024 .f32) (hr : S1024x1024.ReducesTo [0] S1024) (hu : 0 < S_.numel) (j : Fin 1024) :
    Host.reduceAdd y (constant (F := Ideal) S_ .f32 0x00000000#32) hr hu (ix1 j) = ∑ i : Fin 1024, y (ix2 i j) := by
  simp only [Host.reduceAdd, Ideal.hostReduceAdd_def]
  rw [Ideal.hostReduceAdd_single hr (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The precondition's column sum — the sum over rows of the entrywise root of ZᵀZ — is the column sum of the root of the
    Gram matrix. -/
private theorem colSum_read (x2 : FVec Ideal S4096x1024 .f32) (ht : S4096x1024.Transposes [1, 0] S1024x4096)
    (hr : S1024x1024.ReducesTo [0] S1024) (hu : 0 < S_.numel) (j : Fin 1024) :
    Host.reduceAdd (Host.sqrt (Host.dotGeneral D none (transpose S1024x4096 [1, 0] x2 ht) x2))
        (constant (F := Ideal) S_ .f32 0x00000000#32) hr hu (ix1 j) = colSum (mat x2) j := by
  rw [colsum_read]
  unfold colSum root
  refine Finset.sum_congr rfl fun i _ => ?_
  show Ideal.sqrt (Host.dotGeneral D none (transpose S1024x4096 [1, 0] x2 ht) x2 (ix2 i j)) = _
  rw [gram_read]

/-- If the conjunction over all columns of "the column sum differs from 0" is 1, no column sum is 0. -/
private theorem colSum_ne_zero (x2 : FVec Ideal S4096x1024 .f32) (ht : S4096x1024.Transposes [1, 0] S1024x4096)
    (hr : S1024x1024.ReducesTo [0] S1024) (hu : 0 < S_.numel) (hb : S_.BroadcastsInDim S1024 (![] : Fin 0 → Fin S1024.rank))
    (hr' : S1024.ReducesTo [0] S_)
    (e : Host.reduce IntOp.andi
        (cmpf .une
          (Host.reduceAdd (Host.sqrt (Host.dotGeneral D none (transpose S1024x4096 [1, 0] x2 ht) x2))
            (constant (F := Ideal) S_ .f32 0x00000000#32) hr hu)
          (broadcastInDim S1024 ![] hb (constant (F := Ideal) S_ .f32 0x00000000#32)))
        (constantI S_ 1 1#1) hr' hu ix0 = 1#1) (j : Fin 1024) : colSum (mat x2) j ≠ 0 := by
  have hj := Host.reduce_andi_all _ _ hr' hu ix0 e (ix1 j)
  rw [cmpf_apply, StableHlo.Predicate.bcast_scalar hb hu, colSum_read, constant_apply, Ideal.ofBits_zero_f32] at hj
  exact ne_of_cmp_une hj

/-! ## The precondition, decoded -/

theorem of_pre (x0 : FVec Ideal S10000x256 .f32) (x1 : FVec Ideal S1024x256 .f32) (x2 : FVec Ideal S4096x1024 .f32)
    (x3 : FVec Ideal S256x256 .f32) (x4 : FVec Ideal S256 .f32) (x5 : FVec Ideal S256x256 .f32) (x6 : FVec Ideal S256 .f32)
    (h : Cert.Pre_finite_inputs.fn (F := Ideal) x0 x1 x2 x3 x4 x5 x6 = (fun _ => 1#1)) :
    Finite (mat x0) ∧ Finite (mat x1) ∧ Finite (mat x3) ∧ FiniteV (vec x4) ∧ Finite (mat x5) ∧ FiniteV (vec x6)
      ∧ ∀ j : Fin 1024, colSum (mat x2) j ≠ 0 := by
  have h0 := congrFun h ix0
  dsimp only [fn, fn_part1, fn_part2] at h0
  obtain ⟨h7, e8⟩ := IntOp.andi_eq_one.1 h0
  obtain ⟨h6, e7⟩ := IntOp.andi_eq_one.1 h7
  obtain ⟨h5, e6⟩ := IntOp.andi_eq_one.1 h6
  obtain ⟨h4, e5⟩ := IntOp.andi_eq_one.1 h5
  obtain ⟨h3, e4⟩ := IntOp.andi_eq_one.1 h4
  obtain ⟨h2, _⟩ := IntOp.andi_eq_one.1 h3
  obtain ⟨e1, e2⟩ := IntOp.andi_eq_one.1 h2
  exact ⟨fun i j => entry_real x0 _ _ _ e1 (ix2 i j), fun i j => entry_real x1 _ _ _ e2 (ix2 i j),
    fun i j => entry_real x3 _ _ _ e4 (ix2 i j), fun i => entry_real x4 _ _ _ e5 (ix1 i),
    fun i j => entry_real x5 _ _ _ e6 (ix2 i j), fun i => entry_real x6 _ _ _ e7 (ix1 i),
    fun j => colSum_ne_zero x2 _ _ _ _ _ e8 j⟩

end Cert.PreFacts

end
-- ==== Proof.lean ====
/-
  The certificate of the fused attention kernel against its reference.

  With G = ZᵀZ, R = √G entrywise and s the column sums of R, the reference computes
  softmax((X Wqᵀ + bq)(Y Wkᵀ + bk)ᵀ / 16) · ((R / s) Y); the kernel computes the same matrix with the factor 1/16
  multiplied into the keys, the column sums dividing the rows of Y, and the softmax normalised after the product.
  The two agree where no column sum is zero (there the reference's own quotient is 0/0) and the arrays entering
  the logits are finite: Proof/Bridge.lean.  The reference's side is read off its run (Proof/RefValue.lean); the
  kernel's side off its pipeline's run: the body's three steps (Proof/BodyRuns.lean), the proof data and the body
  obligation (Proof/Body.lean), what the steps leave as payloads (Proof/Pieces.lean, Proof/PiecesMix.lean), the
  payloads and the blocks at an entry (Proof/PayGram.lean, PayMix.lean, PayAttn.lean, Blocks.lean), and from them
  the Gram quadrants, the mixed values, the keys and each output block (Proof/ValueGram.lean, ValueMix.lean,
  ValueAttn.lean, KernelValue.lean).  The precondition is decoded in Proof/PreFacts.lean.
-/
import proofs.«111863_g52209622450808_cont_9to1_m_767_26_alg».proof.Defs
import proofs.«111863_g52209622450808_cont_9to1_m_767_26_alg».proof.Proof.KernelValue
import proofs.«111863_g52209622450808_cont_9to1_m_767_26_alg».proof.Proof.BodyBits
import proofs.«111863_g52209622450808_cont_9to1_m_767_26_alg».proof.Proof.RefValue
import proofs.«111863_g52209622450808_cont_9to1_m_767_26_alg».proof.Proof.Bridge
import proofs.«111863_g52209622450808_cont_9to1_m_767_26_alg».proof.Proof.PreFacts
import proofs.«111863_g52209622450808_cont_9to1_m_767_26_alg».proof.Proof.Gen.Kernel
import proofs.«111863_g52209622450808_cont_9to1_m_767_26_alg».proof.Proof.Gen.KernelIdeal
import proofs.«111863_g52209622450808_cont_9to1_m_767_26_alg».proof.Proof.Gen.ReferenceIdeal
import proofs.«111863_g52209622450808_cont_9to1_m_767_26_alg».proof.Proof.Gen.ReferenceIdeal.Run
import proofs.«111863_g52209622450808_cont_9to1_m_767_26_alg».proof.Proof.Gen.ReferenceIdeal.Read
import proofs.«111863_g52209622450808_cont_9to1_m_767_26_alg».proof.Proof.Gen.Pre_finite_inputs
import Idealize.ShloMosaic.Adequacy
import Idealize.ShloMosaic.Init

noncomputable section

namespace Cert.Proof

open Idealize.ShloMosaic Idealize.ShloMosaic.TcCoe Idealize.ShloMosaic.ValueIdx Idealize.SL.Sem Cert.Spec

/-- The word-level kernel runs and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, the reference's result is the
    kernel's: the reference's arrangement read off its run, the precondition decoded, the two arrangements joined. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    Cert.ReferenceIdeal.Value.res_main_v33 m' c = Cert.KernelIdeal.Body.resultK m c := by
  obtain ⟨e0, e1, e2, e3, e4, e5, e6⟩ := hagree c
  rw [Cert.ReferenceIdeal.Read.val_main_v33_eq, e0, e1, e2, e3, e4, e5, e6]
  obtain ⟨h0, h1, h3, h4, h5, h6, hs⟩ := Cert.PreFacts.of_pre _ _ _ _ _ _ _ (hpre c)
  funext i
  obtain ⟨n, d, rfl⟩ : ∃ (n : Fin 10000) (d : Fin 256), i = ix2 n d := ⟨i 0, i 1, eq_ix2 i⟩
  refine (Cert.ReferenceIdeal.RefValue.result_apply _ _ _ _ _ _ _ n d).trans ?_
  exact outR_eq_outK _ _ _ _ _ _ _ h0 h1 h3 h4 h5 h6 hs n d

/-- The two idealized programs, from memories agreeing on the arguments, end with equal results. -/
theorem algebraic : Cert.algebraic_KernelIdeal_ReferenceIdeal := by
  intro m ρ m' ρ' hpre hagree
  refine ⟨fun c => Cert.KernelIdeal.Body.resultK m c, Cert.KernelIdeal.Body.run_value m ρ, ?_⟩
  exact (θ_run Cert.ReferenceIdeal.defs _ _).mono
    (fun _ h c => ⟨(h c).1.trans (results_agree m m' hpre hagree c), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
